-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S366x32 : Shape := ⟨2, ![366, 32]⟩
abbrev S24x32 : Shape := ⟨2, ![24, 32]⟩
abbrev S7x32 : Shape := ⟨2, ![7, 32]⟩
abbrev S60x32 : Shape := ⟨2, ![60, 32]⟩
abbrev S_ : Shape := ⟨0, ![]⟩
abbrev S2000000x1 : Shape := ⟨2, ![2000000, 1]⟩

class Facts : Prop where
  bcast_S_S366x32 : S_.BroadcastsInDim S366x32 (![] : Fin 0 → Fin S366x32.rank)
  reducesTo_S366x32_S_d0_1 : S366x32.ReducesTo [0, 1] S_
  h_S_ : 0 < S_.numel
  bcast_S_S24x32 : S_.BroadcastsInDim S24x32 (![] : Fin 0 → Fin S24x32.rank)
  reducesTo_S24x32_S_d0_1 : S24x32.ReducesTo [0, 1] S_
  bcast_S_S7x32 : S_.BroadcastsInDim S7x32 (![] : Fin 0 → Fin S7x32.rank)
  reducesTo_S7x32_S_d0_1 : S7x32.ReducesTo [0, 1] S_
  bcast_S_S60x32 : S_.BroadcastsInDim S60x32 (![] : Fin 0 → Fin S60x32.rank)
  reducesTo_S60x32_S_d0_1 : S60x32.ReducesTo [0, 1] S_
  bcast_S_S2000000x4 : S_.BroadcastsInDim S2000000x4 (![] : Fin 0 → Fin S2000000x4.rank)
  reducesTo_S2000000x4_S_d0_1 : S2000000x4.ReducesTo [0, 1] S_
  slices_S2000000x4_S2000000x1_0_0 : S2000000x4.Slices ![0, 0] S2000000x1
  bcast_S_S2000000x1 : S_.BroadcastsInDim S2000000x1 (![] : Fin 0 → Fin S2000000x1.rank)
  reducesTo_S2000000x1_S_d0_1 : S2000000x1.ReducesTo [0, 1] S_
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1

variable [Facts]

def fn_part2 {F : FTy → Type} [FloatOps F] (main_arg0 : IVec S2000000x4 32) (main_v32 : IVec S_ 1) (main_v33 : IVec S2000000x1 32) : IVec S_ 1 :=
  let main_c_12 : IVec S_ 32 := constantI S_ 32 7#32
  let main_v34 : IVec S2000000x1 32 := broadcastInDim S2000000x1 ![] bcast_S_S2000000x1 main_c_12
  let main_v35 : IVec S2000000x1 1 := cmpi .slt main_v33 main_v34
  let main_c_13 : IVec S_ 1 := constantI S_ 1 1#1
  let main_v36 : IVec S_ 1 := (fun x v => Host.reduce IntOp.andi x v reducesTo_S2000000x1_S_d0_1 h_S_) main_v35 main_c_13
  let main_v37 : IVec S_ 1 := andi main_v32 main_v36
  let main_v38 : IVec S2000000x1 32 := (extractStridedSlice S2000000x1 ![0, 3] · slices_S2000000x4_S2000000x1_0_3) main_arg0
  let main_c_14 : IVec S_ 32 := constantI S_ 32 60#32
  let main_v39 : IVec S2000000x1 32 := broadcastInDim S2000000x1 ![] bcast_S_S2000000x1 main_c_14
  let main_v40 : IVec S2000000x1 1 := cmpi .slt main_v38 main_v39
  let main_c_15 : IVec S_ 1 := constantI S_ 1 1#1
  let main_v41 : IVec S_ 1 := (fun x v => Host.reduce IntOp.andi x v reducesTo_S2000000x1_S_d0_1 h_S_) main_v40 main_c_15
  let main_v42 : IVec S_ 1 := andi main_v37 main_v41
  main_v42

def fn_part1 {F : FTy → Type} [FloatOps F] (main_arg0 : IVec S2000000x4 32) (main_v13 : IVec S_ 1) (main_v16 : IVec S60x32 1) : IVec S_ 1 :=
  let main_c_5 : IVec S_ 1 := constantI S_ 1 1#1
  let main_v17 : IVec S_ 1 := (fun x v => Host.reduce IntOp.andi x v reducesTo_S60x32_S_d0_1 h_S_) main_v16 main_c_5
  let main_v18 : IVec S_ 1 := andi main_v13 main_v17
  let main_c_6 : IVec S_ 32 := constantI S_ 32 0#32
  let main_v19 : IVec S2000000x4 32 := broadcastInDim S2000000x4 ![] bcast_S_S2000000x4 main_c_6
  let main_v20 : IVec S2000000x4 1 := cmpi .sge main_arg0 main_v19
  let main_c_7 : IVec S_ 1 := constantI S_ 1 1#1
  let main_v21 : IVec S_ 1 := (fun x v => Host.reduce IntOp.andi x v reducesTo_S2000000x4_S_d0_1 h_S_) main_v20 main_c_7
  let main_v22 : IVec S_ 1 := andi main_v18 main_v21
  let main_v23 : IVec S2000000x1 32 := (extractStridedSlice S2000000x1 ![0, 0] · slices_S2000000x4_S2000000x1_0_0) main_arg0
  let main_c_8 : IVec S_ 32 := constantI S_ 32 366#32
  let main_v24 : IVec S2000000x1 32 := broadcastInDim S2000000x1 ![] bcast_S_S2000000x1 main_c_8
  let main_v25 : IVec S2000000x1 1 := cmpi .slt main_v23 main_v24
  let main_c_9 : IVec S_ 1 := constantI S_ 1 1#1
  let main_v26 : IVec S_ 1 := (fun x v => Host.reduce IntOp.andi x v reducesTo_S2000000x1_S_d0_1 h_S_) main_v25 main_c_9
  let main_v27 : IVec S_ 1 := andi main_v22 main_v26
  let main_v28 : IVec S2000000x1 32 := (extractStridedSlice S2000000x1 ![0, 1] · slices_S2000000x4_S2000000x1_0_1) main_arg0
  let main_c_10 : IVec S_ 32 := constantI S_ 32 24#32
  let main_v29 : IVec S2000000x1 32 := broadcastInDim S2000000x1 ![] bcast_S_S2000000x1 main_c_10
  let main_v30 : IVec S2000000x1 1 := cmpi .slt main_v28 main_v29
  let main_c_11 : IVec S_ 1 := constantI S_ 1 1#1
  let main_v31 : IVec S_ 1 := (fun x v => Host.reduce IntOp.andi x v reducesTo_S2000000x1_S_d0_1 h_S_) main_v30 main_c_11
  let main_v32 : IVec S_ 1 := andi main_v27 main_v31
  let main_v33 : IVec S2000000x1 32 := (extractStridedSlice S2000000x1 ![0, 2] · slices_S2000000x4_S2000000x1_0_2) main_arg0
  fn_part2 (F := F) main_arg0 main_v32 main_v33

def fn {F : FTy → Type} [FloatOps F] (main_arg0 : IVec S2000000x4 32) (main_arg1 : FVec F S366x32 .f32) (main_arg2 : FVec F S24x32 .f32) (main_arg3 : FVec F S7x32 .f32) (main_arg4 : FVec F S60x32 .f32) : IVec S_ 1 :=
  let main_v0 : FVec F S366x32 .f32 := Host.absf main_arg1
  let main_cst : FVec F S_ .f32 := constant S_ .f32 0x7F800000#32
  let main_v1 : FVec F S366x32 .f32 := broadcastInDim S366x32 ![] bcast_S_S366x32 main_cst
  let main_v2 : IVec S366x32 1 := cmpf .olt main_v0 main_v1
  let main_c : IVec S_ 1 := constantI S_ 1 1#1
  let main_v3 : IVec S_ 1 := (fun x v => Host.reduce IntOp.andi x v reducesTo_S366x32_S_d0_1 h_S_) main_v2 main_c
  let main_v4 : FVec F S24x32 .f32 := Host.absf main_arg2
  let main_cst_0 : FVec F S_ .f32 := constant S_ .f32 0x7F800000#32
  let main_v5 : FVec F S24x32 .f32 := broadcastInDim S24x32 ![] bcast_S_S24x32 main_cst_0
  let main_v6 : IVec S24x32 1 := cmpf .olt main_v4 main_v5
  let main_c_1 : IVec S_ 1 := constantI S_ 1 1#1
  let main_v7 : IVec S_ 1 := (fun x v => Host.reduce IntOp.andi x v reducesTo_S24x32_S_d0_1 h_S_) main_v6 main_c_1
  let main_v8 : IVec S_ 1 := andi main_v3 main_v7
  let main_v9 : FVec F S7x32 .f32 := Host.absf main_arg3
  let main_cst_2 : FVec F S_ .f32 := constant S_ .f32 0x7F800000#32
  let main_v10 : FVec F S7x32 .f32 := broadcastInDim S7x32 ![] bcast_S_S7x32 main_cst_2
  let main_v11 : IVec S7x32 1 := cmpf .olt main_v9 main_v10
  let main_c_3 : IVec S_ 1 := constantI S_ 1 1#1
  let main_v12 : IVec S_ 1 := (fun x v => Host.reduce IntOp.andi x v reducesTo_S7x32_S_d0_1 h_S_) main_v11 main_c_3
  let main_v13 : IVec S_ 1 := andi main_v8 main_v12
  let main_v14 : FVec F S60x32 .f32 := Host.absf main_arg4
  let main_cst_4 : FVec F S_ .f32 := constant S_ .f32 0x7F800000#32
  let main_v15 : FVec F S60x32 .f32 := broadcastInDim S60x32 ![] bcast_S_S60x32 main_cst_4
  let main_v16 : IVec S60x32 1 := cmpf .olt main_v14 main_v15
  fn_part1 (F := F) main_arg0 main_v13 main_v16
-- ==== Kernel.lean ====
abbrev S2000000x4 : Shape := ⟨2, ![2000000, 4]⟩
abbrev S366x32 : Shape := ⟨2, ![366, 32]⟩
abbrev S24x32 : Shape := ⟨2, ![24, 32]⟩
abbrev S7x32 : Shape := ⟨2, ![7, 32]⟩
abbrev S60x32 : Shape := ⟨2, ![60, 32]⟩
abbrev S2000000x1 : Shape := ⟨2, ![2000000, 1]⟩
abbrev S_ : Shape := ⟨0, ![]⟩
abbrev S768x128 : Shape := ⟨2, ![768, 128]⟩
abbrev S1 : Shape := ⟨1, ![1]⟩
abbrev S2 : Shape := ⟨1, ![2]⟩
abbrev S2000000x128 : Shape := ⟨2, ![2000000, 128]⟩
abbrev S5000x4 : Shape := ⟨2, ![5000, 4]⟩
abbrev S5000x128 : Shape := ⟨2, ![5000, 128]⟩
abbrev S5000x384 : Shape := ⟨2, ![5000, 384]⟩
abbrev S5000x1 : Shape := ⟨2, ![5000, 1]⟩
abbrev S5000x768 : Shape := ⟨2, ![5000, 768]⟩

abbrev nBuf : Space → Nat
  | .hbm => 70
  | .vmem => 5
  | .smem => 0
  | _ => 0

abbrev bufTy : (tb : Table) → Fin (tcTables nBuf tb) → BufTy
  | .hbm, ⟨0, _⟩ => ⟨S2000000x4, .i32⟩
  | .hbm, ⟨1, _⟩ => ⟨S366x32, .f32⟩
  | .hbm, ⟨2, _⟩ => ⟨S24x32, .f32⟩
  | .hbm, ⟨3, _⟩ => ⟨S7x32, .f32⟩
  | .hbm, ⟨4, _⟩ => ⟨S60x32, .f32⟩
  | .hbm, ⟨5, _⟩ => ⟨S2000000x1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S2000000x1, .i32⟩
  | .hbm, ⟨10, _⟩ => ⟨S2000000x1, .i32⟩
  | .hbm, ⟨11, _⟩ => ⟨S_, .i32⟩
  | .hbm, ⟨12, _⟩ => ⟨S2000000x1, .i32⟩
  | .hbm, ⟨13, _⟩ => ⟨S2000000x1, .i32⟩
  | .hbm, ⟨14, _⟩ => ⟨S2000000x1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2000000x1, .i32⟩
  | .hbm, ⟨19, _⟩ => ⟨S2000000x1, .i32⟩
  | .hbm, ⟨20, _⟩ => ⟨S_, .i32⟩
  | .hbm, ⟨21, _⟩ => ⟨S2000000x1, .i32⟩
  | .hbm, ⟨22, _⟩ => ⟨S2000000x1, .i32⟩
  | .hbm, ⟨23, _⟩ => ⟨S2000000x1, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2000000x1, .i32⟩
  | .hbm, ⟨28, _⟩ => ⟨S2000000x1, .i32⟩
  | .hbm, ⟨29, _⟩ => ⟨S_, .i32⟩
  | .hbm, ⟨30, _⟩ => ⟨S2000000x1, .i32⟩
  | .hbm, ⟨31, _⟩ => ⟨S2000000x1, .i32⟩
  | .hbm, ⟨32, _⟩ => ⟨S2000000x1, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S2000000x1, .i32⟩
  | .hbm, ⟨37, _⟩ => ⟨S2000000x1, .i32⟩
  | .hbm, ⟨38, _⟩ => ⟨S_, .i32⟩
  | .hbm, ⟨39, _⟩ => ⟨S2000000x1, .i32⟩
  | .hbm, ⟨40, _⟩ => ⟨S2000000x1, .i32⟩
  | .hbm, ⟨41, _⟩ => ⟨S2000000x4, .i32⟩
  | .hbm, ⟨42, _⟩ => ⟨S_, .f32⟩
  | .hbm, ⟨43, _⟩ => ⟨S768x128, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S768x128, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S768x128, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S768x128, .f32⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S2, .i32⟩
  | .hbm, ⟨67, _⟩ => ⟨S768x128, .f32⟩
  | .hbm, ⟨68, _⟩ => ⟨S768x128, .bf16⟩
  | .hbm, ⟨69, _⟩ => ⟨S2000000x128, .f32⟩
  | .local _ .vmem, ⟨0, _⟩ => ⟨S5000x4, .i32⟩
  | .local _ .vmem, ⟨1, _⟩ => ⟨S5000x4, .i32⟩
  | .local _ .vmem, ⟨2, _⟩ => ⟨S768x128, .bf16⟩
  | .local _ .vmem, ⟨3, _⟩ => ⟨S5000x128, .f32⟩
  | .local _ .vmem, ⟨4, _⟩ => ⟨S5000x128, .f32⟩
  | _, _ => ⟨S2000000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v3 : Ref sig .tc := ⟨.hbm, 22, rfl⟩
abbrev main_v4 : Ref sig .tc := ⟨.hbm, 23, rfl⟩
abbrev main_c_3 : Ref sig .tc := ⟨.hbm, 24, rfl⟩
abbrev main_c_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v5 : Ref sig .tc := ⟨.hbm, 31, rfl⟩
abbrev main_v6 : Ref sig .tc := ⟨.hbm, 32, rfl⟩
abbrev main_c_5 : Ref sig .tc := ⟨.hbm, 33, rfl⟩
abbrev main_c_6 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v7 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_c_7 : Ref sig .tc := ⟨.hbm, 44, rfl⟩
abbrev main_v10 : Ref sig .tc := ⟨.hbm, 45, rfl⟩
abbrev main_c_8 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_c_9 : Ref sig .tc := ⟨.hbm, 50, rfl⟩
abbrev main_v14 : Ref sig .tc := ⟨.hbm, 51, rfl⟩
abbrev main_c_10 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_c_11 : Ref sig .tc := ⟨.hbm, 56, rfl⟩
abbrev main_v18 : Ref sig .tc := ⟨.hbm, 57, rfl⟩
abbrev main_c_12 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_13 : Ref sig .tc := ⟨.hbm, 62, rfl⟩
abbrev main_v22 : Ref sig .tc := ⟨.hbm, 63, rfl⟩
abbrev main_c_14 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2000000x4_S2000000x1_0_0 : S2000000x4.Slices ![0, 0] S2000000x1
  bcast_S_S2000000x1 : S_.BroadcastsInDim S2000000x1 (![] : Fin 0 → Fin S2000000x1.rank)
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  concatenates_S2000000x1_S2000000x1_S2000000x1_S2000000x1_S2000000x4_d1 : Shape.Concatenates [S2000000x1, S2000000x1, S2000000x1, S2000000x1] S2000000x4 1
  bcast_S_S768x128 : S_.BroadcastsInDim S768x128 (![] : Fin 0 → Fin S768x128.rank)
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  iota_S5000x384_d1_w32 : S5000x384.Iotas .tc 32 [1]
  slices_S5000x384_o0_0_S5000x128 : S5000x384.Slices ![0, 0] S5000x128
  slices_S5000x4_o0_0_S5000x1 : S5000x4.Slices ![0, 0] S5000x1
  broadcasts_S5000x1_S5000x384 : S5000x1.Broadcasts S5000x384
  natLt_1_32 : 1 < 32
  slices_S5000x4_o0_1_S5000x1 : S5000x4.Slices ![0, 1] S5000x1
  broadcasts_S5000x1_S5000x128 : S5000x1.Broadcasts S5000x128
  slices_S5000x4_o0_2_S5000x1 : S5000x4.Slices ![0, 2] S5000x1
  slices_S5000x4_o0_3_S5000x1 : S5000x4.Slices ![0, 3] S5000x1
  concatenates_S5000x384_S5000x128_S5000x128_S5000x128_S5000x768_d1 : Shape.Concatenates [S5000x384, S5000x128, S5000x128, S5000x128] S5000x768 1
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S5000x128_S5000x128_0_0 : ∀ a, (![0, 0] : Fin 2 → Nat) a + S5000x128.size a ≤ S5000x128.size a
  h_S5000x128 : 0 < S5000x128.numel
  scatter_S768x128_S2_S366x32_01_n_01_0_wf : ScatterDims.WF S768x128 S2 S366x32 [0, 1] [] [0, 1] 0
  scatter_S768x128_S2_S24x32_01_n_01_0_wf : ScatterDims.WF S768x128 S2 S24x32 [0, 1] [] [0, 1] 0
  scatter_S768x128_S2_S7x32_01_n_01_0_wf : ScatterDims.WF S768x128 S2 S7x32 [0, 1] [] [0, 1] 0
  scatter_S768x128_S2_S60x32_01_n_01_0_wf : ScatterDims.WF S768x128 S2 S60x32 [0, 1] [] [0, 1] 0
  dot_S5000x768_S768x128_S5000x128_1_0_0_1_n_n_wf : DotDims.WF S5000x768 S768x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S2000000x4.size a
  hwx0_0 : ∀ i : grid0.Coords, EltTy.bits .i32 = 32 ∨ (Rect.block (s := S2000000x4) S5000x4.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .bf16 = 32 ∨ (Rect.block (s := S768x128) S768x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S2000000x128.size a
  hwx0_2 : ∀ i : grid0.Coords, EltTy.bits .f32 = 32 ∨ (Rect.block (s := S2000000x128) S5000x128.size (cc0_transform_2 i) (hinb0_2 i)).WholeWords (EltTy.packing .f32)

variable [Facts₀]

def scatter_S768x128_S2_S366x32_01_n_01_0 : ScatterDims S768x128 S2 S366x32 where
  updateWindowDims := [0, 1]
  insertedWindowDims := []
  scatterDimsToOperandDims := [0, 1]
  indexVectorDim := 0
  wf := scatter_S768x128_S2_S366x32_01_n_01_0_wf
def scatter_S768x128_S2_S24x32_01_n_01_0 : ScatterDims S768x128 S2 S24x32 where
  updateWindowDims := [0, 1]
  insertedWindowDims := []
  scatterDimsToOperandDims := [0, 1]
  indexVectorDim := 0
  wf := scatter_S768x128_S2_S24x32_01_n_01_0_wf
def scatter_S768x128_S2_S7x32_01_n_01_0 : ScatterDims S768x128 S2 S7x32 where
  updateWindowDims := [0, 1]
  insertedWindowDims := []
  scatterDimsToOperandDims := [0, 1]
  indexVectorDim := 0
  wf := scatter_S768x128_S2_S7x32_01_n_01_0_wf
def scatter_S768x128_S2_S60x32_01_n_01_0 : ScatterDims S768x128 S2 S60x32 where
  updateWindowDims := [0, 1]
  insertedWindowDims := []
  scatterDimsToOperandDims := [0, 1]
  indexVectorDim := 0
  wf := scatter_S768x128_S2_S60x32_01_n_01_0_wf
def dot_S5000x768_S768x128_S5000x128_1_0_0_1_n_n : DotDims S5000x768 S768x128 S5000x128 where
  lhsContracting := [1]
  rhsContracting := [0]
  lhsNonContracting := [0]
  rhsNonContracting := [1]
  lhsBatch := []
  rhsBatch := []
  wf := dot_S5000x768_S768x128_S5000x128_1_0_0_1_n_n_wf

abbrev win0_0 : Pipeline.Window sig grid0 :=
  Pipeline.Window.ofSpec (Memref.whole main_v8) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S366x32 : Shape := ⟨2, ![366, 32]⟩
abbrev S24x32 : Shape := ⟨2, ![24, 32]⟩
abbrev S7x32 : Shape := ⟨2, ![7, 32]⟩
abbrev S60x32 : Shape := ⟨2, ![60, 32]⟩
abbrev S2000000x1 : Shape := ⟨2, ![2000000, 1]⟩
abbrev S2000000 : Shape := ⟨1, ![2000000]⟩
abbrev S_ : Shape := ⟨0, ![]⟩
abbrev S1 : Shape := ⟨1, ![1]⟩
abbrev S1x1 : Shape := ⟨2, ![1, 1]⟩
abbrev S2000000x32 : Shape := ⟨2, ![2000000, 32]⟩
abbrev S2000000x128 : Shape := ⟨2, ![2000000, 128]⟩

abbrev nBuf : Space → Nat
  | .hbm => 106
  | .vmem => 0
  | .smem => 0
  | _ => 0

abbrev bufTy : (tb : Table) → Fin (tcTables nBuf tb) → BufTy
  | .hbm, ⟨0, _⟩ => ⟨S2000000x4, .i32⟩
  | .hbm, ⟨1, _⟩ => ⟨S366x32, .f32⟩
  | .hbm, ⟨2, _⟩ => ⟨S24x32, .f32⟩
  | .hbm, ⟨3, _⟩ => ⟨S7x32, .f32⟩
  | .hbm, ⟨4, _⟩ => ⟨S60x32, .f32⟩
  | .hbm, ⟨5, _⟩ => ⟨S2000000x1, .i32⟩
  | .hbm, ⟨6, _⟩ => ⟨S2000000, .i32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S1, .i32⟩
  | .hbm, ⟨16, _⟩ => ⟨S_, .i32⟩
  | .hbm, ⟨17, _⟩ => ⟨S2000000x1, .i32⟩
  | .hbm, ⟨18, _⟩ => ⟨S2000000x1, .i1⟩
  | .hbm, ⟨19, _⟩ => ⟨S1x1, .i32⟩
  | .hbm, ⟨20, _⟩ => ⟨S2000000x1, .i32⟩
  | .hbm, ⟨21, _⟩ => ⟨S2000000x1, .i1⟩
  | .hbm, ⟨22, _⟩ => ⟨S2000000x1, .i1⟩
  | .hbm, ⟨23, _⟩ => ⟨S_, .i1⟩
  | .hbm, ⟨24, _⟩ => ⟨S2000000, .i1⟩
  | .hbm, ⟨25, _⟩ => ⟨S2000000x32, .f32⟩
  | .hbm, ⟨26, _⟩ => ⟨S2000000x32, .i1⟩
  | .hbm, ⟨27, _⟩ => ⟨S_, .f32⟩
  | .hbm, ⟨28, _⟩ => ⟨S2000000x32, .f32⟩
  | .hbm, ⟨29, _⟩ => ⟨S2000000x32, .f32⟩
  | .hbm, ⟨30, _⟩ => ⟨S2000000x1, .i32⟩
  | .hbm, ⟨31, _⟩ => ⟨S2000000, .i32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S1, .i32⟩
  | .hbm, ⟨41, _⟩ => ⟨S_, .i32⟩
  | .hbm, ⟨42, _⟩ => ⟨S2000000x1, .i32⟩
  | .hbm, ⟨43, _⟩ => ⟨S2000000x1, .i1⟩
  | .hbm, ⟨44, _⟩ => ⟨S1x1, .i32⟩
  | .hbm, ⟨45, _⟩ => ⟨S2000000x1, .i32⟩
  | .hbm, ⟨46, _⟩ => ⟨S2000000x1, .i1⟩
  | .hbm, ⟨47, _⟩ => ⟨S2000000x1, .i1⟩
  | .hbm, ⟨48, _⟩ => ⟨S_, .i1⟩
  | .hbm, ⟨49, _⟩ => ⟨S2000000, .i1⟩
  | .hbm, ⟨50, _⟩ => ⟨S2000000x32, .f32⟩
  | .hbm, ⟨51, _⟩ => ⟨S2000000x32, .i1⟩
  | .hbm, ⟨52, _⟩ => ⟨S_, .f32⟩
  | .hbm, ⟨53, _⟩ => ⟨S2000000x32, .f32⟩
  | .hbm, ⟨54, _⟩ => ⟨S2000000x32, .f32⟩
  | .hbm, ⟨55, _⟩ => ⟨S2000000x1, .i32⟩
  | .hbm, ⟨56, _⟩ => ⟨S2000000, .i32⟩
  | .hbm, ⟨57, _⟩ => ⟨S_, .i32⟩
  | .hbm, ⟨58, _⟩ => ⟨S2000000, .i32⟩
  | .hbm, ⟨59, _⟩ => ⟨S2000000, .i1⟩
  | .hbm, ⟨60, _⟩ => ⟨S_, .i32⟩
  | .hbm, ⟨61, _⟩ => ⟨S2000000, .i32⟩
  | .hbm, ⟨62, _⟩ => ⟨S2000000, .i32⟩
  | .hbm, ⟨63, _⟩ => ⟨S2000000, .i32⟩
  | .hbm, ⟨64, _⟩ => ⟨S2000000x1, .i32⟩
  | .hbm, ⟨65, _⟩ => ⟨S1, .i32⟩
  | .hbm, ⟨66, _⟩ => ⟨S_, .i32⟩
  | .hbm, ⟨67, _⟩ => ⟨S2000000x1, .i32⟩
  | .hbm, ⟨68, _⟩ => ⟨S2000000x1, .i1⟩
  | .hbm, ⟨69, _⟩ => ⟨S1x1, .i32⟩
  | .hbm, ⟨70, _⟩ => ⟨S2000000x1, .i32⟩
  | .hbm, ⟨71, _⟩ => ⟨S2000000x1, .i1⟩
  | .hbm, ⟨72, _⟩ => ⟨S2000000x1, .i1⟩
  | .hbm, ⟨73, _⟩ => ⟨S_, .i1⟩
  | .hbm, ⟨74, _⟩ => ⟨S2000000, .i1⟩
  | .hbm, ⟨75, _⟩ => ⟨S2000000x32, .f32⟩
  | .hbm, ⟨76, _⟩ => ⟨S2000000x32, .i1⟩
  | .hbm, ⟨77, _⟩ => ⟨S_, .f32⟩
  | .hbm, ⟨78, _⟩ => ⟨S2000000x32, .f32⟩
  | .hbm, ⟨79, _⟩ => ⟨S2000000x32, .f32⟩
  | .hbm, ⟨80, _⟩ => ⟨S2000000x1, .i32⟩
  | .hbm, ⟨81, _⟩ => ⟨S2000000, .i32⟩
  | .hbm, ⟨82, _⟩ => ⟨S_, .i32⟩
  | .hbm, ⟨83, _⟩ => ⟨S2000000, .i32⟩
  | .hbm, ⟨84, _⟩ => ⟨S2000000, .i1⟩
  | .hbm, ⟨85, _⟩ => ⟨S_, .i32⟩
  | .hbm, ⟨86, _⟩ => ⟨S2000000, .i32⟩
  | .hbm, ⟨87, _⟩ => ⟨S2000000, .i32⟩
  | .hbm, ⟨88, _⟩ => ⟨S2000000, .i32⟩
  | .hbm, ⟨89, _⟩ => ⟨S2000000x1, .i32⟩
  | .hbm, ⟨90, _⟩ => ⟨S1, .i32⟩
  | .hbm, ⟨91, _⟩ => ⟨S_, .i32⟩
  | .hbm, ⟨92, _⟩ => ⟨S2000000x1, .i32⟩
  | .hbm, ⟨93, _⟩ => ⟨S2000000x1, .i1⟩
  | .hbm, ⟨94, _⟩ => ⟨S1x1, .i32⟩
  | .hbm, ⟨95, _⟩ => ⟨S2000000x1, .i32⟩
  | .hbm, ⟨96, _⟩ => ⟨S2000000x1, .i1⟩
  | .hbm, ⟨97, _⟩ => ⟨S2000000x1, .i1⟩
  | .hbm, ⟨98, _⟩ => ⟨S_, .i1⟩
  | .hbm, ⟨99, _⟩ => ⟨S2000000, .i1⟩
  | .hbm, ⟨100, _⟩ => ⟨S2000000x32, .f32⟩
  | .hbm, ⟨101, _⟩ => ⟨S2000000x32, .i1⟩
  | .hbm, ⟨102, _⟩ => ⟨S_, .f32⟩
  | .hbm, ⟨103, _⟩ => ⟨S2000000x32, .f32⟩
  | .hbm, ⟨104, _⟩ => ⟨S2000000x32, .f32⟩
  | .hbm, ⟨105, _⟩ => ⟨S2000000x128, .f32⟩
  | _, _ => ⟨S2000000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v8 : Ref sig .tc := ⟨.hbm, 79, rfl⟩
abbrev main_v9 : Ref sig .tc := ⟨.hbm, 80, rfl⟩
abbrev main_v10 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v11 : Ref sig .tc := ⟨.hbm, 104, rfl⟩
abbrev main_v12 : Ref sig .tc := ⟨.hbm, 105, rfl⟩

abbrev nD : Nat := 1
abbrev τ : Topo := Topo.v7x

variable {F : FTy → Type} [FloatOps F]

class Facts₀ : Prop where
  slices_S2000000x4_S2000000x1_0_0 : S2000000x4.Slices ![0, 0] S2000000x1
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x32_0 : S2000000.BroadcastsInDim S2000000x32 (![0] : Fin 1 → Fin S2000000x32.rank)
  bcast_S_S2000000x32 : S_.BroadcastsInDim S2000000x32 (![] : Fin 0 → Fin S2000000x32.rank)
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  concatenates_S2000000x32_S2000000x32_S2000000x32_S2000000x32_S2000000x128_d1 : Shape.Concatenates [S2000000x32, S2000000x32, S2000000x32, S2000000x32] S2000000x128 1
  gather_S366x32_S2000000x1_S2000000x32_1_0_n_n_0_1_132_wf : GatherDims.WF S366x32 S2000000x1 S2000000x32 [1] [0] [] [0] [] 1 ![1, 32]
  gather_S24x32_S2000000x1_S2000000x32_1_0_n_n_0_1_132_wf : GatherDims.WF S24x32 S2000000x1 S2000000x32 [1] [0] [] [0] [] 1 ![1, 32]
  gather_S7x32_S2000000x1_S2000000x32_1_0_n_n_0_1_132_wf : GatherDims.WF S7x32 S2000000x1 S2000000x32 [1] [0] [] [0] [] 1 ![1, 32]
  gather_S60x32_S2000000x1_S2000000x32_1_0_n_n_0_1_132_wf : GatherDims.WF S60x32 S2000000x1 S2000000x32 [1] [0] [] [0] [] 1 ![1, 32]

variable [Facts₀]

def gather_S366x32_S2000000x1_S2000000x32_1_0_n_n_0_1_132 : GatherDims S366x32 S2000000x1 S2000000x32 where
  offsetDims := [1]
  collapsedSliceDims := [0]
  operandBatchingDims := []
  startIndicesBatchingDims := []
  startIndexMap := [0]
  indexVectorDim := 1
  sliceSizes := ![1, 32]
  wf := gather_S366x32_S2000000x1_S2000000x32_1_0_n_n_0_1_132_wf
def gather_S24x32_S2000000x1_S2000000x32_1_0_n_n_0_1_132 : GatherDims S24x32 S2000000x1 S2000000x32 where
  offsetDims := [1]
  collapsedSliceDims := [0]
  operandBatchingDims := []
  startIndicesBatchingDims := []
  startIndexMap := [0]
  indexVectorDim := 1
  sliceSizes := ![1, 32]
  wf := gather_S24x32_S2000000x1_S2000000x32_1_0_n_n_0_1_132_wf
def gather_S7x32_S2000000x1_S2000000x32_1_0_n_n_0_1_132 : GatherDims S7x32 S2000000x1 S2000000x32 where
  offsetDims := [1]
  collapsedSliceDims := [0]
  operandBatchingDims := []
  startIndicesBatchingDims := []
  startIndexMap := [0]
  indexVectorDim := 1
  sliceSizes := ![1, 32]
  wf := gather_S7x32_S2000000x1_S2000000x32_1_0_n_n_0_1_132_wf
def gather_S60x32_S2000000x1_S2000000x32_1_0_n_n_0_1_132 : GatherDims S60x32 S2000000x1 S2000000x32 where
  offsetDims := [1]
  collapsedSliceDims := [0]
  operandBatchingDims := []
  startIndicesBatchingDims := []
  startIndexMap := [0]
  indexVectorDim := 1
  sliceSizes := ![1, 32]
  wf := gather_S60x32_S2000000x1_S2000000x32_1_0_n_n_0_1_132_wf

class Facts : Prop extends Facts₀ where

variable [Facts]
-- ==== Proof.BitsEntry.lean ====
/-
  What the one kernel region finds when it is entered.

  Before the region the host clips each of the four token columns into its table's row range, lays the clipped
  columns side by side again (the tokens the kernel reads), writes the four tables onto the diagonal of a
  768 × 128 matrix of zeros and rounds that matrix to bf16 (the table the kernel reads). `V m c` is core `c`'s
  buffer contents after those operations, as a fold of the operations over the launch memory `m`; none of them
  writes an argument array, so the region finds the five arguments as launched.
-/
import proofs.«406140_j31731218383102_3_alg».proof.Proof.Gen.Kernel.Launch
import Idealize.ShloMosaic.Lib.Pipeline.FrameBody

noncomputable section

namespace Cert.Kernel.Entry

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- The host operations before the region, stretch by stretch in program order. -/
abbrev prefixOps : List (List (HloOp τ sig (Elt F))) :=
  [hostOps0, hostOps0_1, hostOps0_2, hostOps0_3, hostOps0_4, hostOps0_5, hostOps0_6, hostOps0_7, hostOps0_8]

/-- Core `c`'s TensorCore buffers when the region is entered. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 1000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))
set_option maxHeartbeats 1000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))
set_option maxHeartbeats 1000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))
set_option maxHeartbeats 1000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))
set_option maxHeartbeats 1000000 in
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))

end Cert.Kernel.Entry

end
-- ==== Proof.BitsFrame.lean ====
/-
  The kernel region runs to its end and leaves the argument arrays alone.

  At grid point `t` the body loads its tile of the clipped tokens (5000 rows × 4 words), the whole block table
  (768 × 128) and — unused — the output tile, and stores ONE 5000 × 128 tile: the product of the tile's multi-hot
  matrix with the table (`k0_pay1`). So the output tile after the body is that product of the two input blocks
  (`tileOut`), the one store covering the tile. With that as the proof data of the pipeline, the body's triple is the
  body obligation at every point, and the launch theorem for a region entered after host operations gives the run:
  every fair execution ends, each staged array at what the proof data says and every other buffer as the region
  found it. None of the five arguments is staged or written by the host operations, so they end as launched.
-/
import proofs.«406140_j31731218383102_3_alg».proof.Proof.BitsEntry
import proofs.«406140_j31731218383102_3_alg».proof.Proof.Gen.Kernel.Skeleton
import proofs.«406140_j31731218383102_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The token window's staging buffer holds its block at every point (it is fetched at every point), for any proof
    data over the region-entry arrays whose body leaves the block in place. -/
theorem tokens_before_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The table window's staging buffer holds the table at every point: fetched at the first, its index constant. -/
theorem table_before_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the launch theorem's -/

/-- For any proof data over the region-entry arrays, a run to the launch theorem's post gives the frame claim's: no
    window stages an argument, so each argument ends as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## What the body leaves in the output tile -/

/-- The whole token tile, the whole table, the whole output tile: the three rectangles the body accesses. -/
abbrev rTok : Rect S5000x4 := Rect.unit (s := S5000x4) ![0, 0] S5000x4.size inb_S5000x4_S5000x4_0_0
abbrev rTab : Rect S768x128 := Rect.unit (s := S768x128) ![0, 0] S768x128.size inb_S768x128_S768x128_0_0
abbrev rOut : Rect S5000x128 := Rect.unit (s := S5000x128) ![0, 0] S5000x128.size inb_S5000x128_S5000x128_0_0

/-- The output tile after the body, from the token tile `x0` and the table `x1`: its one store, of the product. -/
def tileOut (x0 : Vec F S5000x4 .i32) (x1 : Vec F S768x128 .bf16) : Vec F S5000x128 .f32 :=
  View.canon [⟨rOut, k0_pay1 (View.ld x0 rTok) (View.ld x1 rTab)⟩]

/-- That store covers the tile. -/
theorem tile_covered (p0 : Vec F S5000x128 .f32) (y : S5000x128.Idx) :
    ∃ pc ∈ ([⟨rOut, p0⟩] : List (View.Piece (Elt F) S5000x128 .f32)), y ∈ pc.1.set :=
  View.cover_of_tiled [⟨rOut, p0⟩] S5000x128.size (by rfl) y

/-! ## The body's triple -/

set_option maxHeartbeats 1000000 in
/-- The body on whole staging memrefs — tokens at `x0`, table at `x1`, output at anything — runs to the continuation
    with the inputs as they were and the output at `tileOut x0 x1`. -/
theorem tile_run (c : Dev nD) (E : Set ℕ) (i : grid0.Coords) (arg1 : Memref sig .tc .vmem S5000x4 .i32) (harg1 : arg1.IsWhole)
    (arg2 : Memref sig .tc .vmem S768x128 .bf16) (harg2 : arg2.IsWhole) (arg3 : Memref sig .tc .vmem S5000x128 .f32) (harg3 : arg3.IsWhole)
    (x0 : Vec F S5000x4 .i32) (x1 : Vec F S768x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (tileOut x0 x1)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-! ## The pipeline's proof data -/

/-- On core `c`: the arrays as the region finds them; after the body at point `t` the two inputs' buffers at their
    blocks and the output's at `tileOut` of them; the region's invariant the scoped rest and the generator register,
    untouched; nothing owed; full shares. -/
def proofData (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tileOut (blockAt m c 0 t) (blockAt m c 1 t)
  Φ _ := Pipeline.ΦA spec0 c
  q _ := fullShare
  owed _ := 0

theorem A_eq (c : Dev nD) (w : Fin cfg0.W) : (proofData m 0 c).A w = V m c (Pipeline.arrRef spec0 w) := by
  dsimp only [proofData]

theorem after_tokens (c : Dev nD) (t : Fin cfg0.N) : (proofData m 0 c).after 0 t = blockAt m c 0 t := by dsimp only [proofData]
theorem after_table (c : Dev nD) (t : Fin cfg0.N) : (proofData m 0 c).after 1 t = blockAt m c 1 t := by dsimp only [proofData]
theorem after_out (c : Dev nD) (t : Fin cfg0.N) :
    (proofData m 0 c).after 2 t = tileOut (blockAt m c 0 t) (blockAt m c 1 t) := by dsimp only [proofData]

theorem before_tokens (c : Dev nD) (t : Fin cfg0.N) (d) : (proofData m 0 c).before 0 t d = blockAt m c 0 t :=
  tokens_before_of m (proofData m 0 c) (A_eq m c 0) (after_tokens m c) t d
theorem before_table (c : Dev nD) (t : Fin cfg0.N) (d) : (proofData m 0 c).before 1 t d = blockAt m c 1 t :=
  table_before_of m (proofData m 0 c) (A_eq m c 1) (after_table m c) t d

/-! ## The body obligation -/

/-- What the body is called with at point `t`, -/
def bodyPre (c : Dev nD) (t : Fin cfg0.N) : sProp 𝕄 :=
  iprop((proofData m 0 c).Φ t.castSucc ∗ (proofData m 0 c).owesAt () t.castSucc
    ∗ (∃ d, owns (c : Thread nD τ) (st0_0 t) fullShare ((proofData m 0 c).before 0 t d))
    ∗ (∃ d, owns (c : Thread nD τ) (st0_1 t) fullShare ((proofData m 0 c).before 1 t d))
    ∗ (∃ d, owns (c : Thread nD τ) (st0_2 t) fullShare ((proofData m 0 c).before 2 t d)))

/-- and what it returns. -/
def bodyPost (c : Dev nD) (t : Fin cfg0.N) : sProp 𝕄 :=
  iprop((proofData m 0 c).Φ t.succ ∗ (proofData m 0 c).owesAt () t.succ
    ∗ owns (c : Thread nD τ) (st0_0 t) fullShare ((proofData m 0 c).after 0 t)
    ∗ owns (c : Thread nD τ) (st0_1 t) fullShare ((proofData m 0 c).after 1 t)
    ∗ owns (c : Thread nD τ) (st0_2 t) fullShare ((proofData m 0 c).after 2 t))

/-- The body at any point: the inputs' memrefs hold their blocks, so `tile_run` applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tokens, before_table]
  rw [show (proofData m 0 c).Φ t.succ = (proofData m 0 c).Φ t.castSucc from rfl,
    show (proofData m 0 c).owesAt () t.succ = (proofData m 0 c).owesAt () t.castSucc from rfl,
    after_tokens, after_table, after_out]
  iintro ⟨HΦ, Ho, ⟨%d0, H0⟩, ⟨%d1, H1⟩, ⟨%d2, H2⟩⟩
  iapply (tile_run c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (proofData (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, each staged array at what the
    proof data computes and every other unscoped buffer as the region found it. -/
theorem run_main : θ_run defs (onTc (τ := τ) (main (F := F))) (s₀ m ρ) (Pipeline.FramePost cfgs (proofData m) 0 (V m)) :=
  Pipeline.θ_run_frame cfgs (proofData m) (0 : Fin 1) launch0 defs₀ Variants.none m ρ main
    (hbody := fun c => (body_obligation m c).loose) (hshare := fun c => (proofData m 0 c).share_full fun _ => rfl)
    (howed := fun _ _ => rfl) (V := V m) (hmain := hmain m Variants.none) (hA := A_eq m) (hΦ := fun _ _ => rfl)

/-- The frame claim at any float instance: @main runs to its end and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (proofData m) (run_main m ρ)

end Cert.Kernel.Frame

end
-- ==== Proof.IdealEntry.lean ====
/-
  What the one kernel region finds when it is entered.

  Before the region the host clips each of the four token columns into its table's row range, lays the clipped
  columns side by side again (the tokens the kernel reads), writes the four tables onto the diagonal of a
  768 × 128 matrix of zeros and rounds that matrix to bf16 (the table the kernel reads). `V m c` is core `c`'s
  buffer contents after those operations, as a fold of the operations over the launch memory `m`; none of them
  writes an argument array, so the region finds the five arguments as launched.
-/
import proofs.«406140_j31731218383102_3_alg».proof.Proof.Gen.KernelIdeal.Launch
import Idealize.ShloMosaic.Lib.Pipeline.FrameBody

noncomputable section

namespace Cert.KernelIdeal.Entry

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- The host operations before the region, stretch by stretch in program order. -/
abbrev prefixOps : List (List (HloOp τ sig (Elt F))) :=
  [hostOps0, hostOps0_1, hostOps0_2, hostOps0_3, hostOps0_4, hostOps0_5, hostOps0_6, hostOps0_7, hostOps0_8]

/-- Core `c`'s TensorCore buffers when the region is entered. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 1000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))
set_option maxHeartbeats 1000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))
set_option maxHeartbeats 1000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))
set_option maxHeartbeats 1000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))
set_option maxHeartbeats 1000000 in
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.nary_writes, StableHlo.TRef.unary, StableHlo.TRef.binary, Finset.mem_singleton]
    repeat' apply And.intro
    all_goals exact StableHlo.devRef_ne_of_ne (by decide)))

end Cert.KernelIdeal.Entry

end
-- ==== Proof.IdealFrame.lean ====
/-
  The kernel region runs to its end and leaves the argument arrays alone.

  At grid point `t` the body loads its tile of the clipped tokens (5000 rows × 4 words), the whole block table
  (768 × 128) and — unused — the output tile, and stores ONE 5000 × 128 tile: the product of the tile's multi-hot
  matrix with the table (`k0_pay1`). So the output tile after the body is that product of the two input blocks
  (`tileOut`), the one store covering the tile. With that as the proof data of the pipeline, the body's triple is the
  body obligation at every point, and the launch theorem for a region entered after host operations gives the run:
  every fair execution ends, each staged array at what the proof data says and every other buffer as the region
  found it. None of the five arguments is staged or written by the host operations, so they end as launched.
-/
import proofs.«406140_j31731218383102_3_alg».proof.Proof.IdealEntry
import proofs.«406140_j31731218383102_3_alg».proof.Proof.Gen.KernelIdeal.Skeleton
import proofs.«406140_j31731218383102_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The token window's staging buffer holds its block at every point (it is fetched at every point), for any proof
    data over the region-entry arrays whose body leaves the block in place. -/
theorem tokens_before_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The table window's staging buffer holds the table at every point: fetched at the first, its index constant. -/
theorem table_before_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the launch theorem's -/

/-- For any proof data over the region-entry arrays, a run to the launch theorem's post gives the frame claim's: no
    window stages an argument, so each argument ends as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## What the body leaves in the output tile -/

/-- The whole token tile, the whole table, the whole output tile: the three rectangles the body accesses. -/
abbrev rTok : Rect S5000x4 := Rect.unit (s := S5000x4) ![0, 0] S5000x4.size inb_S5000x4_S5000x4_0_0
abbrev rTab : Rect S768x128 := Rect.unit (s := S768x128) ![0, 0] S768x128.size inb_S768x128_S768x128_0_0
abbrev rOut : Rect S5000x128 := Rect.unit (s := S5000x128) ![0, 0] S5000x128.size inb_S5000x128_S5000x128_0_0

/-- The output tile after the body, from the token tile `x0` and the table `x1`: its one store, of the product. -/
def tileOut (x0 : Vec F S5000x4 .i32) (x1 : Vec F S768x128 .bf16) : Vec F S5000x128 .f32 :=
  View.canon [⟨rOut, k0_pay1 (View.ld x0 rTok) (View.ld x1 rTab)⟩]

/-- That store covers the tile. -/
theorem tile_covered (p0 : Vec F S5000x128 .f32) (y : S5000x128.Idx) :
    ∃ pc ∈ ([⟨rOut, p0⟩] : List (View.Piece (Elt F) S5000x128 .f32)), y ∈ pc.1.set :=
  View.cover_of_tiled [⟨rOut, p0⟩] S5000x128.size (by rfl) y

/-! ## The body's triple -/

set_option maxHeartbeats 1000000 in
/-- The body on whole staging memrefs — tokens at `x0`, table at `x1`, output at anything — runs to the continuation
    with the inputs as they were and the output at `tileOut x0 x1`. -/
theorem tile_run (c : Dev nD) (E : Set ℕ) (i : grid0.Coords) (arg1 : Memref sig .tc .vmem S5000x4 .i32) (harg1 : arg1.IsWhole)
    (arg2 : Memref sig .tc .vmem S768x128 .bf16) (harg2 : arg2.IsWhole) (arg3 : Memref sig .tc .vmem S5000x128 .f32) (harg3 : arg3.IsWhole)
    (x0 : Vec F S5000x4 .i32) (x1 : Vec F S768x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (tileOut x0 x1)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-! ## The pipeline's proof data -/

/-- On core `c`: the arrays as the region finds them; after the body at point `t` the two inputs' buffers at their
    blocks and the output's at `tileOut` of them; the region's invariant the scoped rest and the generator register,
    untouched; nothing owed; full shares. -/
def proofData (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tileOut (blockAt m c 0 t) (blockAt m c 1 t)
  Φ _ := Pipeline.ΦA spec0 c
  q _ := fullShare
  owed _ := 0

theorem A_eq (c : Dev nD) (w : Fin cfg0.W) : (proofData m 0 c).A w = V m c (Pipeline.arrRef spec0 w) := by
  dsimp only [proofData]

theorem after_tokens (c : Dev nD) (t : Fin cfg0.N) : (proofData m 0 c).after 0 t = blockAt m c 0 t := by dsimp only [proofData]
theorem after_table (c : Dev nD) (t : Fin cfg0.N) : (proofData m 0 c).after 1 t = blockAt m c 1 t := by dsimp only [proofData]
theorem after_out (c : Dev nD) (t : Fin cfg0.N) :
    (proofData m 0 c).after 2 t = tileOut (blockAt m c 0 t) (blockAt m c 1 t) := by dsimp only [proofData]

theorem before_tokens (c : Dev nD) (t : Fin cfg0.N) (d) : (proofData m 0 c).before 0 t d = blockAt m c 0 t :=
  tokens_before_of m (proofData m 0 c) (A_eq m c 0) (after_tokens m c) t d
theorem before_table (c : Dev nD) (t : Fin cfg0.N) (d) : (proofData m 0 c).before 1 t d = blockAt m c 1 t :=
  table_before_of m (proofData m 0 c) (A_eq m c 1) (after_table m c) t d

/-! ## The body obligation -/

/-- What the body is called with at point `t`, -/
def bodyPre (c : Dev nD) (t : Fin cfg0.N) : sProp 𝕄 :=
  iprop((proofData m 0 c).Φ t.castSucc ∗ (proofData m 0 c).owesAt () t.castSucc
    ∗ (∃ d, owns (c : Thread nD τ) (st0_0 t) fullShare ((proofData m 0 c).before 0 t d))
    ∗ (∃ d, owns (c : Thread nD τ) (st0_1 t) fullShare ((proofData m 0 c).before 1 t d))
    ∗ (∃ d, owns (c : Thread nD τ) (st0_2 t) fullShare ((proofData m 0 c).before 2 t d)))

/-- and what it returns. -/
def bodyPost (c : Dev nD) (t : Fin cfg0.N) : sProp 𝕄 :=
  iprop((proofData m 0 c).Φ t.succ ∗ (proofData m 0 c).owesAt () t.succ
    ∗ owns (c : Thread nD τ) (st0_0 t) fullShare ((proofData m 0 c).after 0 t)
    ∗ owns (c : Thread nD τ) (st0_1 t) fullShare ((proofData m 0 c).after 1 t)
    ∗ owns (c : Thread nD τ) (st0_2 t) fullShare ((proofData m 0 c).after 2 t))

/-- The body at any point: the inputs' memrefs hold their blocks, so `tile_run` applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tokens, before_table]
  rw [show (proofData m 0 c).Φ t.succ = (proofData m 0 c).Φ t.castSucc from rfl,
    show (proofData m 0 c).owesAt () t.succ = (proofData m 0 c).owesAt () t.castSucc from rfl,
    after_tokens, after_table, after_out]
  iintro ⟨HΦ, Ho, ⟨%d0, H0⟩, ⟨%d1, H1⟩, ⟨%d2, H2⟩⟩
  iapply (tile_run c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (proofData (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, each staged array at what the
    proof data computes and every other unscoped buffer as the region found it. -/
theorem run_main : θ_run defs (onTc (τ := τ) (main (F := F))) (s₀ m ρ) (Pipeline.FramePost cfgs (proofData m) 0 (V m)) :=
  Pipeline.θ_run_frame cfgs (proofData m) (0 : Fin 1) launch0 defs₀ Variants.none m ρ main
    (hbody := fun c => (body_obligation m c).loose) (hshare := fun c => (proofData m 0 c).share_full fun _ => rfl)
    (howed := fun _ _ => rfl) (V := V m) (hmain := hmain m Variants.none) (hA := A_eq m) (hΦ := fun _ _ => rfl)

/-- The frame claim at any float instance: @main runs to its end and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (proofData m) (run_main m ρ)

end Cert.KernelIdeal.Frame

end
-- ==== Proof.Lookup.lean ====
/-
  Four embedding tables read row by row and laid side by side.

  A token row `r` carries four words `t₀ … t₃`. Table `d` has `n_d` rows (366, 24, 7, 60) of 32 features each. Row `r`
  of the result is `W₀[t₀] ‖ W₁[t₁] ‖ W₂[t₂] ‖ W₃[t₃]`: 128 features, feature `col` taken from table `col / 32` at
  feature `col % 32`. This file states that function (`lookup`), the block table one matrix product reads it
  from (`blockTable`: the four tables on the diagonal of a 768 × 128 matrix of zeros, table `d`'s rows from row
  0, 384, 512, 640 on and its features from column `32 d` on), and the one fact about sums the product needs: a sum of
  products `hot k · w k` in which `hot` is one at `k₀` and, everywhere else, either `hot` or `w` is zero, is `w k₀`.
  That fact needs no finiteness: `0 · x = 0` and `1 · x = x` hold for every extended real, and the sum has one term
  that is not zero.
-/
import Idealize.ShloMosaic.PureOps.Ideal
import Idealize.ShloMosaic.Lib.ValueIdx

noncomputable section

open scoped BigOperators

namespace Cert.Lookup

open Idealize.ShloMosaic Idealize.ShloMosaic.ValueIdx

/-- The row of a table of `n` rows that a word names: the word read unsigned and kept below `n`. (For a word in
    `[0, n)` — the only words the claim speaks of — it is the word itself.) -/
def rowOf (n : Nat) (hn : 0 < n) (x : BitVec 32) : Fin n := ⟨min x.toNat (n - 1), by omega⟩

theorem rowOf_val_of_lt (n : Nat) (hn : 0 < n) (x : BitVec 32) (h : x.toNat < n) : (rowOf n hn x).val = x.toNat := by
  unfold rowOf; show min x.toNat (n - 1) = x.toNat; omega

/-- Feature `col` of the result row whose four words are `t0 … t3`: table `col / 32` at its word's row, feature
    `col % 32`. -/
def rowValue (W0 : FVec Ideal ⟨2, ![366, 32]⟩ .f32) (W1 : FVec Ideal ⟨2, ![24, 32]⟩ .f32) (W2 : FVec Ideal ⟨2, ![7, 32]⟩ .f32)
    (W3 : FVec Ideal ⟨2, ![60, 32]⟩ .f32) (t0 t1 t2 t3 : BitVec 32) (col : Fin 128) : EReal :=
  if h0 : col.val < 32 then W0 (ix2 (rowOf 366 (by decide) t0) (⟨col.val, h0⟩ : Fin 32))
  else if h1 : col.val < 64 then W1 (ix2 (rowOf 24 (by decide) t1) (⟨col.val - 32, by omega⟩ : Fin 32))
  else if h2 : col.val < 96 then W2 (ix2 (rowOf 7 (by decide) t2) (⟨col.val - 64, by omega⟩ : Fin 32))
  else W3 (ix2 (rowOf 60 (by decide) t3) (⟨col.val - 96, by omega⟩ : Fin 32))

/-- The result at row `r`, feature `col`. -/
def lookupAt (T : IVec ⟨2, ![2000000, 4]⟩ 32) (W0 : FVec Ideal ⟨2, ![366, 32]⟩ .f32) (W1 : FVec Ideal ⟨2, ![24, 32]⟩ .f32)
    (W2 : FVec Ideal ⟨2, ![7, 32]⟩ .f32) (W3 : FVec Ideal ⟨2, ![60, 32]⟩ .f32) (r : Fin 2000000) (col : Fin 128) : EReal :=
  rowValue W0 W1 W2 W3 (T (ix2 r (0 : Fin 4))) (T (ix2 r (1 : Fin 4))) (T (ix2 r (2 : Fin 4))) (T (ix2 r (3 : Fin 4))) col

/-- The whole result array: both programs' value. -/
def lookup (T : IVec ⟨2, ![2000000, 4]⟩ 32) (W0 : FVec Ideal ⟨2, ![366, 32]⟩ .f32) (W1 : FVec Ideal ⟨2, ![24, 32]⟩ .f32)
    (W2 : FVec Ideal ⟨2, ![7, 32]⟩ .f32) (W3 : FVec Ideal ⟨2, ![60, 32]⟩ .f32) : FVec Ideal ⟨2, ![2000000, 128]⟩ .f32 :=
  fun j => lookupAt T W0 W1 W2 W3 ⟨(j 0).val, idx2_lt0 j⟩ ⟨(j 1).val, idx2_lt1 j⟩

theorem lookup_ix2 (T : IVec ⟨2, ![2000000, 4]⟩ 32) (W0 : FVec Ideal ⟨2, ![366, 32]⟩ .f32) (W1 : FVec Ideal ⟨2, ![24, 32]⟩ .f32)
    (W2 : FVec Ideal ⟨2, ![7, 32]⟩ .f32) (W3 : FVec Ideal ⟨2, ![60, 32]⟩ .f32) (r : Fin 2000000) (col : Fin 128) :
    lookup T W0 W1 W2 W3 (ix2 r col) = lookupAt T W0 W1 W2 W3 r col := rfl

/-- Every word names a row of its table: column `d` of the tokens lies in `[0, n_d)` (read unsigned: a word below
    `n_d < 2³¹` is the same number read signed). -/
def InRange (T : IVec ⟨2, ![2000000, 4]⟩ 32) : Prop :=
  ∀ r : Fin 2000000, (T (ix2 r (0 : Fin 4))).toNat < 366 ∧ (T (ix2 r (1 : Fin 4))).toNat < 24
    ∧ (T (ix2 r (2 : Fin 4))).toNat < 7 ∧ (T (ix2 r (3 : Fin 4))).toNat < 60

/-- Entry `(k, col)` of the block table: table `d`'s entry when `k` is one of its rows (from 0, 384, 512, 640 on)
    and `col` one of its features (from `32 d` on), zero elsewhere. -/
def tableAt (W0 : FVec Ideal ⟨2, ![366, 32]⟩ .f32) (W1 : FVec Ideal ⟨2, ![24, 32]⟩ .f32) (W2 : FVec Ideal ⟨2, ![7, 32]⟩ .f32)
    (W3 : FVec Ideal ⟨2, ![60, 32]⟩ .f32) (k : Fin 768) (col : Fin 128) : EReal :=
  if h : k.val < 366 ∧ col.val < 32 then W0 (ix2 (⟨k.val, h.1⟩ : Fin 366) (⟨col.val, h.2⟩ : Fin 32))
  else if h : 384 ≤ k.val ∧ k.val < 408 ∧ 32 ≤ col.val ∧ col.val < 64 then
    W1 (ix2 (⟨k.val - 384, by omega⟩ : Fin 24) (⟨col.val - 32, by omega⟩ : Fin 32))
  else if h : 512 ≤ k.val ∧ k.val < 519 ∧ 64 ≤ col.val ∧ col.val < 96 then
    W2 (ix2 (⟨k.val - 512, by omega⟩ : Fin 7) (⟨col.val - 64, by omega⟩ : Fin 32))
  else if h : 640 ≤ k.val ∧ k.val < 700 ∧ 96 ≤ col.val then
    W3 (ix2 (⟨k.val - 640, by omega⟩ : Fin 60) (⟨col.val - 96, by omega⟩ : Fin 32))
  else 0

/-- The block table as an array (its entries are read as reals whatever format they are kept in). -/
def blockTable (W0 : FVec Ideal ⟨2, ![366, 32]⟩ .f32) (W1 : FVec Ideal ⟨2, ![24, 32]⟩ .f32) (W2 : FVec Ideal ⟨2, ![7, 32]⟩ .f32)
    (W3 : FVec Ideal ⟨2, ![60, 32]⟩ .f32) : FVec Ideal ⟨2, ![768, 128]⟩ .bf16 :=
  fun j => tableAt W0 W1 W2 W3 ⟨(j 0).val, idx2_lt0 j⟩ ⟨(j 1).val, idx2_lt1 j⟩

theorem blockTable_ix2 (W0 : FVec Ideal ⟨2, ![366, 32]⟩ .f32) (W1 : FVec Ideal ⟨2, ![24, 32]⟩ .f32) (W2 : FVec Ideal ⟨2, ![7, 32]⟩ .f32)
    (W3 : FVec Ideal ⟨2, ![60, 32]⟩ .f32) (k : Fin 768) (col : Fin 128) :
    blockTable W0 W1 W2 W3 (ix2 k col) = tableAt W0 W1 W2 W3 k col := rfl

/-- A sum of products `hot k · w k` with `hot` one at `k₀` and, at every other `k`, `hot k` or `w k` zero, is `w k₀`. -/
theorem sum_hot_mul {n : Nat} (hot w : Fin n → EReal) (k0 : Fin n) (h1 : hot k0 = 1)
    (h0 : ∀ k, k ≠ k0 → hot k = 0 ∨ w k = 0) : ∑ k, hot k * w k = w k0 := by
  rw [Finset.sum_eq_single k0 (fun k _ hk => by rcases h0 k hk with h | h <;> rw [h] <;> simp)
    (fun h => absurd (Finset.mem_univ k0) h), h1, one_mul]

end Cert.Lookup

end
-- ==== Proof.IdealTable.lean ====
/-
  The table the kernel region reads is the block table of the four argument tables.

  Before the region the host takes a 768 × 128 matrix of zeros and writes the four tables into it one after the
  other: table `d` (366, 24, 7, 60 rows of 32 features) as a block whose corner is at row 0, 384, 512, 640 and
  column `32 d`; the result is then kept in a narrower float format, which changes no extended real. A block write
  is a fold over the block's entries, each step writing one entry of the matrix.

  First the mathematics, with no program in sight: a fold of point writes read at one point (no step touches the
  point: the old value; exactly one step does: what that step wrote), then the block write read at an entry
  (entry `(k, col)` of the result is block entry `(k - r0, col - c0)` inside the window and the old entry
  outside, because distinct block entries land on distinct matrix entries). Then the four writes one after the
  other: the four windows are pairwise disjoint, so an entry is in at most one, and the order of the writes does
  not matter. Last, the buffer the region finds holds exactly that matrix.
-/
import proofs.«406140_j31731218383102_3_alg».proof.Proof.IdealEntry
import proofs.«406140_j31731218383102_3_alg».proof.Proof.Lookup
import Idealize.ShloMosaic.Lib.StableHlo.Run
import Idealize.ShloMosaic.Lib.Pipeline.Value
import Idealize.ShloMosaic.Lib.IdealHost
import Idealize.ShloMosaic.Lib.ValueLayout

noncomputable section

namespace Cert.KernelIdeal.Table

open Cert.KernelIdeal Cert.KernelIdeal.Gen Cert.KernelIdeal.Entry
open Idealize.ShloMosaic Idealize.ShloMosaic.TcCoe Idealize.SL.Sem
open Idealize.ShloMosaic.StableHlo
open Idealize.ShloMosaic.ValueIdx

/-! ## A fold of point writes, read at one point -/

section Fold
variable {ι κ α : Type}

/-- A fold of steps none of which touches point `i` leaves the value at `i` as it was. -/
theorem foldl_miss (g : (ι → α) → κ → (ι → α)) (tgt : κ → Option ι) (i : ι)
    (hmiss : ∀ r n, tgt n ≠ some i → g r n i = r i) :
    ∀ (l : List κ) (x : ι → α), (∀ n ∈ l, tgt n ≠ some i) → l.foldl g x i = x i
  | [], _, _ => rfl
  | n :: l, x, h => by
    rw [List.foldl_cons, foldl_miss g tgt i hmiss l (g x n) (fun m hm => h m (List.mem_cons_of_mem _ hm)),
      hmiss x n (h n (List.mem_cons.mpr (Or.inl rfl)))]

/-- A fold of steps exactly one of which, `n0`, touches point `i` has at `i` what that one step wrote. -/
theorem foldl_hit (g : (ι → α) → κ → (ι → α)) (tgt : κ → Option ι) (f : α → α → α) (u : κ → α) (i : ι)
    (hhit : ∀ r n, tgt n = some i → g r n i = f (r i) (u n))
    (hmiss : ∀ r n, tgt n ≠ some i → g r n i = r i) (n0 : κ) (h0 : tgt n0 = some i) :
    ∀ (l : List κ) (x : ι → α), l.Nodup → n0 ∈ l → (∀ n ∈ l, tgt n = some i → n = n0) →
      l.foldl g x i = f (x i) (u n0)
  | [], _, _, hm, _ => absurd hm List.not_mem_nil
  | n :: l, x, hnd, hm, huniq => by
    rw [List.foldl_cons]
    rw [List.nodup_cons] at hnd
    by_cases hn : n = n0
    · subst hn
      rw [foldl_miss g tgt i hmiss l (g x n) (fun m hml hmi => by
        have := huniq m (List.mem_cons_of_mem _ hml) hmi
        subst this; exact hnd.1 hml), hhit x n h0]
    · have hml : n0 ∈ l := by
        rcases List.mem_cons.mp hm with h | h
        · exact absurd h.symm hn
        · exact h
      rw [foldl_hit g tgt f u i hhit hmiss n0 h0 l (g x n) hnd.2 hml
        (fun m hm' => huniq m (List.mem_cons_of_mem _ hm')),
        hmiss x n (fun hni => hn (huniq n (List.mem_cons.mpr (Or.inl rfl)) hni))]

end Fold

/-! ## Writing a block of `n × 32` entries into a `768 × 128` matrix at a given corner -/

section Window
variable {α : Type}

/-- The dimension numbers of a window write: both axes of the update are window axes, no axis of the matrix is
    inserted, and the one index vector `[row, column]` gives the corner of the window. -/
abbrev winDims (n : Nat) (wf : ScatterDims.WF ⟨2, ![768, 128]⟩ ⟨1, ![2]⟩ ⟨2, ![n, 32]⟩ [0, 1] [] [0, 1] 0) :
    ScatterDims ⟨2, ![768, 128]⟩ ⟨1, ![2]⟩ ⟨2, ![n, 32]⟩ where
  updateWindowDims := [0, 1]
  insertedWindowDims := []
  scatterDimsToOperandDims := [0, 1]
  indexVectorDim := 0
  wf := wf

variable (n : Nat) (wf : ScatterDims.WF ⟨2, ![768, 128]⟩ ⟨1, ![2]⟩ ⟨2, ![n, 32]⟩ [0, 1] [] [0, 1] 0)

/-- The window's corner row is the first word of the index vector, read signed. -/
theorem winDims_start0 (j : (⟨2, ![n, 32]⟩ : Shape).Idx) (idx : IVec ⟨1, ![2]⟩ 32) :
    (winDims n wf).start j idx 0 = (idx (ix1 (0 : Fin 2))).toInt := by
  unfold ScatterDims.start
  rw [dif_pos (show (0 : Fin 2) ∈ [(0 : Fin 2), 1] from by decide)]
  congr 2
  funext b
  match b with
  | ⟨0, _⟩ => rfl

/-- The window's corner column is the second word. -/
theorem winDims_start1 (j : (⟨2, ![n, 32]⟩ : Shape).Idx) (idx : IVec ⟨1, ![2]⟩ 32) :
    (winDims n wf).start j idx 1 = (idx (ix1 (1 : Fin 2))).toInt := by
  unfold ScatterDims.start
  rw [dif_pos (show (1 : Fin 2) ∈ [(0 : Fin 2), 1] from by decide)]
  congr 2
  funext b
  match b with
  | ⟨0, _⟩ => rfl

/-- An update entry's offset inside the window is its own index, axis by axis. -/
theorem winDims_window0 (j : (⟨2, ![n, 32]⟩ : Shape).Idx) : (winDims n wf).window j 0 = (j 0).val := by
  unfold ScatterDims.window
  rw [dif_pos (show (0 : Fin 2) ∈ (⟨2, ![768, 128]⟩ : Shape).kept [] from by decide)]
  rfl
theorem winDims_window1 (j : (⟨2, ![n, 32]⟩ : Shape).Idx) : (winDims n wf).window j 1 = (j 1).val := by
  unfold ScatterDims.window
  rw [dif_pos (show (1 : Fin 2) ∈ (⟨2, ![768, 128]⟩ : Shape).kept [] from by decide)]
  rfl

/-- Where an update entry lands when the window lies inside the matrix: at the corner plus its own index. -/
theorem winDims_resultIdx (r0 c0 : Nat) (hr : r0 + n ≤ 768) (hc : c0 + 32 ≤ 128) (idx : IVec ⟨1, ![2]⟩ 32)
    (h0 : (idx (ix1 (0 : Fin 2))).toInt = (r0 : Int)) (h1 : (idx (ix1 (1 : Fin 2))).toInt = (c0 : Int))
    (j : (⟨2, ![n, 32]⟩ : Shape).Idx) :
    (winDims n wf).resultIdx? j idx
      = some (ix2 (⟨r0 + (j 0).val, by have := idx2_lt0 j; omega⟩ : Fin 768)
          (⟨c0 + (j 1).val, by have := idx2_lt1 j; omega⟩ : Fin 128)) := by
  have hj0 := idx2_lt0 j
  have hj1 := idx2_lt1 j
  have e0 : (winDims n wf).start j idx 0 + ((winDims n wf).window j 0 : Int) = ((r0 + (j 0).val : Nat) : Int) := by
    rw [winDims_start0, winDims_window0, h0]; omega
  have e1 : (winDims n wf).start j idx 1 + ((winDims n wf).window j 1 : Int) = ((c0 + (j 1).val : Nat) : Int) := by
    rw [winDims_start1, winDims_window1, h1]; omega
  have hall : ∀ a, 0 ≤ (winDims n wf).start j idx a + ((winDims n wf).window j a : Int) ∧
      (winDims n wf).start j idx a + ((winDims n wf).window j a : Int) < (((⟨2, ![768, 128]⟩ : Shape).size a : Nat) : Int) := by
    intro a
    match a with
    | ⟨0, _⟩ =>
      show 0 ≤ (winDims n wf).start j idx 0 + ((winDims n wf).window j 0 : Int) ∧
        (winDims n wf).start j idx 0 + ((winDims n wf).window j 0 : Int) < ((768 : Nat) : Int)
      rw [e0]; omega
    | ⟨1, _⟩ =>
      show 0 ≤ (winDims n wf).start j idx 1 + ((winDims n wf).window j 1 : Int) ∧
        (winDims n wf).start j idx 1 + ((winDims n wf).window j 1 : Int) < ((128 : Nat) : Int)
      rw [e1]; omega
  unfold ScatterDims.resultIdx?
  rw [dif_pos hall]
  congr 1
  funext a
  match a with
  | ⟨0, _⟩ =>
    refine Fin.ext ?_
    show ((winDims n wf).start j idx 0 + ((winDims n wf).window j 0 : Int)).toNat = r0 + (j 0).val
    rw [e0]; exact Int.toNat_natCast _
  | ⟨1, _⟩ =>
    refine Fin.ext ?_
    show ((winDims n wf).start j idx 1 + ((winDims n wf).window j 1 : Int)).toNat = c0 + (j 1).val
    rw [e1]; exact Int.toNat_natCast _

/-- THE WINDOW WRITE READ AT AN ENTRY. Writing the block `upd` (`n × 32`) into the matrix `x` with its corner at
    `(r0, c0)`, the window inside the matrix: entry `(k, col)` of the result is `upd (k - r0, col - c0)` inside the
    window and `x (k, col)` outside. Distinct update entries land on distinct matrix entries, so in the fold over
    the update entries at most one step writes `(k, col)`. -/
theorem scatter_window_apply (r0 c0 : Nat) (hr : r0 + n ≤ 768) (hc : c0 + 32 ≤ 128)
    (x : (⟨2, ![768, 128]⟩ : Shape).Idx → α) (idx : IVec ⟨1, ![2]⟩ 32)
    (h0 : (idx (ix1 (0 : Fin 2))).toInt = (r0 : Int)) (h1 : (idx (ix1 (1 : Fin 2))).toInt = (c0 : Int))
    (upd : (⟨2, ![n, 32]⟩ : Shape).Idx → α) (k : Fin 768) (col : Fin 128) :
    Host.scatter (winDims n wf) (fun _ b => b) x idx upd (ix2 k col)
      = if h : (r0 ≤ k.val ∧ k.val < r0 + n) ∧ (c0 ≤ col.val ∧ col.val < c0 + 32) then
          upd (ix2 (⟨k.val - r0, by omega⟩ : Fin n) (⟨col.val - c0, by omega⟩ : Fin 32))
        else x (ix2 k col) := by
  have hk := k.isLt
  have hcol := col.isLt
  unfold Host.scatter
  by_cases h : (r0 ≤ k.val ∧ k.val < r0 + n) ∧ (c0 ≤ col.val ∧ col.val < c0 + 32)
  · rw [dif_pos h]
    have htgt : (winDims n wf).resultIdx? ((⟨2, ![n, 32]⟩ : Shape).rowMajor.symm ((⟨2, ![n, 32]⟩ : Shape).rowMajor
        (ix2 (⟨k.val - r0, by omega⟩ : Fin n) (⟨col.val - c0, by omega⟩ : Fin 32)))) idx = some (ix2 k col) := by
      rw [Equiv.symm_apply_apply, winDims_resultIdx n wf r0 c0 hr hc idx h0 h1]
      congr 1
      funext a
      match a with
      | ⟨0, _⟩ => refine Fin.ext ?_; show r0 + (k.val - r0) = k.val; omega
      | ⟨1, _⟩ => refine Fin.ext ?_; show c0 + (col.val - c0) = col.val; omega
    refine (foldl_hit _ (fun m => (winDims n wf).resultIdx? ((⟨2, ![n, 32]⟩ : Shape).rowMajor.symm m) idx)
      (fun _ b => b) (fun m => upd ((⟨2, ![n, 32]⟩ : Shape).rowMajor.symm m)) (ix2 k col) ?_ ?_ _ htgt
      (List.finRange _) x (List.nodup_finRange _) (List.mem_finRange _) ?_).trans ?_
    · intro r m hm
      dsimp only at hm ⊢
      rw [hm]
      exact if_pos rfl
    · intro r m hm
      dsimp only at hm ⊢
      cases hm' : (winDims n wf).resultIdx? ((⟨2, ![n, 32]⟩ : Shape).rowMajor.symm m) idx with
      | none => rfl
      | some i => exact if_neg (fun e => hm (hm'.trans (congrArg some e.symm)))
    · intro m _ hm
      rw [winDims_resultIdx n wf r0 c0 hr hc idx h0 h1] at hm
      have hm' := Option.some.inj hm
      have e0 : r0 + (((⟨2, ![n, 32]⟩ : Shape).rowMajor.symm m) 0).val = k.val := congrArg (fun i => (i 0).val) hm'
      have e1 : c0 + (((⟨2, ![n, 32]⟩ : Shape).rowMajor.symm m) 1).val = col.val := congrArg (fun i => (i 1).val) hm'
      rw [← Equiv.apply_symm_apply (⟨2, ![n, 32]⟩ : Shape).rowMajor m]
      congr 1
      rw [eq_ix2 ((⟨2, ![n, 32]⟩ : Shape).rowMajor.symm m)]
      congr 1
      · refine Fin.ext ?_; show _ = k.val - r0; omega
      · refine Fin.ext ?_; show _ = col.val - c0; omega
    · show upd _ = upd _
      rw [Equiv.symm_apply_apply]
  · rw [dif_neg h]
    refine foldl_miss _ (fun m => (winDims n wf).resultIdx? ((⟨2, ![n, 32]⟩ : Shape).rowMajor.symm m) idx)
      (ix2 k col) ?_ (List.finRange _) x ?_
    · intro r m hm
      dsimp only at hm ⊢
      cases hm' : (winDims n wf).resultIdx? ((⟨2, ![n, 32]⟩ : Shape).rowMajor.symm m) idx with
      | none => rfl
      | some i => exact if_neg (fun e => hm (hm'.trans (congrArg some e.symm)))
    · intro m _ hm
      rw [winDims_resultIdx n wf r0 c0 hr hc idx h0 h1] at hm
      have hm' := Option.some.inj hm
      have e0 : r0 + (((⟨2, ![n, 32]⟩ : Shape).rowMajor.symm m) 0).val = k.val := congrArg (fun i => (i 0).val) hm'
      have e1 : c0 + (((⟨2, ![n, 32]⟩ : Shape).rowMajor.symm m) 1).val = col.val := congrArg (fun i => (i 1).val) hm'
      have b0 := idx2_lt0 ((⟨2, ![n, 32]⟩ : Shape).rowMajor.symm m)
      have b1 := idx2_lt1 ((⟨2, ![n, 32]⟩ : Shape).rowMajor.symm m)
      exact h ⟨⟨by omega, by omega⟩, by omega, by omega⟩

end Window

/-! ## The table the host builds, entry by entry -/

section Built

/-- The index vector `[a, b]` as the host builds it: two one-word arrays laid end to end. -/
abbrev idxVec (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- Its first word, read signed. -/
theorem idxVec_toInt0 (a b : BitVec 32) (r : Nat) (h : a.toInt = (r : Int)) :
    (idxVec a b (ix1 (0 : Fin 2))).toInt = (r : Int) := h

/-- Its second word, read signed. -/
theorem idxVec_toInt1 (a b : BitVec 32) (r : Nat) (h : b.toInt = (r : Int)) :
    (idxVec a b (ix1 (1 : Fin 2))).toInt = (r : Int) := h

/-- The matrix of zeros the tables are written into: the zero word broadcast, and the zero word is the real zero. -/
theorem zeros_apply (k : Fin 768) (col : Fin 128) :
    broadcastInDim S768x128 ![] bcast_S_S768x128 (constant (F := Ideal) S_ .f32 0x00000000#32) (ix2 k col) = (0 : EReal) :=
  (broadcastInDim_scalar_apply _ _ _).trans ((constant_apply _ _).trans Ideal.ofBits_zero_f32)

/-- The four writes' dimension numbers are the window write's, at the four table heights. -/
theorem dims0 : scatter_S768x128_S2_S366x32_01_n_01_0 = winDims 366 Gen.scatter_S768x128_S2_S366x32_01_n_01_0_wf := rfl
theorem dims1 : scatter_S768x128_S2_S24x32_01_n_01_0 = winDims 24 Gen.scatter_S768x128_S2_S24x32_01_n_01_0_wf := rfl
theorem dims2 : scatter_S768x128_S2_S7x32_01_n_01_0 = winDims 7 Gen.scatter_S768x128_S2_S7x32_01_n_01_0_wf := rfl
theorem dims3 : scatter_S768x128_S2_S60x32_01_n_01_0 = winDims 60 Gen.scatter_S768x128_S2_S60x32_01_n_01_0_wf := rfl

/-- THE BUILT TABLE IS THE BLOCK TABLE. The four tables written one after the other into the matrix of zeros, with
    corners `(0, 0)`, `(384, 32)`, `(512, 64)`, `(640, 96)`, and the result kept in the narrower format (which changes
    no extended real). Read at `(k, col)`, the last write whose window holds the entry gives it; the four windows
    are pairwise disjoint, so at most one does, and it is the one the block table names; outside all four the entry
    is the zero the matrix started with. -/
theorem table_value (W0 : FVec Ideal S366x32 .f32) (W1 : FVec Ideal S24x32 .f32) (W2 : FVec Ideal S7x32 .f32)
    (W3 : FVec Ideal S60x32 .f32) :
    (truncf .bf16
      (Host.scatter scatter_S768x128_S2_S60x32_01_n_01_0 (fun _ b => b)
        (Host.scatter scatter_S768x128_S2_S7x32_01_n_01_0 (fun _ b => b)
          (Host.scatter scatter_S768x128_S2_S24x32_01_n_01_0 (fun _ b => b)
            (Host.scatter scatter_S768x128_S2_S366x32_01_n_01_0 (fun _ b => b)
              (broadcastInDim S768x128 ![] bcast_S_S768x128 (constant (F := Ideal) S_ .f32 0x00000000#32))
              (idxVec 0#32 0#32) W0)
            (idxVec 384#32 32#32) W1)
          (idxVec 512#32 64#32) W2)
        (idxVec 640#32 96#32) W3)
      bitsLt_bf16_f32 : FVec Ideal S768x128 .bf16) = Cert.Lookup.blockTable W0 W1 W2 W3 := by
  funext j
  obtain ⟨k, col, rfl⟩ : ∃ (k : Fin 768) (col : Fin 128), j = ix2 k col := ⟨j 0, j 1, eq_ix2 j⟩
  have hk := k.isLt
  have hcol := col.isLt
  rw [Cert.Lookup.blockTable_ix2, truncf_apply, dims0, dims1, dims2, dims3,
    scatter_window_apply 60 _ 640 96 (by omega) (by omega) _ _ (idxVec_toInt0 _ _ 640 (by decide)) (idxVec_toInt1 _ _ 96 (by decide)),
    scatter_window_apply 7 _ 512 64 (by omega) (by omega) _ _ (idxVec_toInt0 _ _ 512 (by decide)) (idxVec_toInt1 _ _ 64 (by decide)),
    scatter_window_apply 24 _ 384 32 (by omega) (by omega) _ _ (idxVec_toInt0 _ _ 384 (by decide)) (idxVec_toInt1 _ _ 32 (by decide)),
    scatter_window_apply 366 _ 0 0 (by omega) (by omega) _ _ (idxVec_toInt0 _ _ 0 (by decide)) (idxVec_toInt1 _ _ 0 (by decide)),
    zeros_apply]
  unfold Cert.Lookup.tableAt
  split_ifs <;> first | rfl | (exfalso; omega)

end Built

/-! ## What the region finds -/

set_option maxHeartbeats 4000000 in
/-- THE TABLE AT ENTRY. The buffer the region reads its table from holds, when the region is entered, the block
    table of the four argument tables: the host operations that write it are the matrix of zeros, the four block
    writes at their corners and the change of format, over the arguments as launched. -/
theorem table_at_entry (m : (ℓ : Loc nD τ sig) → Buf (Elt Ideal) ℓ) (c : Dev nD) :
    (V (F := Ideal) m c main_v26 : FVec Ideal S768x128 .bf16)
      = Cert.Lookup.blockTable (m ((c : Thread nD τ).loc main_arg1)) (m ((c : Thread nD τ).loc main_arg2))
          (m ((c : Thread nD τ).loc main_arg3)) (m ((c : Thread nD τ).loc main_arg4)) := by
  dsimp only [V, prefixOps]
  simp only [hostOps0, hostOps0_1, hostOps0_2, hostOps0_3, hostOps0_4, hostOps0_5, hostOps0_6, hostOps0_7, hostOps0_8,
    List.flatten_cons, List.flatten_nil, List.append_nil, List.cons_append, List.nil_append, StableHlo.TRef.unary,
    StableHlo.TRef.binary]
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide)
    | (rw [nary_result_ne]; rotate_left; decide))
  exact table_value _ _ _ _

end Cert.KernelIdeal.Table

end
-- ==== Proof.IdealTokens.lean ====
/-
  The tokens the kernel reads are the tokens it was given.

  Before its one region the program cuts the token array `T : int32[2000000, 4]` into its four columns, clips
  column `d` into the row range `[0, n_d - 1]` of table `d` (`n_d` = 366, 24, 7, 60) — the signed minimum of
  `n_d - 1` and the signed maximum of zero and the word — and lays the four clipped columns side by side again;
  the region reads that array. This file shows that when every token already names a row of its table
  (`Cert.Lookup.InRange`), that array is `T` itself. Three steps: the array's contents when the region is entered
  are the composed clip-and-rejoin of the argument (`V_main_v8`); read at row `r`, column `d`, the rejoined array is
  the clip of `T (r, d)` into `[0, n_d - 1]` (`cat4_apply`, `clipCol_apply`, `slice_apply`); and a word that read
  unsigned lies in `[0, n_d - 1]` is the same number read signed, so neither bound moves it (`clip_word`).
-/
import proofs.«406140_j31731218383102_3_alg».proof.Proof.IdealEntry
import proofs.«406140_j31731218383102_3_alg».proof.Proof.Lookup
import Idealize.ShloMosaic.Lib.StableHlo.Run
import Idealize.ShloMosaic.Lib.Pipeline.Value

noncomputable section

namespace Cert.KernelIdeal.Tokens

open Cert.KernelIdeal Cert.KernelIdeal.Gen Cert.KernelIdeal.Entry
open Idealize.ShloMosaic Idealize.ShloMosaic.TcCoe Idealize.SL.Sem
open Idealize.ShloMosaic.StableHlo Idealize.ShloMosaic.ValueIdx

/-- One column of words clipped into `[0, hi]`: the signed minimum of `hi` and the signed maximum of zero and the word. -/
def clipCol (hi : BitVec 32) (x : IVec S2000000x1 32) : IVec S2000000x1 32 :=
  minsi (broadcastInDim S2000000x1 ![] bcast_S_S2000000x1 (id (constantI S_ 32 hi)))
    (maxsi (broadcastInDim S2000000x1 ![] bcast_S_S2000000x1 (id (constantI S_ 32 0#32))) x)

/-- The four columns of `T`, each clipped into its table's row range, side by side again. -/
def clipped (T : IVec S2000000x4 32) : IVec S2000000x4 32 :=
  concatenate S2000000x4 1
    [⟨S2000000x1, clipCol 365#32 (extractStridedSlice S2000000x1 ![0, 0] T slices_S2000000x4_S2000000x1_0_0)⟩,
     ⟨S2000000x1, clipCol 23#32 (extractStridedSlice S2000000x1 ![0, 1] T slices_S2000000x4_S2000000x1_0_1)⟩,
     ⟨S2000000x1, clipCol 6#32 (extractStridedSlice S2000000x1 ![0, 2] T slices_S2000000x4_S2000000x1_0_2)⟩,
     ⟨S2000000x1, clipCol 59#32 (extractStridedSlice S2000000x1 ![0, 3] T slices_S2000000x4_S2000000x1_0_3)⟩]
    concatenates_S2000000x1_S2000000x1_S2000000x1_S2000000x1_S2000000x4_d1

/-- What the region finds in the array it reads the tokens from: the operations before the region, composed — the
    four columns of the argument cut out, each clipped, and rejoined. -/
theorem V_main_v8 (m : (ℓ : Loc nD τ sig) → Buf (Elt Ideal) ℓ) (c : Dev nD) :
    (V (F := Ideal) m c main_v8 : IVec S2000000x4 32) = clipped (m ((c : Thread nD τ).loc main_arg0)) := by
  dsimp only [V, prefixOps]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- A word that, read unsigned, does not exceed `hi < 2³¹` is its own clip into `[0, hi]`: read signed it is the
    same number, so it is not below zero and `hi` is not below it. -/
theorem clip_word (w hi : BitVec 32) (hhi : hi.toNat < 2 ^ 31) (hw : w.toNat ≤ hi.toNat) :
    IntOp.minsi hi (IntOp.maxsi 0#32 w) = w := by
  have hwi : w.toInt = w.toNat := BitVec.toInt_eq_toNat_of_lt (by omega)
  have hhii : hi.toInt = hi.toNat := BitVec.toInt_eq_toNat_of_lt (by omega)
  have h0 : (0#32 : BitVec 32).toInt = 0 := by decide
  have hmax : IntOp.maxsi 0#32 w = w := by
    unfold IntOp.maxsi
    have hn : ¬ (w.slt 0#32 = true) := by
      rw [BitVec.slt_iff_toInt_lt, hwi, h0]; omega
    rw [if_neg hn]
  rw [hmax]
  unfold IntOp.minsi
  have hn : ¬ (hi.slt w = true) := by
    rw [BitVec.slt_iff_toInt_lt, hhii, hwi]; omega
  rw [if_neg hn]

/-- The clip of a column, read at an index, is the clip of the word there: both bounds are constants spread over
    the column, and the signed maximum and minimum act word by word. -/
theorem clipCol_apply (hi : BitVec 32) (x : IVec S2000000x1 32) (i : S2000000x1.Idx) :
    clipCol hi x i = IntOp.minsi hi (IntOp.maxsi 0#32 (x i)) := rfl

/-- Column `d` of the tokens cut out as a one-column array (offsets `(0, d)`), read at row `r`, is the token `(r, d)`. -/
theorem slice_apply (T : IVec S2000000x4 32) (off : Fin S2000000x4.rank → Nat) (h : S2000000x4.Slices off S2000000x1)
    (r : Fin 2000000) (d : Fin 4) (h0 : off 0 = 0) (h1 : off 1 = d.val) :
    extractStridedSlice S2000000x1 off T h (ix2 r (0 : Fin 1)) = T (ix2 r d) :=
  extractStridedSlice_apply off T h (ix2 r (0 : Fin 1)) (ix2 r d) fun a => match a with
    | ⟨0, _⟩ => by show r.val = off 0 + r.val; omega
    | ⟨1, _⟩ => by show d.val = off 1 + 0; omega

/-- Four one-column arrays laid side by side, read at `(r, d)`: piece `d` at `(r, 0)` (every piece before it is one
    column wide, so column `d` of the whole is column `0` of piece `d`). -/
theorem cat4_apply (x0 x1 x2 x3 : IVec S2000000x1 32)
    (h : Shape.Concatenates [S2000000x1, S2000000x1, S2000000x1, S2000000x1] S2000000x4 1) (r : Fin 2000000) (d : Fin 4) :
    concatenate S2000000x4 1 [⟨S2000000x1, x0⟩, ⟨S2000000x1, x1⟩, ⟨S2000000x1, x2⟩, ⟨S2000000x1, x3⟩] h (ix2 r d)
      = (![x0, x1, x2, x3] d) (ix2 r (0 : Fin 1)) := by
  have off : ∀ (k : Fin 4) (b : Fin S2000000x1.rank), b.cast (rfl : S2000000x1.rank = S2000000x4.rank) ≠ (1 : Fin S2000000x4.rank) →
      ((ix2 r (0 : Fin 1) : S2000000x1.Idx) b).val = ((ix2 r k : S2000000x4.Idx) (b.cast rfl)).val :=
    fun k b hb => match b, hb with
      | ⟨0, _⟩, _ => rfl
      | ⟨1, _⟩, hb => absurd rfl hb
  match d with
  | ⟨0, _⟩ =>
    exact concatenate_apply_piece (1 : Fin S2000000x4.rank)
      [⟨S2000000x1, x0⟩, ⟨S2000000x1, x1⟩, ⟨S2000000x1, x2⟩, ⟨S2000000x1, x3⟩] h (ix2 r (0 : Fin 4)) 0
      (by show (0 : ℕ) < 4; omega) S2000000x1 x0 rfl rfl 0 rfl (ix2 r (0 : Fin 1)) (off 0) rfl
  | ⟨1, _⟩ =>
    exact concatenate_apply_piece (1 : Fin S2000000x4.rank)
      [⟨S2000000x1, x0⟩, ⟨S2000000x1, x1⟩, ⟨S2000000x1, x2⟩, ⟨S2000000x1, x3⟩] h (ix2 r (1 : Fin 4)) 1
      (by show (1 : ℕ) < 4; omega) S2000000x1 x1 rfl rfl 1 rfl (ix2 r (0 : Fin 1)) (off 1) rfl
  | ⟨2, _⟩ =>
    exact concatenate_apply_piece (1 : Fin S2000000x4.rank)
      [⟨S2000000x1, x0⟩, ⟨S2000000x1, x1⟩, ⟨S2000000x1, x2⟩, ⟨S2000000x1, x3⟩] h (ix2 r (2 : Fin 4)) 2
      (by show (2 : ℕ) < 4; omega) S2000000x1 x2 rfl rfl 2 rfl (ix2 r (0 : Fin 1)) (off 2) rfl
  | ⟨3, _⟩ =>
    exact concatenate_apply_piece (1 : Fin S2000000x4.rank)
      [⟨S2000000x1, x0⟩, ⟨S2000000x1, x1⟩, ⟨S2000000x1, x2⟩, ⟨S2000000x1, x3⟩] h (ix2 r (3 : Fin 4)) 3
      (by show (3 : ℕ) < 4; omega) S2000000x1 x3 rfl rfl 3 rfl (ix2 r (0 : Fin 1)) (off 3) rfl

/-- Under the range precondition the clipped tokens are the tokens, entry by entry: entry `(r, d)` is piece `d` of
    the rejoined array at `(r, 0)`, the clip into `[0, n_d - 1]` of `T (r, d)`, which lies there already. -/
theorem clipped_apply (T : IVec S2000000x4 32) (h : Cert.Lookup.InRange T) (r : Fin 2000000) (d : Fin 4) :
    clipped T (ix2 r d) = T (ix2 r d) := by
  unfold clipped
  refine (cat4_apply _ _ _ _ _ r d).trans ?_
  obtain ⟨h0, h1, h2, h3⟩ := h r
  match d with
  | ⟨0, _⟩ =>
    show clipCol 365#32 (extractStridedSlice S2000000x1 ![0, 0] T slices_S2000000x4_S2000000x1_0_0) (ix2 r (0 : Fin 1))
      = T (ix2 r (0 : Fin 4))
    rw [clipCol_apply, slice_apply T ![0, 0] slices_S2000000x4_S2000000x1_0_0 r (0 : Fin 4) rfl rfl]
    exact clip_word _ _ (by decide) (by show _ ≤ 365; omega)
  | ⟨1, _⟩ =>
    show clipCol 23#32 (extractStridedSlice S2000000x1 ![0, 1] T slices_S2000000x4_S2000000x1_0_1) (ix2 r (0 : Fin 1))
      = T (ix2 r (1 : Fin 4))
    rw [clipCol_apply, slice_apply T ![0, 1] slices_S2000000x4_S2000000x1_0_1 r (1 : Fin 4) rfl rfl]
    exact clip_word _ _ (by decide) (by show _ ≤ 23; omega)
  | ⟨2, _⟩ =>
    show clipCol 6#32 (extractStridedSlice S2000000x1 ![0, 2] T slices_S2000000x4_S2000000x1_0_2) (ix2 r (0 : Fin 1))
      = T (ix2 r (2 : Fin 4))
    rw [clipCol_apply, slice_apply T ![0, 2] slices_S2000000x4_S2000000x1_0_2 r (2 : Fin 4) rfl rfl]
    exact clip_word _ _ (by decide) (by show _ ≤ 6; omega)
  | ⟨3, _⟩ =>
    show clipCol 59#32 (extractStridedSlice S2000000x1 ![0, 3] T slices_S2000000x4_S2000000x1_0_3) (ix2 r (0 : Fin 1))
      = T (ix2 r (3 : Fin 4))
    rw [clipCol_apply, slice_apply T ![0, 3] slices_S2000000x4_S2000000x1_0_3 r (3 : Fin 4) rfl rfl]
    exact clip_word _ _ (by decide) (by show _ ≤ 59; omega)

/-- Under the range precondition the clipped tokens are the tokens: two arrays that agree at every (row, column). -/
theorem clipped_eq (T : IVec S2000000x4 32) (h : Cert.Lookup.InRange T) : clipped T = T := by
  funext j
  have e := eq_ix2 j
  exact (congrArg (clipped T) e).trans ((clipped_apply T h (j 0) (j 1)).trans (congrArg T e.symm))

/-- When every token names a row of its table, the token array the region reads is the argument. -/
theorem tokens_at_entry (m : (ℓ : Loc nD τ sig) → Buf (Elt Ideal) ℓ) (c : Dev nD)
    (h : Cert.Lookup.InRange (m ((c : Thread nD τ).loc main_arg0))) :
    (V (F := Ideal) m c main_v8 : IVec S2000000x4 32) = m ((c : Thread nD τ).loc main_arg0) :=
  (V_main_v8 m c).trans (clipped_eq _ h)

end Cert.KernelIdeal.Tokens

end
-- ==== Proof.Payload.lean ====
/-
  One tile's product with the block table is the table lookup.

  A tile holds 5000 token rows of four words `t₀ … t₃`. From it the program builds a 5000 × 768 matrix of zeros and
  ones, four segments side by side — columns 0–383 for word 0, 384–511 for word 1, 512–639 for word 2, 640–767 for
  word 3 —, whose entry is one exactly where the column number, counted from its segment's first column, equals the
  row's word for that segment; so row `p` has its ones at columns `t₀`, `384 + t₁`, `512 + t₂`, `640 + t₃`. It then
  multiplies this matrix by the 768 × 128 block table (table `d`'s rows from row 0, 384, 512, 640 on, its features from
  column `32 d` on, zeros elsewhere) into a zero accumulator.

  This file proves, over the extended reals, that when every word of row `p` names a row of its table
  (`t₀ < 366`, `t₁ < 24`, `t₂ < 7`, `t₃ < 60`), entry `(p, col)` of the product is feature `col` of the result row:
  table `col / 32` at row `t_(col / 32)`, feature `col % 32`. The steps: an entry of the one-hot matrix is one or zero by
  an equality of words (`hotBit`, `oneHot_seg0` … `oneHot_seg3`); the product at an entry is the plain sum over the 768
  contracted positions (`matmul_sum`); in that sum the only term that is not zero is the hot column of the feature's
  own segment, because elsewhere in that segment the one-hot entry is zero and in the other three segments the block
  table is (`sum_col0` … `sum_col3`, by the specification's `sum_hot_mul`); and that one term is the table entry the
  result row names (`payload_apply`).
-/
import proofs.«406140_j31731218383102_3_alg».proof.Proof.Gen.KernelIdeal.Skeleton
import proofs.«406140_j31731218383102_3_alg».proof.Proof.Lookup
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal.Gen

/-! ### One entry of the one-hot matrix

The entry compares a column number with a token word; the one-bit answer is widened to a word, read as a
signed integer and converted: it is one where the two are equal and zero where they are not. -/

theorem hotBit (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by simp [IntOp.cmpi, h]
    rw [e, if_pos h]
    have e1 : ((1#1 : BitVec 1).setWidth 32).toInt = 1 := by decide
    rw [e1]; simp
  · have hb : (a == b) = false := beq_eq_false_iff_ne.mpr h
    have e : IntOp.cmpi .eq a b = 0#1 := by
      show BitVec.ofBool (a == b) = 0#1
      rw [hb]; rfl
    rw [e, if_neg h]
    have e0 : ((0#1 : BitVec 1).setWidth 32).toInt = 0 := by decide
    rw [e0]; simp

/-! ### The product's index maps, axis by axis

The product contracts the left operand's axis 1 with the right operand's axis 0; its output index is
(row of the left operand, column of the right operand). -/

theorem lhs_axis0 (j : S5000x128.Idx) (k : dot_S5000x768_S768x128_S5000x128_1_0_0_1_n_n.contr.Idx) :
    ((dot_S5000x768_S768x128_S5000x128_1_0_0_1_n_n.lhsIdx j k) 0 : ℕ) = (j 0 : ℕ) := by
  simp [DotDims.lhsIdx, dot_S5000x768_S768x128_S5000x128_1_0_0_1_n_n]
  rfl

theorem lhs_axis1 (j : S5000x128.Idx) (k : dot_S5000x768_S768x128_S5000x128_1_0_0_1_n_n.contr.Idx) :
    ((dot_S5000x768_S768x128_S5000x128_1_0_0_1_n_n.lhsIdx j k) 1 : ℕ) = (k ⟨0, by decide⟩ : ℕ) :=
  dot_S5000x768_S768x128_S5000x128_1_0_0_1_n_n.lhsIdx_val_of_single rfl j k

theorem rhs_axis0 (j : S5000x128.Idx) (k : dot_S5000x768_S768x128_S5000x128_1_0_0_1_n_n.contr.Idx) :
    ((dot_S5000x768_S768x128_S5000x128_1_0_0_1_n_n.rhsIdx j k) 0 : ℕ) = (k ⟨0, by decide⟩ : ℕ) :=
  dot_S5000x768_S768x128_S5000x128_1_0_0_1_n_n.rhsIdx_val_of_single rfl j k

theorem rhs_axis1 (j : S5000x128.Idx) (k : dot_S5000x768_S768x128_S5000x128_1_0_0_1_n_n.contr.Idx) :
    ((dot_S5000x768_S768x128_S5000x128_1_0_0_1_n_n.rhsIdx j k) 1 : ℕ) = (j 1 : ℕ) := by
  simp [DotDims.rhsIdx, dot_S5000x768_S768x128_S5000x128_1_0_0_1_n_n]
  rfl

/-- The product into a zero accumulator, read at (p, col): the sum over the 768 contracted positions of the
    left operand's entry (p, k) times the right operand's entry (k, col). -/
theorem matmul_sum (A : FVec Ideal S5000x768 .bf16) (B : FVec Ideal S768x128 .bf16) (p : Fin 5000) (col : Fin 128) :
    matmul dot_S5000x768_S768x128_S5000x128_1_0_0_1_n_n none A B (constant (F := Ideal) S5000x128 .f32 0x00000000#32) (ix2 p col)
      = ∑ k : Fin 768, A (ix2 p k) * B (ix2 k col) := by
  refine (Ideal.matmul_constant_zero_apply dot_S5000x768_S768x128_S5000x128_1_0_0_1_n_n none A B (ix2 p col)).trans ?_
  rw [← Equiv.sum_comp (contrEquiv1 dot_S5000x768_S768x128_S5000x128_1_0_0_1_n_n 768 rfl rfl).symm]
  refine Finset.sum_congr rfl fun k _ => ?_
  have hk := contrEquiv1_symm_val dot_S5000x768_S768x128_S5000x128_1_0_0_1_n_n 768 rfl rfl k
  have el : dot_S5000x768_S768x128_S5000x128_1_0_0_1_n_n.lhsIdx (ix2 p col)
      ((contrEquiv1 dot_S5000x768_S768x128_S5000x128_1_0_0_1_n_n 768 rfl rfl).symm k) = ix2 p k := by
    funext ax; apply Fin.ext
    match ax with
    | ⟨0, _⟩ => exact lhs_axis0 _ _
    | ⟨1, _⟩ => exact (lhs_axis1 _ _).trans hk
  have er : dot_S5000x768_S768x128_S5000x128_1_0_0_1_n_n.rhsIdx (ix2 p col)
      ((contrEquiv1 dot_S5000x768_S768x128_S5000x128_1_0_0_1_n_n 768 rfl rfl).symm k) = ix2 k col := by
    funext ax; apply Fin.ext
    match ax with
    | ⟨0, _⟩ => exact (rhs_axis0 _ _).trans hk
    | ⟨1, _⟩ => exact rhs_axis1 _ _
  rw [el, er]

/-! ### The pieces of the one-hot matrix

Segment `d` of the one-hot matrix compares the column number (counted inside the segment) with the token word of
the row's column `d`, broadcast across the segment. -/

/-- A one-column array broadcast across `b` columns reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Token column `o` of the tile, cut out as one column and broadcast across `n` columns. -/
def tokAcross (x0 : Vec Ideal S5000x4 .i32) (o : Nat) (h : S5000x4.Slices ![0, o] S5000x1) (n : Nat)
    (hb : S5000x1.Broadcasts ⟨2, ![5000, n]⟩) : IVec ⟨2, ![5000, n]⟩ 32 :=
  broadcastTo ⟨2, ![5000, n]⟩ (extractStridedSlice S5000x1 ![0, o] (shapeCast S5000x4 x0 shapeCasts_S5000x4_S5000x4) h) hb

/-- It reads, at `(p, c)`, the word of row `p` in token column `o`. -/
theorem tokAcross_apply (x0 : Vec Ideal S5000x4 .i32) (o : Nat) (h : S5000x4.Slices ![0, o] S5000x1) (n : Nat)
    (hb : S5000x1.Broadcasts ⟨2, ![5000, n]⟩) (d : Fin 4) (hd : d.val = o) (p : Fin 5000) (c : Fin n) :
    tokAcross x0 o h n hb (ix2 p c) = x0 (ix2 p d) := by
  unfold tokAcross
  rw [shapeCast_self]
  refine (broadcastTo_a1_ab_apply _ hb p c).trans ?_
  exact slice2_axis1_apply o x0 h p (0 : Fin 1) d (by show d.val = o + 0; omega)

/-- The column number across the widest segment (384 columns). -/
def colNo384 : IVec S5000x384 32 := iota .tc S5000x384 32 [1] iota_S5000x384_d1_w32

theorem colNo384_apply (p : Fin 5000) (c : Fin 384) : colNo384 (ix2 p c) = BitVec.ofNat 32 c.val :=
  iota_single_apply .tc S5000x384 32 1 iota_S5000x384_d1_w32 (ix2 p c)

/-- The column number across a 128-column segment: the first 128 columns of the above. -/
def colNo128 : IVec S5000x128 32 := extractStridedSlice S5000x128 ![0, 0] colNo384 slices_S5000x384_o0_0_S5000x128

theorem colNo128_apply (p : Fin 5000) (c : Fin 128) : colNo128 (ix2 p c) = BitVec.ofNat 32 c.val := by
  unfold colNo128
  refine (slice2_axis1_apply 0 colNo384 slices_S5000x384_o0_0_S5000x128 p c (⟨c.val, by have := c.isLt; omega⟩ : Fin 384)
    (Nat.zero_add _).symm).trans ?_
  exact colNo384_apply p _

/-- A segment: one where the column number is the token word, zero elsewhere, kept as bf16. -/
def hotSeg (n : Nat) (cols toks : IVec ⟨2, ![5000, n]⟩ 32) : FVec Ideal ⟨2, ![5000, n]⟩ .bf16 :=
  truncf .bf16 (sitofp .f32 (extui 32 (cmpi .eq cols toks) natLt_1_32)) bitsLt_bf16_f32

theorem hotSeg_apply (n : Nat) (cols toks : IVec ⟨2, ![5000, n]⟩ 32) (j : (⟨2, ![5000, n]⟩ : Shape).Idx) :
    hotSeg n cols toks j = if cols j = toks j then 1 else 0 := hotBit _ _

/-- The four segments of a tile, each with its shape: 384, 128, 128 and 128 columns. -/
def segs (x0 : Vec Ideal S5000x4 .i32) : List ((s : Shape) × (s.Idx → Ideal .bf16)) :=
  [⟨S5000x384, hotSeg 384 colNo384 (tokAcross x0 0 slices_S5000x4_o0_0_S5000x1 384 broadcasts_S5000x1_S5000x384)⟩,
   ⟨S5000x128, hotSeg 128 colNo128 (tokAcross x0 1 slices_S5000x4_o0_1_S5000x1 128 broadcasts_S5000x1_S5000x128)⟩,
   ⟨S5000x128, hotSeg 128 colNo128 (tokAcross x0 2 slices_S5000x4_o0_2_S5000x1 128 broadcasts_S5000x1_S5000x128)⟩,
   ⟨S5000x128, hotSeg 128 colNo128 (tokAcross x0 3 slices_S5000x4_o0_3_S5000x1 128 broadcasts_S5000x1_S5000x128)⟩]

theorem segs_length (x0 : Vec Ideal S5000x4 .i32) : (segs x0).length = 4 := rfl

/-- The one-hot matrix of a tile: the four segments side by side. -/
def oneHot (x0 : Vec Ideal S5000x4 .i32) : FVec Ideal S5000x768 .bf16 :=
  concatenate S5000x768 1 (segs x0) concatenates_S5000x384_S5000x128_S5000x128_S5000x128_S5000x768_d1

/-- The stored value is the product of the one-hot matrix with the table, into zero. -/
theorem k0_pay1_eq (x0 : Vec Ideal S5000x4 .i32) (x1 : Vec Ideal S768x128 .bf16) :
    k0_pay1 (F := Ideal) x0 x1 = matmul dot_S5000x768_S768x128_S5000x128_1_0_0_1_n_n none (oneHot x0)
      (shapeCast S768x128 x1 shapeCasts_S768x128_S768x128 : FVec Ideal S768x128 .bf16) (constant (F := Ideal) S5000x128 .f32 0x00000000#32) := rfl

/-! ### The one-hot matrix read at an entry, segment by segment

Columns 0–383 belong to token column 0, 384–511 to column 1, 512–639 to column 2, 640–767 to column 3; inside its
segment an entry is one exactly where the column number, counted from the segment's first column, is the token word. -/

theorem oneHot_seg0 (x0 : Vec Ideal S5000x4 .i32) (p : Fin 5000) (k : Fin 768) (hk : k.val < 384) :
    oneHot x0 (ix2 p k) = if BitVec.ofNat 32 k.val = x0 (ix2 p (0 : Fin 4)) then 1 else 0 := by
  unfold oneHot
  refine (concatenate_apply_piece (1 : Fin S5000x768.rank) (segs x0) concatenates_S5000x384_S5000x128_S5000x128_S5000x128_S5000x768_d1 (ix2 p k)
    0 (by rw [segs_length]; decide) S5000x384 _ rfl rfl 0 rfl (ix2 p (⟨k.val, hk⟩ : Fin 384)) (fun b hb => ?_) ?_).trans ?_
  · match b with
    | ⟨0, _⟩ => rfl
    | ⟨1, _⟩ => exact absurd (Fin.ext rfl) hb
  · show 0 + k.val = k.val
    omega
  · rw [hotSeg_apply, colNo384_apply, tokAcross_apply x0 0 _ 384 _ (0 : Fin 4) rfl]

theorem oneHot_seg1 (x0 : Vec Ideal S5000x4 .i32) (p : Fin 5000) (k : Fin 768) (hlo : 384 ≤ k.val) (hhi : k.val < 512) :
    oneHot x0 (ix2 p k) = if BitVec.ofNat 32 (k.val - 384) = x0 (ix2 p (1 : Fin 4)) then 1 else 0 := by
  unfold oneHot
  refine (concatenate_apply_piece (1 : Fin S5000x768.rank) (segs x0) concatenates_S5000x384_S5000x128_S5000x128_S5000x128_S5000x768_d1 (ix2 p k)
    1 (by rw [segs_length]; decide) S5000x128 _ rfl rfl 384 rfl (ix2 p (⟨k.val - 384, by omega⟩ : Fin 128)) (fun b hb => ?_) ?_).trans ?_
  · match b with
    | ⟨0, _⟩ => rfl
    | ⟨1, _⟩ => exact absurd (Fin.ext rfl) hb
  · show 384 + (k.val - 384) = k.val
    omega
  · rw [hotSeg_apply, colNo128_apply, tokAcross_apply x0 1 _ 128 _ (1 : Fin 4) rfl]

theorem oneHot_seg2 (x0 : Vec Ideal S5000x4 .i32) (p : Fin 5000) (k : Fin 768) (hlo : 512 ≤ k.val) (hhi : k.val < 640) :
    oneHot x0 (ix2 p k) = if BitVec.ofNat 32 (k.val - 512) = x0 (ix2 p (2 : Fin 4)) then 1 else 0 := by
  unfold oneHot
  refine (concatenate_apply_piece (1 : Fin S5000x768.rank) (segs x0) concatenates_S5000x384_S5000x128_S5000x128_S5000x128_S5000x768_d1 (ix2 p k)
    2 (by rw [segs_length]; decide) S5000x128 _ rfl rfl 512 rfl (ix2 p (⟨k.val - 512, by omega⟩ : Fin 128)) (fun b hb => ?_) ?_).trans ?_
  · match b with
    | ⟨0, _⟩ => rfl
    | ⟨1, _⟩ => exact absurd (Fin.ext rfl) hb
  · show 512 + (k.val - 512) = k.val
    omega
  · rw [hotSeg_apply, colNo128_apply, tokAcross_apply x0 2 _ 128 _ (2 : Fin 4) rfl]

theorem oneHot_seg3 (x0 : Vec Ideal S5000x4 .i32) (p : Fin 5000) (k : Fin 768) (hlo : 640 ≤ k.val) (hhi : k.val < 768) :
    oneHot x0 (ix2 p k) = if BitVec.ofNat 32 (k.val - 640) = x0 (ix2 p (3 : Fin 4)) then 1 else 0 := by
  unfold oneHot
  refine (concatenate_apply_piece (1 : Fin S5000x768.rank) (segs x0) concatenates_S5000x384_S5000x128_S5000x128_S5000x128_S5000x768_d1 (ix2 p k)
    3 (by rw [segs_length]; decide) S5000x128 _ rfl rfl 640 rfl (ix2 p (⟨k.val - 640, by omega⟩ : Fin 128)) (fun b hb => ?_) ?_).trans ?_
  · match b with
    | ⟨0, _⟩ => rfl
    | ⟨1, _⟩ => exact absurd (Fin.ext rfl) hb
  · show 640 + (k.val - 640) = k.val
    omega
  · rw [hotSeg_apply, colNo128_apply, tokAcross_apply x0 3 _ 128 _ (3 : Fin 4) rfl]

/-! ### The block table and the result row, segment by segment -/

open Cert.Lookup

/-- A number below 768 written as a 32-bit word is a given word exactly when it is that word's value. -/
theorem word_eq_iff (n : Nat) (hn : n < 768) (x : BitVec 32) : BitVec.ofNat 32 n = x ↔ n = x.toNat := by
  constructor
  · intro h
    rw [← h, BitVec.toNat_ofNat]
    omega
  · intro h
    apply BitVec.eq_of_toNat_eq
    rw [BitVec.toNat_ofNat, ← h]
    omega

theorem ix2_congr {n0 n1 : Nat} {a a' : Fin n0} {b b' : Fin n1} (ha : a.val = a'.val) (hb : b.val = b'.val) :
    ix2 a b = ix2 a' b' := by
  rw [Fin.ext ha, Fin.ext hb]

section
variable (W0 : FVec Ideal S366x32 .f32) (W1 : FVec Ideal S24x32 .f32) (W2 : FVec Ideal S7x32 .f32) (W3 : FVec Ideal S60x32 .f32)

/-- The block table is zero wherever the row's segment is not the feature's segment. -/
theorem tableAt_zero (k : Fin 768) (col : Fin 128)
    (h : ¬(k.val < 384 ∧ col.val < 32) ∧ ¬(384 ≤ k.val ∧ k.val < 512 ∧ 32 ≤ col.val ∧ col.val < 64)
      ∧ ¬(512 ≤ k.val ∧ k.val < 640 ∧ 64 ≤ col.val ∧ col.val < 96) ∧ ¬(640 ≤ k.val ∧ 96 ≤ col.val)) :
    tableAt W0 W1 W2 W3 k col = 0 := by
  unfold Cert.Lookup.tableAt
  split_ifs <;> first | rfl | (exfalso; omega)

theorem tableAt_seg0 (k : Fin 768) (col : Fin 128) (hk : k.val < 366) (c : col.val < 32) :
    tableAt W0 W1 W2 W3 k col = W0 (ix2 (⟨k.val, hk⟩ : Fin 366) (⟨col.val, c⟩ : Fin 32)) := by
  unfold Cert.Lookup.tableAt
  split_ifs <;> first | rfl | (exfalso; omega)

theorem tableAt_seg1 (k : Fin 768) (col : Fin 128) (hlo : 384 ≤ k.val) (hk : k.val < 408) (c1 : 32 ≤ col.val) (c2 : col.val < 64) :
    tableAt W0 W1 W2 W3 k col = W1 (ix2 (⟨k.val - 384, by omega⟩ : Fin 24) (⟨col.val - 32, by omega⟩ : Fin 32)) := by
  unfold Cert.Lookup.tableAt
  split_ifs <;> first | rfl | (exfalso; omega)

theorem tableAt_seg2 (k : Fin 768) (col : Fin 128) (hlo : 512 ≤ k.val) (hk : k.val < 519) (c1 : 64 ≤ col.val) (c2 : col.val < 96) :
    tableAt W0 W1 W2 W3 k col = W2 (ix2 (⟨k.val - 512, by omega⟩ : Fin 7) (⟨col.val - 64, by omega⟩ : Fin 32)) := by
  unfold Cert.Lookup.tableAt
  split_ifs <;> first | rfl | (exfalso; omega)

theorem tableAt_seg3 (k : Fin 768) (col : Fin 128) (hlo : 640 ≤ k.val) (hk : k.val < 700) (c1 : 96 ≤ col.val) :
    tableAt W0 W1 W2 W3 k col = W3 (ix2 (⟨k.val - 640, by omega⟩ : Fin 60) (⟨col.val - 96, by have := col.isLt; omega⟩ : Fin 32)) := by
  unfold Cert.Lookup.tableAt
  split_ifs <;> first | rfl | (exfalso; omega)

/-- The result row's feature, by the feature's segment, for words that name rows of their tables. -/
theorem rowValue_seg0 (t0 t1 t2 t3 : BitVec 32) (col : Fin 128) (c : col.val < 32) (h : t0.toNat < 366) :
    rowValue W0 W1 W2 W3 t0 t1 t2 t3 col = W0 (ix2 (⟨t0.toNat, h⟩ : Fin 366) (⟨col.val, c⟩ : Fin 32)) := by
  unfold Cert.Lookup.rowValue
  split_ifs <;> first | (exfalso; omega) | exact congrArg W0 (ix2_congr (rowOf_val_of_lt 366 _ t0 h) rfl)

theorem rowValue_seg1 (t0 t1 t2 t3 : BitVec 32) (col : Fin 128) (c1 : 32 ≤ col.val) (c2 : col.val < 64) (h : t1.toNat < 24) :
    rowValue W0 W1 W2 W3 t0 t1 t2 t3 col = W1 (ix2 (⟨t1.toNat, h⟩ : Fin 24) (⟨col.val - 32, by omega⟩ : Fin 32)) := by
  unfold Cert.Lookup.rowValue
  split_ifs <;> first | (exfalso; omega) | exact congrArg W1 (ix2_congr (rowOf_val_of_lt 24 _ t1 h) rfl)

theorem rowValue_seg2 (t0 t1 t2 t3 : BitVec 32) (col : Fin 128) (c1 : 64 ≤ col.val) (c2 : col.val < 96) (h : t2.toNat < 7) :
    rowValue W0 W1 W2 W3 t0 t1 t2 t3 col = W2 (ix2 (⟨t2.toNat, h⟩ : Fin 7) (⟨col.val - 64, by omega⟩ : Fin 32)) := by
  unfold Cert.Lookup.rowValue
  split_ifs <;> first | (exfalso; omega) | exact congrArg W2 (ix2_congr (rowOf_val_of_lt 7 _ t2 h) rfl)

theorem rowValue_seg3 (t0 t1 t2 t3 : BitVec 32) (col : Fin 128) (c1 : 96 ≤ col.val) (h : t3.toNat < 60) :
    rowValue W0 W1 W2 W3 t0 t1 t2 t3 col = W3 (ix2 (⟨t3.toNat, h⟩ : Fin 60) (⟨col.val - 96, by have := col.isLt; omega⟩ : Fin 32)) := by
  unfold Cert.Lookup.rowValue
  split_ifs <;> first | (exfalso; omega) | exact congrArg W3 (ix2_congr (rowOf_val_of_lt 60 _ t3 h) rfl)

end

/-! ### The product's sum, by the feature's segment

In the sum over the 768 contracted positions, the only term that is not zero is the hot column of the feature's own
segment: elsewhere in that segment the one-hot entry is zero, and in the other segments the block table is. -/

section
variable (x0 : Vec Ideal S5000x4 .i32)
  (W0 : FVec Ideal S366x32 .f32) (W1 : FVec Ideal S24x32 .f32) (W2 : FVec Ideal S7x32 .f32) (W3 : FVec Ideal S60x32 .f32)

theorem sum_col0 (p : Fin 5000) (col : Fin 128) (c : col.val < 32)
    (h : (x0 (ix2 p (0 : Fin 4))).toNat < 366) :
    ∑ k : Fin 768, oneHot x0 (ix2 p k) * tableAt W0 W1 W2 W3 k col
      = W0 (ix2 (⟨(x0 (ix2 p (0 : Fin 4))).toNat, h⟩ : Fin 366) (⟨col.val, c⟩ : Fin 32)) := by
  obtain ⟨k0, hk0⟩ : ∃ k0 : Fin 768, k0.val = (x0 (ix2 p (0 : Fin 4))).toNat :=
    ⟨⟨(x0 (ix2 p (0 : Fin 4))).toNat, by omega⟩, rfl⟩
  refine (sum_hot_mul (fun k => oneHot x0 (ix2 p k)) (fun k => tableAt W0 W1 W2 W3 k col) k0 ?_ ?_).trans ?_
  · show oneHot x0 (ix2 p k0) = 1
    rw [oneHot_seg0 x0 p k0 (by omega)]
    exact if_pos ((word_eq_iff _ (by omega) _).mpr hk0)
  · intro k hk
    have hklt := k.isLt
    by_cases hs : k.val < 384
    · left
      show oneHot x0 (ix2 p k) = 0
      rw [oneHot_seg0 x0 p k hs]
      refine if_neg fun e => hk (Fin.ext ?_)
      have := (word_eq_iff _ hklt _).mp e
      omega
    · right
      exact tableAt_zero W0 W1 W2 W3 k col (by omega)
  · show tableAt W0 W1 W2 W3 k0 col = _
    rw [tableAt_seg0 W0 W1 W2 W3 k0 col (by omega) c]
    exact congrArg W0 (ix2_congr hk0 rfl)

theorem sum_col1 (p : Fin 5000) (col : Fin 128) (c1 : 32 ≤ col.val) (c2 : col.val < 64)
    (h : (x0 (ix2 p (1 : Fin 4))).toNat < 24) :
    ∑ k : Fin 768, oneHot x0 (ix2 p k) * tableAt W0 W1 W2 W3 k col
      = W1 (ix2 (⟨(x0 (ix2 p (1 : Fin 4))).toNat, h⟩ : Fin 24) (⟨col.val - 32, by omega⟩ : Fin 32)) := by
  have hcol := col.isLt
  obtain ⟨k0, hk0⟩ : ∃ k0 : Fin 768, k0.val = 384 + (x0 (ix2 p (1 : Fin 4))).toNat :=
    ⟨⟨384 + (x0 (ix2 p (1 : Fin 4))).toNat, by omega⟩, rfl⟩
  refine (sum_hot_mul (fun k => oneHot x0 (ix2 p k)) (fun k => tableAt W0 W1 W2 W3 k col) k0 ?_ ?_).trans ?_
  · show oneHot x0 (ix2 p k0) = 1
    rw [oneHot_seg1 x0 p k0 (by omega) (by omega)]
    exact if_pos ((word_eq_iff _ (by omega) _).mpr (by omega))
  · intro k hk
    have hklt := k.isLt
    by_cases hs : 384 ≤ k.val ∧ k.val < 512
    · left
      show oneHot x0 (ix2 p k) = 0
      rw [oneHot_seg1 x0 p k hs.1 hs.2]
      refine if_neg fun e => hk (Fin.ext ?_)
      have := (word_eq_iff _ (by omega) _).mp e
      omega
    · right
      exact tableAt_zero W0 W1 W2 W3 k col (by omega)
  · show tableAt W0 W1 W2 W3 k0 col = _
    rw [tableAt_seg1 W0 W1 W2 W3 k0 col (by omega) (by omega) c1 c2]
    exact congrArg W1 (ix2_congr (by show k0.val - 384 = (x0 (ix2 p (1 : Fin 4))).toNat; omega) rfl)

theorem sum_col2 (p : Fin 5000) (col : Fin 128) (c1 : 64 ≤ col.val) (c2 : col.val < 96)
    (h : (x0 (ix2 p (2 : Fin 4))).toNat < 7) :
    ∑ k : Fin 768, oneHot x0 (ix2 p k) * tableAt W0 W1 W2 W3 k col
      = W2 (ix2 (⟨(x0 (ix2 p (2 : Fin 4))).toNat, h⟩ : Fin 7) (⟨col.val - 64, by omega⟩ : Fin 32)) := by
  have hcol := col.isLt
  obtain ⟨k0, hk0⟩ : ∃ k0 : Fin 768, k0.val = 512 + (x0 (ix2 p (2 : Fin 4))).toNat :=
    ⟨⟨512 + (x0 (ix2 p (2 : Fin 4))).toNat, by omega⟩, rfl⟩
  refine (sum_hot_mul (fun k => oneHot x0 (ix2 p k)) (fun k => tableAt W0 W1 W2 W3 k col) k0 ?_ ?_).trans ?_
  · show oneHot x0 (ix2 p k0) = 1
    rw [oneHot_seg2 x0 p k0 (by omega) (by omega)]
    exact if_pos ((word_eq_iff _ (by omega) _).mpr (by omega))
  · intro k hk
    have hklt := k.isLt
    by_cases hs : 512 ≤ k.val ∧ k.val < 640
    · left
      show oneHot x0 (ix2 p k) = 0
      rw [oneHot_seg2 x0 p k hs.1 hs.2]
      refine if_neg fun e => hk (Fin.ext ?_)
      have := (word_eq_iff _ (by omega) _).mp e
      omega
    · right
      exact tableAt_zero W0 W1 W2 W3 k col (by omega)
  · show tableAt W0 W1 W2 W3 k0 col = _
    rw [tableAt_seg2 W0 W1 W2 W3 k0 col (by omega) (by omega) c1 c2]
    exact congrArg W2 (ix2_congr (by show k0.val - 512 = (x0 (ix2 p (2 : Fin 4))).toNat; omega) rfl)

theorem sum_col3 (p : Fin 5000) (col : Fin 128) (c1 : 96 ≤ col.val)
    (h : (x0 (ix2 p (3 : Fin 4))).toNat < 60) :
    ∑ k : Fin 768, oneHot x0 (ix2 p k) * tableAt W0 W1 W2 W3 k col
      = W3 (ix2 (⟨(x0 (ix2 p (3 : Fin 4))).toNat, h⟩ : Fin 60) (⟨col.val - 96, by have := col.isLt; omega⟩ : Fin 32)) := by
  have hcol := col.isLt
  obtain ⟨k0, hk0⟩ : ∃ k0 : Fin 768, k0.val = 640 + (x0 (ix2 p (3 : Fin 4))).toNat :=
    ⟨⟨640 + (x0 (ix2 p (3 : Fin 4))).toNat, by omega⟩, rfl⟩
  refine (sum_hot_mul (fun k => oneHot x0 (ix2 p k)) (fun k => tableAt W0 W1 W2 W3 k col) k0 ?_ ?_).trans ?_
  · show oneHot x0 (ix2 p k0) = 1
    rw [oneHot_seg3 x0 p k0 (by omega) (by omega)]
    exact if_pos ((word_eq_iff _ (by omega) _).mpr (by omega))
  · intro k hk
    have hklt := k.isLt
    by_cases hs : 640 ≤ k.val ∧ k.val < 768
    · left
      show oneHot x0 (ix2 p k) = 0
      rw [oneHot_seg3 x0 p k hs.1 hs.2]
      refine if_neg fun e => hk (Fin.ext ?_)
      have := (word_eq_iff _ (by omega) _).mp e
      omega
    · right
      exact tableAt_zero W0 W1 W2 W3 k col (by omega)
  · show tableAt W0 W1 W2 W3 k0 col = _
    rw [tableAt_seg3 W0 W1 W2 W3 k0 col (by omega) (by omega) c1]
    exact congrArg W3 (ix2_congr (by show k0.val - 640 = (x0 (ix2 p (3 : Fin 4))).toNat; omega) rfl)

end

/-! ### The tile's product with the block table is the table lookup -/

theorem payload_apply (x0 : Vec Ideal S5000x4 .i32) (W0 : FVec Ideal S366x32 .f32) (W1 : FVec Ideal S24x32 .f32)
    (W2 : FVec Ideal S7x32 .f32) (W3 : FVec Ideal S60x32 .f32) (p : Fin 5000) (col : Fin 128)
    (h0 : (x0 (ix2 p (0 : Fin 4))).toNat < 366) (h1 : (x0 (ix2 p (1 : Fin 4))).toNat < 24)
    (h2 : (x0 (ix2 p (2 : Fin 4))).toNat < 7) (h3 : (x0 (ix2 p (3 : Fin 4))).toNat < 60) :
    k0_pay1 (F := Ideal) x0 (Cert.Lookup.blockTable W0 W1 W2 W3) (ix2 p col)
      = Cert.Lookup.rowValue W0 W1 W2 W3 (x0 (ix2 p (0 : Fin 4))) (x0 (ix2 p (1 : Fin 4))) (x0 (ix2 p (2 : Fin 4)))
          (x0 (ix2 p (3 : Fin 4))) col := by
  rw [k0_pay1_eq, shapeCast_self]
  refine (matmul_sum (oneHot x0) (Cert.Lookup.blockTable W0 W1 W2 W3) p col).trans ?_
  show ∑ k : Fin 768, oneHot x0 (ix2 p k) * tableAt W0 W1 W2 W3 k col = _
  by_cases c0 : col.val < 32
  · rw [sum_col0 x0 W0 W1 W2 W3 p col c0 h0, rowValue_seg0 W0 W1 W2 W3 _ _ _ _ col c0 h0]
  · by_cases c1 : col.val < 64
    · rw [sum_col1 x0 W0 W1 W2 W3 p col (by omega) c1 h1, rowValue_seg1 W0 W1 W2 W3 _ _ _ _ col (by omega) c1 h1]
    · by_cases c2 : col.val < 96
      · rw [sum_col2 x0 W0 W1 W2 W3 p col (by omega) c2 h2, rowValue_seg2 W0 W1 W2 W3 _ _ _ _ col (by omega) c2 h2]
      · rw [sum_col3 x0 W0 W1 W2 W3 p col (by omega) h3, rowValue_seg3 W0 W1 W2 W3 _ _ _ _ col (by omega) h3]

end Cert.KernelIdeal.Payload
end
-- ==== Proof.IdealValue.lean ====
/-
  The idealized kernel's result array is the lookup.

  At grid point `t` the body stores the product of tile `t`'s multi-hot matrix with the block table. The table
  window's block is the whole block table at every point; row `p` of the token tile is row `5000 t + p` of the
  tokens, which under the range precondition are the argument tokens themselves (clipping changes nothing in range).
  So entry `(p, col)` of what point `t` writes back is the lookup at row `5000 t + p`, feature `col`: tile `t` of the
  lookup. The 400 tiles of 5000 rows fill the array (row `R` lies in tile `R / 5000`), so the array after the run is
  the lookup of the arguments.
-/
import proofs.«406140_j31731218383102_3_alg».proof.Proof.IdealFrame
import proofs.«406140_j31731218383102_3_alg».proof.Proof.IdealTable
import proofs.«406140_j31731218383102_3_alg».proof.Proof.IdealTokens
import proofs.«406140_j31731218383102_3_alg».proof.Proof.Payload
import proofs.«406140_j31731218383102_3_alg».proof.Proof.Lookup
import Idealize.ShloMosaic.Lib.Pipeline.Value

set_option maxRecDepth 16384

noncomputable section

namespace Cert.KernelIdeal.Result

open Cert.KernelIdeal Cert.KernelIdeal.Gen Cert.KernelIdeal.Entry Cert.KernelIdeal.Frame
open Idealize.ShloMosaic Idealize.ShloMosaic.TcCoe Idealize.SL.Sem Idealize.ShloMosaic.ValueIdx
open Idealize.ShloMosaic.Pipeline (Dat)
open Cert.Lookup

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: at point `t` the token window and the output window are at block row `t`,
    block column 0; the table window at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 400 := by have := t.isLt; have h : cfg0.N = 400 := N_0; omega

/-- The table window's block is the whole table at every point. -/
theorem table_block (c : Dev nD) (t : Fin cfg0.N) :
    (blockAt m c 1 t : Vec Ideal S768x128 .bf16)
      = blockTable (m ((c : Thread nD τ).loc main_arg1)) (m ((c : Thread nD τ).loc main_arg2)) (m ((c : Thread nD τ).loc main_arg3)) (m ((c : Thread nD τ).loc main_arg4)) := by
  funext y
  show V m c main_v26 (((cfg0.win 1).blk t).view.emb y) = _
  rw [Cert.KernelIdeal.Table.table_at_entry m c]
  refine congrArg _ ?_
  obtain ⟨-, -, e2, e3, -, -⟩ := index_maps t
  funext a; apply Fin.ext
  match a with
  | ⟨0, _⟩ => show win0_1.index t (0 : Fin 2) * 768 + 1 * (y 0).val = (y 0).val; omega
  | ⟨1, _⟩ => show win0_1.index t (1 : Fin 2) * 128 + 1 * (y 1).val = (y 1).val; omega

/-- Row `p` of the token tile at point `t` is row `5000 t + p` of the tokens. -/
theorem tokens_block (c : Dev nD) (h : InRange (m ((c : Thread nD τ).loc main_arg0))) (t : Fin cfg0.N) (p : Fin 5000) (d : Fin 4) :
    (blockAt m c 0 t : Vec Ideal S5000x4 .i32) (ix2 p d)
      = m ((c : Thread nD τ).loc main_arg0) (ix2 (⟨5000 * t.val + p.val, by have := point_lt t; omega⟩ : Fin 2000000) d) := by
  show V m c main_v8 (((cfg0.win 0).blk t).view.emb (ix2 p d)) = _
  rw [Cert.KernelIdeal.Tokens.tokens_at_entry m c h]
  refine congrArg _ ?_
  obtain ⟨e0, e1, -, -, -, -⟩ := index_maps t
  funext a; apply Fin.ext
  match a with
  | ⟨0, _⟩ => show win0_0.index t (0 : Fin 2) * 5000 + 1 * p.val = 5000 * t.val + p.val; omega
  | ⟨1, _⟩ => show win0_0.index t (1 : Fin 2) * 4 + 1 * d.val = d.val; omega

/-- What point `t` writes back is tile `t` of the lookup. -/
theorem flushed_eq (c : Dev nD) (h : InRange (m ((c : Thread nD τ).loc main_arg0))) (t : Fin cfg0.N) :
    (proofData m 0 c).flushed 2 t = ((cfg0.win 2).blk t).view.read (Elt Ideal)
      (lookup (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 2).cut (grid0.coords t) ((proofData m 0 c).after 2 t) = _
  rw [after_out]
  unfold tileOut
  rw [View.canon_unit_zero origin]
  simp only [View.ld_unit_zero (S := S5000x4) origin, View.ld_unit_zero (S := S768x128) origin]
  rw [table_block m c t]
  funext j
  obtain ⟨p, col, rfl⟩ : ∃ (p : Fin 5000) (col : Fin 128), j = ix2 p col := ⟨j 0, j 1, eq_ix2 j⟩
  have hr := h (⟨5000 * t.val + p.val, by have := point_lt t; omega⟩ : Fin 2000000)
  show k0_pay1 (F := Ideal) (blockAt m c 0 t) _ (ix2 p col) = lookup _ _ _ _ _ (((cfg0.win 2).blk t).view.emb (ix2 p col))
  have hemb : ((cfg0.win 2).blk t).view.emb (ix2 p col) = ix2 (⟨5000 * t.val + p.val, by have := point_lt t; omega⟩ : Fin 2000000) col := by
    obtain ⟨-, -, -, -, e4, e5⟩ := index_maps t
    funext a; apply Fin.ext
    match a with
    | ⟨0, _⟩ => show win0_2.index t (0 : Fin 2) * 5000 + 1 * p.val = 5000 * t.val + p.val; omega
    | ⟨1, _⟩ => show win0_2.index t (1 : Fin 2) * 128 + 1 * col.val = col.val; omega
  rw [hemb, lookup_ix2]
  unfold lookupAt
  rw [← tokens_block m c h t p 0, ← tokens_block m c h t p 1, ← tokens_block m c h t p 2, ← tokens_block m c h t p 3] at hr ⊢
  exact Cert.KernelIdeal.Payload.payload_apply _ _ _ _ _ p col hr.1 hr.2.1 hr.2.2.1 hr.2.2.2

/-- An index of the output array is in point `t`'s tile iff each coordinate is in the tile's range on its axis. -/
theorem mem_tile (t : Fin cfg0.N) (i : S2000000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The 400 tiles of 5000 rows fill the output array: row `R` is in tile `R / 5000`. -/
theorem covered (i : S2000000x128.Idx) : ∃ t : Fin cfg0.N, (cfg0.win 2).flush t = true ∧ i ∈ ((cfg0.win 2).blk t).view.set := by
  have hi0 : (i 0).val < 2000000 := idx2_lt0 i
  have hi1 : (i 1).val < 128 := idx2_lt1 i
  have hN : cfg0.N = 400 := N_0
  let t : Fin cfg0.N := ⟨(i 0).val / 5000, by omega⟩
  refine ⟨t, flush0_2 t, ?_⟩
  rw [mem_tile]
  obtain ⟨-, -, -, -, e4, e5⟩ := index_maps t
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the run is the lookup. -/
theorem final (c : Dev nD) (h : InRange (m ((c : Thread nD τ).loc main_arg0))) :
    (proofData m 0 c).arrAt 2 cfg0.N
      = lookup (m ((c : Thread nD τ).loc main_arg0)) (m ((c : Thread nD τ).loc main_arg1)) (m ((c : Thread nD τ).loc main_arg2)) (m ((c : Thread nD τ).loc main_arg3)) (m ((c : Thread nD τ).loc main_arg4)) :=
  (proofData m 0 c).arrAt_eq_of_cover 2 _ (fun t _ => flushed_eq m c h t) covered

/-- The run, read: under the range precondition every fair execution of the idealized kernel ends with the result array
    at the lookup of the arguments, the arguments unchanged. -/
theorem run (h : ∀ c : Dev nD, InRange (m ((c : Thread nD τ).loc main_arg0))) :
    θ_run defs (onTc (τ := τ) (main (F := Ideal))) ⟨m, fun _ => 0, ρ⟩ fun r => ∀ c : Dev nD,
      r.2.mem ((c.tc : Thread nD τ).loc main_v27)
        = lookup (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => ⟨((hr c).1 2).trans (final m c (h c)),
      ((hr c).2 main_arg0 (Pipeline.mem_restRefs_of main_arg0 (by decide) (by decide))).trans (V_main_arg0 m c),
      ((hr c).2 main_arg1 (Pipeline.mem_restRefs_of main_arg1 (by decide) (by decide))).trans (V_main_arg1 m c),
      ((hr c).2 main_arg2 (Pipeline.mem_restRefs_of main_arg2 (by decide) (by decide))).trans (V_main_arg2 m c),
      ((hr c).2 main_arg3 (Pipeline.mem_restRefs_of main_arg3 (by decide) (by decide))).trans (V_main_arg3 m c),
      ((hr c).2 main_arg4 (Pipeline.mem_restRefs_of main_arg4 (by decide) (by decide))).trans (V_main_arg4 m c)⟩)
    (run_main m ρ)

end Cert.KernelIdeal.Result

end
-- ==== Proof.RefTake.lean ====
/-
  The reference's result as one term of its argument arrays.

  The reference reads the token array column by column. For column d (d = 0 … 3) it takes the column as a vector of
  2000000 words and looks each word up in table d, in the way a gather with "fill" semantics does:

    * a word that is negative (read signed) is wrapped once, by adding the table's row count n;
    * the wrapped words are laid out as a 2000000 × 1 column of start indices;
    * a row is IN RANGE when its wrapped word w has 0 ≤ w ≤ n − 1 (signed): the conjunction of the two comparisons,
      reduced by "and" over the axis of length one;
    * the gather reads, for every row, the table row its start index names (clamped so that the slice fits);
    * the result keeps the gathered row where the row is in range and is a quiet not-a-number (bits 0x7FC00000)
      everywhere else.

  The four 2000000 × 32 results are laid side by side along axis 1. take0 … take3 are the four look-ups (row counts
  366, 24, 7, 60; greatest rows 365, 23, 6, 59), refOut the whole result. Each is spelled with exactly the operations
  the printed program lists, in its order of operands, so that the program's run ends at these terms by unfolding.
-/
import proofs.«406140_j31731218383102_3_alg».proof.Proof.Gen.ReferenceIdeal

noncomputable section

namespace Cert.ReferenceIdeal.Take

open Cert.ReferenceIdeal Cert.ReferenceIdeal.Gen Idealize.ShloMosaic

variable {F : FTy → Type} [FloatOps F]

/-- The words with the negative ones wrapped: where v < 0 (signed) the word v + n, elsewhere v. -/
def wrap (n : BitVec 32) (v : IVec S2000000 32) : IVec S2000000 32 :=
  select (cmpi .slt v (broadcastInDim S2000000 ![] bcast_S_S2000000 (constantI S_ 32 0#32)))
    (addi v (broadcastInDim S2000000 ![] bcast_S_S2000000 (constantI S_ 32 n))) v

/-- A vector of words as a column of start indices, one per row. -/
def column (v : IVec S2000000 32) : IVec S2000000x1 32 :=
  broadcastInDim S2000000x1 ![0] bcast_S2000000_S2000000x1_0 v

/-- The rows whose start index w has 0 ≤ w ≤ hi (signed): both comparisons, joined by "and", then reduced by "and"
    over the axis of length one from the initial value true. -/
def inRange (hi : BitVec 32) (c : IVec S2000000x1 32) : IVec S2000000 1 :=
  Host.reduce IntOp.andi
    (andi (cmpi .sge c (broadcastInDim S2000000x1 ![] bcast_S_S2000000x1 (constantI S_ 32 0#32)))
      (cmpi .sle c (broadcastInDim S2000000x1 ![0, 1] bcast_S1x1_S2000000x1_0_1
        (broadcastInDim S1x1 ![1] bcast_S1_S1x1_1 (constantI S1 32 hi)))))
    (constantI S_ 1 1#1) reducesTo_S2000000x1_S2000000_d1 h_S_

/-- The fill value: a quiet not-a-number at every entry. -/
def fill : FVec F S2000000x32 .f32 :=
  broadcastInDim S2000000x32 ![] bcast_S_S2000000x32 (constant S_ .f32 0x7FC00000#32)

/-- The in-range rows as a mask over the 2000000 × 32 result: a row's bit at each of its 32 features. -/
def rowMask (m : IVec S2000000 1) : IVec S2000000x32 1 :=
  broadcastInDim S2000000x32 ![0] bcast_S2000000_S2000000x32_0 m

/-- Column 0 looked up in the table of 366 rows. -/
def take0 (W : FVec F S366x32 .f32) (v : IVec S2000000 32) : FVec F S2000000x32 .f32 :=
  select (rowMask (inRange 365#32 (column (wrap 366#32 v))))
    (Host.gather gather_S366x32_S2000000x1_S2000000x32_1_0_n_n_0_1_132 W (column (wrap 366#32 v)))
    fill

/-- Column 1 looked up in the table of 24 rows. -/
def take1 (W : FVec F S24x32 .f32) (v : IVec S2000000 32) : FVec F S2000000x32 .f32 :=
  select (rowMask (inRange 23#32 (column (wrap 24#32 v))))
    (Host.gather gather_S24x32_S2000000x1_S2000000x32_1_0_n_n_0_1_132 W (column (wrap 24#32 v)))
    fill

/-- Column 2 looked up in the table of 7 rows. -/
def take2 (W : FVec F S7x32 .f32) (v : IVec S2000000 32) : FVec F S2000000x32 .f32 :=
  select (rowMask (inRange 6#32 (column (wrap 7#32 v))))
    (Host.gather gather_S7x32_S2000000x1_S2000000x32_1_0_n_n_0_1_132 W (column (wrap 7#32 v)))
    fill

/-- Column 3 looked up in the table of 60 rows. -/
def take3 (W : FVec F S60x32 .f32) (v : IVec S2000000 32) : FVec F S2000000x32 .f32 :=
  select (rowMask (inRange 59#32 (column (wrap 60#32 v))))
    (Host.gather gather_S60x32_S2000000x1_S2000000x32_1_0_n_n_0_1_132 W (column (wrap 60#32 v)))
    fill

/-- Column d of the token array as a vector of 2000000 words: the 2000000 × 1 slice at offset (0, d), its rows read
    in order. -/
def tokenColumn (T : IVec S2000000x4 32) (off : Fin S2000000x4.rank → Nat) (h : S2000000x4.Slices off S2000000x1) :
    IVec S2000000 32 :=
  shapeCast S2000000 (extractStridedSlice S2000000x1 off T h) shapeCasts_S2000000x1_S2000000

/-- The reference's result: the four look-ups side by side along axis 1. -/
def refOut (T : IVec S2000000x4 32) (W0 : FVec F S366x32 .f32) (W1 : FVec F S24x32 .f32) (W2 : FVec F S7x32 .f32)
    (W3 : FVec F S60x32 .f32) : FVec F S2000000x128 .f32 :=
  concatenate S2000000x128 1
    [⟨S2000000x32, take0 W0 (tokenColumn T ![0, 0] slices_S2000000x4_S2000000x1_0_0)⟩,
     ⟨S2000000x32, take1 W1 (tokenColumn T ![0, 1] slices_S2000000x4_S2000000x1_0_1)⟩,
     ⟨S2000000x32, take2 W2 (tokenColumn T ![0, 2] slices_S2000000x4_S2000000x1_0_2)⟩,
     ⟨S2000000x32, take3 W3 (tokenColumn T ![0, 3] slices_S2000000x4_S2000000x1_0_3)⟩]
    concatenates_S2000000x32_S2000000x32_S2000000x32_S2000000x32_S2000000x128_d1

end Cert.ReferenceIdeal.Take

end
-- ==== Proof.RefRun.lean ====
/-
  The reference program's run, read back.

  @main is a straight line of 101 array operations and no kernel: for each of the four token columns a slice of the
  token array, its reshape to a vector, and the 23 operations of a gather with fill (the called function's body, put
  in place of the call); then one concatenate. This module lists them (ops0 … ops3, opsC), shows that @main is that
  line, and reads off what the buffers hold at the end: every weakly fair execution terminates, the result buffer
  holds Take.refOut of the arguments' launch contents, and the five argument buffers hold what they held at launch.

  The line is read stretch by stretch. Within a stretch every buffer is written once and read only afterwards, so the
  fold of its operations, read back at the stretch's result buffer, is the composition of the operations' functions:
  Take.takeK of the table and the token column. A stretch writes only its own 25 buffers, so every other buffer
  passes through it unchanged: the look-ups' results reach the concatenate as they were written, and the token array
  and the tables, which no operation writes, reach every stretch, and the end, as launched.
-/
import proofs.«406140_j31731218383102_3_alg».proof.Proof.RefTake
import Idealize.ShloMosaic.Lib.StableHlo.Run
import Idealize.ShloMosaic.Lib.Pipeline.Frame
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The look-up of column 0: the slice of the token array, its reshape to a vector, and the twenty-three operations of
    the gather with fill, each at its own buffer. -/
abbrev ops0 : List (HloOp τ sig (Elt F)) :=
  [ unary main_arg0 main_v0 ((extractStridedSlice S2000000x1 ![0, 0] · slices_S2000000x4_S2000000x1_0_0) : (⟨S2000000x4, .i32⟩ : BufTy).Contents (Elt F) → (⟨S2000000x1, .i32⟩ : BufTy).Contents (Elt F)),
    StableHlo.reshape main_v0 main_v1 rfl shapeCasts_S2000000x1_S2000000,
    nullary main_call0_c (constantI S_ 32 0#32),
    unary main_call0_c main_call0_v0 (broadcastInDim S2000000 ![] bcast_S_S2000000),
    binary main_v1 main_call0_v0 main_call0_v1 (cmpi .slt),
    nullary main_call0_c_0 (constantI S_ 32 366#32),
    unary main_call0_c_0 main_call0_v2 (broadcastInDim S2000000 ![] bcast_S_S2000000),
    binary main_v1 main_call0_v2 main_call0_v3 addi,
    ternary main_call0_v1 main_call0_v3 main_v1 main_call0_v4 select,
    unary main_call0_v4 main_call0_v5 (broadcastInDim S2000000x1 ![0] bcast_S2000000_S2000000x1_0),
    nullary main_call0_c_1 (constantI S1 32 365#32),
    nullary main_call0_c_2 (constantI S_ 32 0#32),
    unary main_call0_c_2 main_call0_v6 (broadcastInDim S2000000x1 ![] bcast_S_S2000000x1),
    binary main_call0_v5 main_call0_v6 main_call0_v7 (cmpi .sge),
    unary main_call0_c_1 main_call0_v8 (broadcastInDim S1x1 ![1] bcast_S1_S1x1_1),
    unary main_call0_v8 main_call0_v9 (broadcastInDim S2000000x1 ![0, 1] bcast_S1x1_S2000000x1_0_1),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S2000000x1_S2000000_d1 h_S_),
    binary main_arg1 main_call0_v5 main_call0_v13 (fun x i => Host.gather gather_S366x32_S2000000x1_S2000000x32_1_0_n_n_0_1_132 x i),
    unary main_call0_v12 main_call0_v14 (broadcastInDim S2000000x32 ![0] bcast_S2000000_S2000000x32_0),
    nullary main_call0_cst (constant S_ .f32 0x7FC00000#32),
    unary main_call0_cst main_call0_v15 (broadcastInDim S2000000x32 ![] bcast_S_S2000000x32),
    ternary main_call0_v14 main_call0_v13 main_call0_v15 main_v2 select ]

theorem ops0_sub : (ops0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem ops0_fresh : (ops0 : List (HloOp τ sig (Elt F))).Forall fun op => op.fresh = ∅ := by
  simp only [List.Forall]; repeat' constructor

/-- The buffers the look-up of column 0 writes. -/
abbrev W0 : List (Ref sig .tc) := [main_v0, main_v1, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v2]

theorem ops0_writes : (ops0 : List (HloOp τ sig (Elt F))).Forall fun op => op.writes ⊆ (W0.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer that the look-up of column 0 does not write holds, after it, what it held before. -/
theorem ops0_keep (V : Valuation τ sig (Elt F)) (r : Ref sig .tc) (h : r ∉ W0) :
    after ops0 V (Proc.devRef .tc r) = V (Proc.devRef .tc r) :=
  after_of_writes_sub ops0 V ops0_writes h

attribute [local irreducible] Host.reduce Host.gather in
set_option maxRecDepth 4096 in
/-- After the look-up of column 0 its result buffer holds the look-up of that token column in table 0: read back at
    that buffer, the fold of the twenty-five operations is that term, each operation's result being its function of
    the contents of the buffers it reads. -/
theorem ops0_out (V : Valuation τ sig (Elt F)) :
    after ops0 V (Proc.devRef .tc main_v2)
      = Take.take0 (V (Proc.devRef .tc main_arg1))
          (Take.tokenColumn (V (Proc.devRef .tc main_arg0)) ![0, 0] slices_S2000000x4_S2000000x1_0_0) := by
  after_results_simp
  rfl

/-- The look-up of column 1: the slice of the token array, its reshape to a vector, and the twenty-three operations of
    the gather with fill, each at its own buffer. -/
abbrev ops1 : List (HloOp τ sig (Elt F)) :=
  [ unary main_arg0 main_v3 ((extractStridedSlice S2000000x1 ![0, 1] · slices_S2000000x4_S2000000x1_0_1) : (⟨S2000000x4, .i32⟩ : BufTy).Contents (Elt F) → (⟨S2000000x1, .i32⟩ : BufTy).Contents (Elt F)),
    StableHlo.reshape main_v3 main_v4 rfl shapeCasts_S2000000x1_S2000000,
    nullary main_call1_c (constantI S_ 32 0#32),
    unary main_call1_c main_call1_v0 (broadcastInDim S2000000 ![] bcast_S_S2000000),
    binary main_v4 main_call1_v0 main_call1_v1 (cmpi .slt),
    nullary main_call1_c_0 (constantI S_ 32 24#32),
    unary main_call1_c_0 main_call1_v2 (broadcastInDim S2000000 ![] bcast_S_S2000000),
    binary main_v4 main_call1_v2 main_call1_v3 addi,
    ternary main_call1_v1 main_call1_v3 main_v4 main_call1_v4 select,
    unary main_call1_v4 main_call1_v5 (broadcastInDim S2000000x1 ![0] bcast_S2000000_S2000000x1_0),
    nullary main_call1_c_1 (constantI S1 32 23#32),
    nullary main_call1_c_2 (constantI S_ 32 0#32),
    unary main_call1_c_2 main_call1_v6 (broadcastInDim S2000000x1 ![] bcast_S_S2000000x1),
    binary main_call1_v5 main_call1_v6 main_call1_v7 (cmpi .sge),
    unary main_call1_c_1 main_call1_v8 (broadcastInDim S1x1 ![1] bcast_S1_S1x1_1),
    unary main_call1_v8 main_call1_v9 (broadcastInDim S2000000x1 ![0, 1] bcast_S1x1_S2000000x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S2000000x1_S2000000_d1 h_S_),
    binary main_arg2 main_call1_v5 main_call1_v13 (fun x i => Host.gather gather_S24x32_S2000000x1_S2000000x32_1_0_n_n_0_1_132 x i),
    unary main_call1_v12 main_call1_v14 (broadcastInDim S2000000x32 ![0] bcast_S2000000_S2000000x32_0),
    nullary main_call1_cst (constant S_ .f32 0x7FC00000#32),
    unary main_call1_cst main_call1_v15 (broadcastInDim S2000000x32 ![] bcast_S_S2000000x32),
    ternary main_call1_v14 main_call1_v13 main_call1_v15 main_v5 select ]

theorem ops1_sub : (ops1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem ops1_fresh : (ops1 : List (HloOp τ sig (Elt F))).Forall fun op => op.fresh = ∅ := by
  simp only [List.Forall]; repeat' constructor

/-- The buffers the look-up of column 1 writes. -/
abbrev W1 : List (Ref sig .tc) := [main_v3, main_v4, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]

theorem ops1_writes : (ops1 : List (HloOp τ sig (Elt F))).Forall fun op => op.writes ⊆ (W1.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer that the look-up of column 1 does not write holds, after it, what it held before. -/
theorem ops1_keep (V : Valuation τ sig (Elt F)) (r : Ref sig .tc) (h : r ∉ W1) :
    after ops1 V (Proc.devRef .tc r) = V (Proc.devRef .tc r) :=
  after_of_writes_sub ops1 V ops1_writes h

attribute [local irreducible] Host.reduce Host.gather in
set_option maxRecDepth 4096 in
/-- After the look-up of column 1 its result buffer holds the look-up of that token column in table 1: read back at
    that buffer, the fold of the twenty-five operations is that term, each operation's result being its function of
    the contents of the buffers it reads. -/
theorem ops1_out (V : Valuation τ sig (Elt F)) :
    after ops1 V (Proc.devRef .tc main_v5)
      = Take.take1 (V (Proc.devRef .tc main_arg2))
          (Take.tokenColumn (V (Proc.devRef .tc main_arg0)) ![0, 1] slices_S2000000x4_S2000000x1_0_1) := by
  after_results_simp
  rfl

/-- The look-up of column 2: the slice of the token array, its reshape to a vector, and the twenty-three operations of
    the gather with fill, each at its own buffer. -/
abbrev ops2 : List (HloOp τ sig (Elt F)) :=
  [ unary main_arg0 main_v6 ((extractStridedSlice S2000000x1 ![0, 2] · slices_S2000000x4_S2000000x1_0_2) : (⟨S2000000x4, .i32⟩ : BufTy).Contents (Elt F) → (⟨S2000000x1, .i32⟩ : BufTy).Contents (Elt F)),
    StableHlo.reshape main_v6 main_v7 rfl shapeCasts_S2000000x1_S2000000,
    nullary main_call2_c (constantI S_ 32 0#32),
    unary main_call2_c main_call2_v0 (broadcastInDim S2000000 ![] bcast_S_S2000000),
    binary main_v7 main_call2_v0 main_call2_v1 (cmpi .slt),
    nullary main_call2_c_0 (constantI S_ 32 7#32),
    unary main_call2_c_0 main_call2_v2 (broadcastInDim S2000000 ![] bcast_S_S2000000),
    binary main_v7 main_call2_v2 main_call2_v3 addi,
    ternary main_call2_v1 main_call2_v3 main_v7 main_call2_v4 select,
    unary main_call2_v4 main_call2_v5 (broadcastInDim S2000000x1 ![0] bcast_S2000000_S2000000x1_0),
    nullary main_call2_c_1 (constantI S1 32 6#32),
    nullary main_call2_c_2 (constantI S_ 32 0#32),
    unary main_call2_c_2 main_call2_v6 (broadcastInDim S2000000x1 ![] bcast_S_S2000000x1),
    binary main_call2_v5 main_call2_v6 main_call2_v7 (cmpi .sge),
    unary main_call2_c_1 main_call2_v8 (broadcastInDim S1x1 ![1] bcast_S1_S1x1_1),
    unary main_call2_v8 main_call2_v9 (broadcastInDim S2000000x1 ![0, 1] bcast_S1x1_S2000000x1_0_1),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S2000000x1_S2000000_d1 h_S_),
    binary main_arg3 main_call2_v5 main_call2_v13 (fun x i => Host.gather gather_S7x32_S2000000x1_S2000000x32_1_0_n_n_0_1_132 x i),
    unary main_call2_v12 main_call2_v14 (broadcastInDim S2000000x32 ![0] bcast_S2000000_S2000000x32_0),
    nullary main_call2_cst (constant S_ .f32 0x7FC00000#32),
    unary main_call2_cst main_call2_v15 (broadcastInDim S2000000x32 ![] bcast_S_S2000000x32),
    ternary main_call2_v14 main_call2_v13 main_call2_v15 main_v8 select ]

theorem ops2_sub : (ops2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem ops2_fresh : (ops2 : List (HloOp τ sig (Elt F))).Forall fun op => op.fresh = ∅ := by
  simp only [List.Forall]; repeat' constructor

/-- The buffers the look-up of column 2 writes. -/
abbrev W2 : List (Ref sig .tc) := [main_v6, main_v7, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v8]

theorem ops2_writes : (ops2 : List (HloOp τ sig (Elt F))).Forall fun op => op.writes ⊆ (W2.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer that the look-up of column 2 does not write holds, after it, what it held before. -/
theorem ops2_keep (V : Valuation τ sig (Elt F)) (r : Ref sig .tc) (h : r ∉ W2) :
    after ops2 V (Proc.devRef .tc r) = V (Proc.devRef .tc r) :=
  after_of_writes_sub ops2 V ops2_writes h

attribute [local irreducible] Host.reduce Host.gather in
set_option maxRecDepth 4096 in
/-- After the look-up of column 2 its result buffer holds the look-up of that token column in table 2: read back at
    that buffer, the fold of the twenty-five operations is that term, each operation's result being its function of
    the contents of the buffers it reads. -/
theorem ops2_out (V : Valuation τ sig (Elt F)) :
    after ops2 V (Proc.devRef .tc main_v8)
      = Take.take2 (V (Proc.devRef .tc main_arg3))
          (Take.tokenColumn (V (Proc.devRef .tc main_arg0)) ![0, 2] slices_S2000000x4_S2000000x1_0_2) := by
  after_results_simp
  rfl

/-- The look-up of column 3: the slice of the token array, its reshape to a vector, and the twenty-three operations of
    the gather with fill, each at its own buffer. -/
abbrev ops3 : List (HloOp τ sig (Elt F)) :=
  [ unary main_arg0 main_v9 ((extractStridedSlice S2000000x1 ![0, 3] · slices_S2000000x4_S2000000x1_0_3) : (⟨S2000000x4, .i32⟩ : BufTy).Contents (Elt F) → (⟨S2000000x1, .i32⟩ : BufTy).Contents (Elt F)),
    StableHlo.reshape main_v9 main_v10 rfl shapeCasts_S2000000x1_S2000000,
    nullary main_call3_c (constantI S_ 32 0#32),
    unary main_call3_c main_call3_v0 (broadcastInDim S2000000 ![] bcast_S_S2000000),
    binary main_v10 main_call3_v0 main_call3_v1 (cmpi .slt),
    nullary main_call3_c_0 (constantI S_ 32 60#32),
    unary main_call3_c_0 main_call3_v2 (broadcastInDim S2000000 ![] bcast_S_S2000000),
    binary main_v10 main_call3_v2 main_call3_v3 addi,
    ternary main_call3_v1 main_call3_v3 main_v10 main_call3_v4 select,
    unary main_call3_v4 main_call3_v5 (broadcastInDim S2000000x1 ![0] bcast_S2000000_S2000000x1_0),
    nullary main_call3_c_1 (constantI S1 32 59#32),
    nullary main_call3_c_2 (constantI S_ 32 0#32),
    unary main_call3_c_2 main_call3_v6 (broadcastInDim S2000000x1 ![] bcast_S_S2000000x1),
    binary main_call3_v5 main_call3_v6 main_call3_v7 (cmpi .sge),
    unary main_call3_c_1 main_call3_v8 (broadcastInDim S1x1 ![1] bcast_S1_S1x1_1),
    unary main_call3_v8 main_call3_v9 (broadcastInDim S2000000x1 ![0, 1] bcast_S1x1_S2000000x1_0_1),
    binary main_call3_v5 main_call3_v9 main_call3_v10 (cmpi .sle),
    binary main_call3_v7 main_call3_v10 main_call3_v11 andi,
    nullary main_call3_c_3 (constantI S_ 1 1#1),
    binary main_call3_v11 main_call3_c_3 main_call3_v12 (fun x v => Host.reduce IntOp.andi x v reducesTo_S2000000x1_S2000000_d1 h_S_),
    binary main_arg4 main_call3_v5 main_call3_v13 (fun x i => Host.gather gather_S60x32_S2000000x1_S2000000x32_1_0_n_n_0_1_132 x i),
    unary main_call3_v12 main_call3_v14 (broadcastInDim S2000000x32 ![0] bcast_S2000000_S2000000x32_0),
    nullary main_call3_cst (constant S_ .f32 0x7FC00000#32),
    unary main_call3_cst main_call3_v15 (broadcastInDim S2000000x32 ![] bcast_S_S2000000x32),
    ternary main_call3_v14 main_call3_v13 main_call3_v15 main_v11 select ]

theorem ops3_sub : (ops3 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem ops3_fresh : (ops3 : List (HloOp τ sig (Elt F))).Forall fun op => op.fresh = ∅ := by
  simp only [List.Forall]; repeat' constructor

/-- The buffers the look-up of column 3 writes. -/
abbrev W3 : List (Ref sig .tc) := [main_v9, main_v10, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v11]

theorem ops3_writes : (ops3 : List (HloOp τ sig (Elt F))).Forall fun op => op.writes ⊆ (W3.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A buffer that the look-up of column 3 does not write holds, after it, what it held before. -/
theorem ops3_keep (V : Valuation τ sig (Elt F)) (r : Ref sig .tc) (h : r ∉ W3) :
    after ops3 V (Proc.devRef .tc r) = V (Proc.devRef .tc r) :=
  after_of_writes_sub ops3 V ops3_writes h

attribute [local irreducible] Host.reduce Host.gather in
set_option maxRecDepth 4096 in
/-- After the look-up of column 3 its result buffer holds the look-up of that token column in table 3: read back at
    that buffer, the fold of the twenty-five operations is that term, each operation's result being its function of
    the contents of the buffers it reads. -/
theorem ops3_out (V : Valuation τ sig (Elt F)) :
    after ops3 V (Proc.devRef .tc main_v11)
      = Take.take3 (V (Proc.devRef .tc main_arg4))
          (Take.tokenColumn (V (Proc.devRef .tc main_arg0)) ![0, 3] slices_S2000000x4_S2000000x1_0_3) := by
  after_results_simp
  rfl

/-- The last operation: the four look-ups' results laid side by side along axis 1. -/
abbrev opsC : List (HloOp τ sig (Elt F)) :=
  [ nary ![main_v2, main_v5, main_v8, main_v11] main_v12 (fun u => concatenate S2000000x128 1 [⟨S2000000x32, u 0⟩, ⟨S2000000x32, u 1⟩, ⟨S2000000x32, u 2⟩, ⟨S2000000x32, u 3⟩] concatenates_S2000000x32_S2000000x32_S2000000x32_S2000000x32_S2000000x128_d1) ]

theorem opsC_sub : (opsC : List (HloOp τ sig (Elt F))).Forall fun op => op.bufs ⊆ tcRefs τ sig :=
  nary_bufs_sub ..

theorem opsC_fresh : (opsC : List (HloOp τ sig (Elt F))).Forall fun op => op.fresh = ∅ := by
  simp only [List.Forall]; repeat' constructor

/-- After the concatenate the result buffer holds the concatenation of what the four operand buffers held. -/
theorem opsC_out (V : Valuation τ sig (Elt F)) :
    after opsC V (Proc.devRef .tc main_v12)
      = concatenate S2000000x128 1
          [⟨S2000000x32, V (Proc.devRef .tc main_v2)⟩, ⟨S2000000x32, V (Proc.devRef .tc main_v5)⟩,
           ⟨S2000000x32, V (Proc.devRef .tc main_v8)⟩, ⟨S2000000x32, V (Proc.devRef .tc main_v11)⟩]
          concatenates_S2000000x32_S2000000x32_S2000000x32_S2000000x32_S2000000x128_d1 := by
  simp only [after_cons, after_nil]
  rw [nary4_result]
  rfl

/-- Every buffer but the result keeps its contents through the concatenate. -/
theorem opsC_keep (V : Valuation τ sig (Elt F)) (r : Ref sig .tc) (h : r ≠ main_v12) :
    after opsC V (Proc.devRef .tc r) = V (Proc.devRef .tc r) := by
  simp only [after_cons, after_nil]
  rw [nary_result_ne]; exact h

/-- @main's operations in order: the four look-ups, then the concatenate. -/
abbrev ops : List (HloOp τ sig (Elt F)) := ops0 ++ (ops1 ++ (ops2 ++ (ops3 ++ opsC)))

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append ops0_sub (forall_append ops1_sub (forall_append ops2_sub (forall_append ops3_sub opsC_sub)))

theorem ops_fresh : (ops : List (HloOp τ sig (Elt F))).Forall fun op => op.fresh = ∅ :=
  forall_append ops0_fresh (forall_append ops1_fresh (forall_append ops2_fresh (forall_append ops3_fresh opsC_fresh)))

/-- @main is that straight line. With each called function's body put in place of its call and the sequencing
    reassociated, both sides are one chain of the same steps: a typed reference made from a literal buffer is that
    buffer, and moving contents along its type equation is the identity. The two sides are compared by unfolding. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- The fold of the whole line is the folds of its five stretches, one after the other. -/
theorem after_ops (V : Valuation τ sig (Elt F)) :
    after ops V = after opsC (after ops3 (after ops2 (after ops1 (after ops0 V)))) := by
  simp only [ops, after_append]

/-- The result buffer at the end: the concatenate reads the four look-ups' buffers; each was written by its own
    stretch and by no later one, and each stretch read the token array and its table, which no stretch writes. -/
theorem out_eq (V : Valuation τ sig (Elt F)) :
    after ops V (Proc.devRef .tc main_v12)
      = Take.refOut (V (Proc.devRef .tc main_arg0)) (V (Proc.devRef .tc main_arg1)) (V (Proc.devRef .tc main_arg2))
          (V (Proc.devRef .tc main_arg3)) (V (Proc.devRef .tc main_arg4)) := by
  rw [after_ops, opsC_out,
    ops3_out, ops3_keep _ main_v8 (by decide), ops3_keep _ main_v5 (by decide), ops3_keep _ main_v2 (by decide),
    ops2_out, ops2_keep _ main_v5 (by decide), ops2_keep _ main_v2 (by decide), ops2_keep _ main_arg4 (by decide),
    ops2_keep _ main_arg0 (by decide),
    ops1_out, ops1_keep _ main_v2 (by decide), ops1_keep _ main_arg3 (by decide), ops1_keep _ main_arg4 (by decide),
    ops1_keep _ main_arg0 (by decide),
    ops0_out, ops0_keep _ main_arg2 (by decide), ops0_keep _ main_arg3 (by decide), ops0_keep _ main_arg4 (by decide),
    ops0_keep _ main_arg0 (by decide)]
  rfl

/-- A buffer no operation writes holds at the end what it held at the start. -/
theorem keep_eq (V : Valuation τ sig (Elt F)) (r : Ref sig .tc) (h0 : r ∉ W0) (h1 : r ∉ W1) (h2 : r ∉ W2) (h3 : r ∉ W3)
    (hC : r ≠ main_v12) : after ops V (Proc.devRef .tc r) = V (Proc.devRef .tc r) := by
  rw [after_ops, opsC_keep _ r hC, ops3_keep _ r h3, ops2_keep _ r h2, ops1_keep _ r h1, ops0_keep _ r h0]

/-- On every device, for any float values, from any memory with zero counters: every weakly fair execution of @main
    terminates with the result buffer at the reference's term of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = Take.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v12).trans (out_eq _),
      (h c main_arg0).trans (keep_eq _ main_arg0 (by decide) (by decide) (by decide) (by decide) (by decide)),
      (h c main_arg1).trans (keep_eq _ main_arg1 (by decide) (by decide) (by decide) (by decide) (by decide)),
      (h c main_arg2).trans (keep_eq _ main_arg2 (by decide) (by decide) (by decide) (by decide) (by decide)),
      (h c main_arg3).trans (keep_eq _ main_arg3 (by decide) (by decide) (by decide) (by decide) (by decide)),
      (h c main_arg4).trans (keep_eq _ main_arg4 (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.Run

end
-- ==== Proof.RefValue.lean ====
/-
  The reference's result is the table look-up.

  The reference reads column d of the token array (d = 0 … 3) as a vector of 2000000 words and looks each word up in
  table d, which has n_d rows (366, 24, 7, 60) of 32 features: a negative word is wrapped once by adding n_d; a row
  is kept when its wrapped word w has 0 ≤ w ≤ n_d − 1 (signed); the gather reads the table row the word names, the
  start index read signed and clamped into [0, n_d − 1]; a row that is not kept is filled with a not-a-number. The four
  2000000 × 32 results are laid side by side along axis 1.

  This file proves that, when every token lies in its table's range, that array is `lookup`: entry (r, col) is table
  col / 32 at row T[r, col / 32], feature col % 32. Every step is read at one index:

    * the row gather: entry (r, e) of the result is the operand at row min(s, n − 1), feature e, where s is row r's
      start index read signed, a negative one counted as 0;
    * a word below 2³¹ is not negative, so the wrap keeps it; a word w < n has 0 ≤ w ≤ n − 1 read signed, so its row
      is kept; read signed it is itself, and min(w, n − 1) = w;
    * a broadcast along an axis reads the operand at the coordinate it keeps; one column of the tokens, cut out and
      reshaped to a vector, reads T[r, d]; an "and" over an axis of length one is its one element joined to the initial
      value "true";
    * four pieces of 32 columns side by side read, at column col, piece col / 32 at column col % 32.
-/
import proofs.«406140_j31731218383102_3_alg».proof.Proof.Lookup
import proofs.«406140_j31731218383102_3_alg».proof.Proof.RefTake
import Idealize.ShloMosaic.Lib.Pipeline.Value
import Idealize.ShloMosaic.Lib.StableHlo.Predicate

noncomputable section

namespace Cert.ReferenceIdeal.RefValue

open Idealize.ShloMosaic Idealize.ShloMosaic.ValueIdx
open Cert.ReferenceIdeal Cert.ReferenceIdeal.Gen Cert.ReferenceIdeal.Take

/-! ## The row gather at an index -/

/-- A gather of whole rows of an `n × 32` table, one start index per result row (the table's row axis collapsed and
    start-indexed, its feature axis the result's offset axis, the index vector along axis 1 of an `R × 1` column):
    entry `(r, e)` of the result is the table at row `min s (n − 1)`, feature `e`, where `s` is row `r`'s start index
    read signed, a negative one counted as 0. On the row axis the operand coordinate is the clamped start alone (no
    batching or offset part); on the feature axis it is the result's own coordinate (no start, no batching part). -/
theorem gather_row_apply {α : Type} {n R w : Nat} (hn : 0 < n)
    (d : GatherDims ⟨2, ![n, 32]⟩ ⟨2, ![R, 1]⟩ ⟨2, ![R, 32]⟩)
    (hoff : d.offsetDims = [1]) (hcoll : d.collapsedSliceDims = [0]) (hob : d.operandBatchingDims = [])
    (hsim : d.startIndexMap = [0]) (hivd : d.indexVectorDim = 1)
    (x : (⟨2, ![n, 32]⟩ : Shape).Idx → α) (idx : IVec ⟨2, ![R, 1]⟩ w) (r : Fin R) (e : Fin 32) :
    Host.gather d x idx (ix2 r e) = x (ix2 (⟨min (idx (ix2 r (0 : Fin 1))).toInt.toNat (n - 1), by omega⟩ : Fin n) e) := by
  unfold Host.gather
  congr 1
  funext a
  refine Fin.ext ?_
  show d.start (ix2 r e) idx a + d.batchCoord (ix2 r e) a + d.offCoord (ix2 r e) a = _
  have hb : ∀ a : Fin 2, a ∉ d.operandBatchingDims := fun a => by rw [hob]; exact List.not_mem_nil
  rw [GatherDims.batchCoord_eq_zero _ _ _ (hb a), Nat.add_zero]
  match a with
  | ⟨0, h0⟩ =>
    -- the row axis: collapsed, so no offset part and a slice of one row; start-indexed, so the clamped start
    have hc : (⟨0, h0⟩ : Fin 2) ∈ d.collapsedSliceDims := by rw [hcoll]; exact List.mem_singleton.mpr rfl
    have hk : (⟨0, h0⟩ : Fin 2) ∉ d.sKept := fun h => ((GatherDims.mem_sKept _ _).mp h).1 hc
    have hm : (⟨0, h0⟩ : Fin 2) ∈ d.startIndexMap := by rw [hsim]; exact List.mem_singleton.mpr rfl
    have hsl : d.sliceSizes ⟨0, h0⟩ = 1 := d.slice_collapsed _ hc
    rw [GatherDims.offCoord_eq_zero _ _ _ hk, Nat.add_zero]
    unfold GatherDims.start
    rw [dif_pos hm, hsl]
    show min (idx _).toInt.toNat (n - 1) = min (idx (ix2 r (0 : Fin 1))).toInt.toNat (n - 1)
    congr 3
    congr 1
    -- the start index is read at (r, 0): the result's row on the batch axis, component 0 on the index vector's axis
    funext b
    match b with
    | ⟨0, _⟩ =>
      unfold GatherDims.siIdx
      rw [dif_neg (by rw [hivd]; exact Nat.zero_ne_one)]
      unfold GatherDims.siCoord
      apply Fin.ext
      simp only [Fin.val_cast]
      have hbd : d.batchDims = [(0 : Fin 2)] := by
        show Shape.kept _ d.offsetDims = _
        rw [hoff]; rfl
      have key2 : ∀ (k : Nat) (hk : k < d.batchDims.length), d.batchDims[k]'hk = (0 : Fin 2) := fun k hk => by
        rw [List.getElem_of_eq hbd hk]; exact List.getElem_singleton _
      rw [key2]
    | ⟨1, _⟩ =>
      unfold GatherDims.siIdx
      rw [dif_pos (by rw [hivd])]
      apply Fin.ext
      show List.idxOf (⟨0, h0⟩ : Fin 2) d.startIndexMap = 0
      rw [hsim]; simp
  | ⟨1, h1⟩ =>
    -- the feature axis: not start-indexed, so start 0; kept, so the result's coordinate on its one offset axis
    have hm : (⟨1, h1⟩ : Fin 2) ∉ d.startIndexMap := by rw [hsim]; simp
    have hk : (⟨1, h1⟩ : Fin 2) ∈ d.sKept := by
      rw [GatherDims.mem_sKept, hcoll, hob]; simp
    have key : ∀ (k : Nat) (hk : k < d.offsetDims.length), d.offsetDims[k]'hk = (1 : Fin 2) := fun k hk => by
      rw [List.getElem_of_eq hoff hk]; exact List.getElem_singleton _
    unfold GatherDims.start
    rw [dif_neg hm, Nat.zero_add]
    unfold GatherDims.offCoord
    rw [dif_pos hk, key]

/-! ## The reference's small steps at an index -/

/-- A word below 2³¹ is not negative read signed, so the wrap leaves it as it is. -/
theorem wrap_apply (n : BitVec 32) (v : IVec S2000000 32) (j : S2000000.Idx) (hv : (v j).toNat < 2 ^ 31) :
    wrap n v j = v j := by
  show Scalar.select (IntOp.cmpi .slt (v j) 0#32) (IntOp.addi (v j) n) (v j) = v j
  have h0 : IntOp.cmpi .slt (v j) 0#32 = 0#1 := by
    apply eq_zero_of_ne_one
    intro h
    exact Nat.not_lt_zero _ ((StableHlo.Predicate.slt_iff_toNat hv (by decide)).mp h)
  rw [h0, select_zero]

/-- A vector laid out as a column reads, at row `r`, the vector at `r`. -/
theorem column_apply (v : IVec S2000000 32) (r : Fin 2000000) :
    column v (ix2 r (0 : Fin 1)) = v (ix1 r) := by
  unfold column
  exact broadcastInDim_apply _ _ v _ _ (fun a => by
    obtain rfl : a = 0 := Subsingleton.elim _ _
    show r.val = if (2000000 : Nat) = 1 then 0 else r.val
    rw [if_neg (by decide)])

/-- A row's bit repeated over its 32 features reads, at `(r, e)`, the bit of row `r`. -/
theorem rowMask_apply (m : IVec S2000000 1) (r : Fin 2000000) (e : Fin 32) :
    rowMask m (ix2 r e) = m (ix1 r) := by
  unfold rowMask
  exact broadcastInDim_apply _ _ m _ _ (fun a => by
    obtain rfl : a = 0 := Subsingleton.elim _ _
    show r.val = if (2000000 : Nat) = 1 then 0 else r.val
    rw [if_neg (by decide)])

/-- Column `d` of the tokens (the 2000000 × 1 block at offset `(0, d)`, its rows read in order) is, at `r`, the token
    `T[r, d]`: row `r` of a one-column block has row-major position `r`, and the block's entry `(r, 0)` is the array's
    `(0 + r, d + 0)`. -/
theorem tokenColumn_apply (T : IVec S2000000x4 32) (off : Fin S2000000x4.rank → Nat) (h : S2000000x4.Slices off S2000000x1)
    (d : Fin 4) (h0 : off 0 = 0) (h1 : off 1 = d.val) (r : Fin 2000000) :
    tokenColumn T off h (ix1 r) = T (ix2 r d) := by
  unfold tokenColumn
  refine (shapeCast_apply _ _ (ix1 r) (ix2 r (0 : Fin 1)) ?_).trans ?_
  · rw [Shape.rowMajor_val_two, Shape.rowMajor_val_one]
    show r.val * 1 + 0 = r.val
    omega
  · exact extractStridedSlice_apply off T h _ _ (fun a => match a with
      | ⟨0, _⟩ => by show r.val = off 0 + r.val; rw [h0]; omega
      | ⟨1, _⟩ => by show d.val = off 1 + 0; rw [h1]; rfl)

/-- A fold of a commutative, associative operation over an index set of one element is the operation applied to that
    element's value and the initial value. -/
theorem fold_univ_fin_one {β : Type} (op : β → β → β) [Std.Commutative op] [Std.Associative op] (b : β) :
    ∀ (m : Nat) (hm : m = 1) (f : Fin m → β), (Finset.univ : Finset (Fin m)).fold op b f = op (f ⟨0, by omega⟩) b := by
  intro m hm f
  subst hm
  rw [Finset.univ_unique, Finset.fold_singleton]
  rfl

/-- The in-range bit of row `r`: the two comparisons of the row's start index, joined by "and", joined to "true" — the
    reduction runs over an axis of length one, whose one index over row `r` is `(r, 0)`. -/
theorem inRange_apply (hi : BitVec 32) (c : IVec S2000000x1 32) (r : Fin 2000000) :
    inRange hi c (ix1 r)
      = IntOp.andi (IntOp.andi (IntOp.cmpi .sge (c (ix2 r (0 : Fin 1))) 0#32) (IntOp.cmpi .sle (c (ix2 r (0 : Fin 1))) hi)) 1#1 := by
  have hR : S2000000x1.Reduces [1] S2000000 := by decide
  have hl : ∀ k : Fin (S2000000x1.size 1), hR.lift (ix1 r) k = ix2 r (0 : Fin 1) := by
    intro k
    funext a
    match a with
    | ⟨0, _⟩ => exact Fin.ext rfl
    | ⟨1, _⟩ =>
      refine Fin.ext ?_
      show k.val = 0
      have : k.val < 1 := k.isLt
      omega
  unfold inRange
  refine (Host.reduce_eq_fold_single (IntOp.andi (w := 1)) _ _ _ hR _ _).trans ?_
  refine (fold_univ_fin_one IntOp.andi _ _ rfl _).trans ?_
  exact congrArg (fun i => IntOp.andi (IntOp.andi (IntOp.cmpi .sge (c i) 0#32) (IntOp.cmpi .sle (c i) hi)) 1#1)
    (hl ⟨0, Nat.one_pos⟩)

/-- A row whose start index `w` has `w ≤ hi < 2³¹` (as natural numbers) is in range: such words order signed as they do
    unsigned, so `0 ≤ w` and `w ≤ hi` both hold. -/
theorem inRange_eq_one (hi : BitVec 32) (c : IVec S2000000x1 32) (r : Fin 2000000)
    (hhi : hi.toNat < 2 ^ 31) (hc : (c (ix2 r (0 : Fin 1))).toNat ≤ hi.toNat) : inRange hi c (ix1 r) = 1#1 := by
  rw [inRange_apply,
    (StableHlo.Predicate.sge_iff_toNat (a := c (ix2 r (0 : Fin 1))) (b := 0#32) (by omega) (by decide)).mpr (Nat.zero_le _),
    (StableHlo.Predicate.sle_iff_toNat (a := c (ix2 r (0 : Fin 1))) (b := hi) (by omega) hhi).mpr hc]
  rfl

/-! ## One look-up at an index -/

/-- A look-up in a table of `n` rows (`n < 2³¹`; the wrap adds `cn`, the greatest row is `chi = n − 1`), at a row whose
    word `w` is below `n`: the wrap keeps `w`, the row is in range, so the result is the gathered row, and the gather
    reads the table at row `min w (n − 1) = w`. -/
theorem take_body_apply {n : Nat} (hn : 0 < n) (hn31 : n < 2 ^ 31)
    (d : GatherDims ⟨2, ![n, 32]⟩ S2000000x1 S2000000x32)
    (hoff : d.offsetDims = [1]) (hcoll : d.collapsedSliceDims = [0]) (hob : d.operandBatchingDims = [])
    (hsim : d.startIndexMap = [0]) (hivd : d.indexVectorDim = 1)
    (cn chi : BitVec 32) (hchi : chi.toNat = n - 1)
    (W : FVec Ideal ⟨2, ![n, 32]⟩ .f32) (v : IVec S2000000 32) (r : Fin 2000000) (e : Fin 32)
    (hv : (v (ix1 r)).toNat < n) :
    select (rowMask (inRange chi (column (wrap cn v)))) (Host.gather d W (column (wrap cn v))) (fill (F := Ideal)) (ix2 r e)
      = W (ix2 (⟨(v (ix1 r)).toNat, hv⟩ : Fin n) e) := by
  have hcol : column (wrap cn v) (ix2 r (0 : Fin 1)) = v (ix1 r) :=
    (column_apply _ r).trans (wrap_apply cn v _ (by omega))
  rw [select_apply, rowMask_apply, inRange_eq_one chi _ r (by omega) (by rw [hcol]; omega), select_one,
    gather_row_apply hn d hoff hcoll hob hsim hivd]
  refine congrArg (fun k : Fin n => W (ix2 k e)) (Fin.ext ?_)
  show min (column (wrap cn v) (ix2 r (0 : Fin 1))).toInt.toNat (n - 1) = (v (ix1 r)).toNat
  rw [hcol, StableHlo.Predicate.toInt_eq_toNat_of_lt (by omega), Int.toNat_natCast]
  omega

/-- Column 0's look-up in the table of 366 rows, at a row whose word is below 366: the table's row of that word. -/
theorem take0_apply (W : FVec Ideal S366x32 .f32) (v : IVec S2000000 32) (r : Fin 2000000) (e : Fin 32)
    (hv : (v (ix1 r)).toNat < 366) :
    take0 (F := Ideal) W v (ix2 r e) = W (ix2 (⟨(v (ix1 r)).toNat, hv⟩ : Fin 366) e) := by
  unfold take0
  exact take_body_apply (n := 366) (by decide) (by decide) gather_S366x32_S2000000x1_S2000000x32_1_0_n_n_0_1_132 rfl rfl rfl rfl rfl
    366#32 365#32 rfl W v r e hv

/-- Column 1's look-up in the table of 24 rows, at a row whose word is below 24: the table's row of that word. -/
theorem take1_apply (W : FVec Ideal S24x32 .f32) (v : IVec S2000000 32) (r : Fin 2000000) (e : Fin 32)
    (hv : (v (ix1 r)).toNat < 24) :
    take1 (F := Ideal) W v (ix2 r e) = W (ix2 (⟨(v (ix1 r)).toNat, hv⟩ : Fin 24) e) := by
  unfold take1
  exact take_body_apply (n := 24) (by decide) (by decide) gather_S24x32_S2000000x1_S2000000x32_1_0_n_n_0_1_132 rfl rfl rfl rfl rfl
    24#32 23#32 rfl W v r e hv

/-- Column 2's look-up in the table of 7 rows, at a row whose word is below 7: the table's row of that word. -/
theorem take2_apply (W : FVec Ideal S7x32 .f32) (v : IVec S2000000 32) (r : Fin 2000000) (e : Fin 32)
    (hv : (v (ix1 r)).toNat < 7) :
    take2 (F := Ideal) W v (ix2 r e) = W (ix2 (⟨(v (ix1 r)).toNat, hv⟩ : Fin 7) e) := by
  unfold take2
  exact take_body_apply (n := 7) (by decide) (by decide) gather_S7x32_S2000000x1_S2000000x32_1_0_n_n_0_1_132 rfl rfl rfl rfl rfl
    7#32 6#32 rfl W v r e hv

/-- Column 3's look-up in the table of 60 rows, at a row whose word is below 60: the table's row of that word. -/
theorem take3_apply (W : FVec Ideal S60x32 .f32) (v : IVec S2000000 32) (r : Fin 2000000) (e : Fin 32)
    (hv : (v (ix1 r)).toNat < 60) :
    take3 (F := Ideal) W v (ix2 r e) = W (ix2 (⟨(v (ix1 r)).toNat, hv⟩ : Fin 60) e) := by
  unfold take3
  exact take_body_apply (n := 60) (by decide) (by decide) gather_S60x32_S2000000x1_S2000000x32_1_0_n_n_0_1_132 rfl rfl rfl rfl rfl
    60#32 59#32 rfl W v r e hv

/-! ## The four results side by side at an index -/

/-- Four pieces of 32 columns laid side by side, read at column `0 + e`: the first piece at column `e`, the row kept. -/
theorem concat4_at0 {α : Type} (x0 x1 x2 x3 : S2000000x32.Idx → α)
    (h : Shape.Concatenates (([⟨S2000000x32, x0⟩, ⟨S2000000x32, x1⟩, ⟨S2000000x32, x2⟩, ⟨S2000000x32, x3⟩] : List ((s : Shape) × (s.Idx → α))).map (·.1)) S2000000x128 1)
    (r : Fin 2000000) (col : Fin 128) (e : Fin 32) (hc : col.val = 0 + e.val) :
    concatenate S2000000x128 1 [⟨S2000000x32, x0⟩, ⟨S2000000x32, x1⟩, ⟨S2000000x32, x2⟩, ⟨S2000000x32, x3⟩] h (ix2 r col) = x0 (ix2 r e) :=
  concatenate_apply_piece 1 _ h (ix2 r col) 0 (by simp) S2000000x32 x0 rfl rfl 0 rfl (ix2 r e)
    (fun b hb => match b, hb with
      | ⟨0, _⟩, _ => rfl
      | ⟨1, _⟩, hb => absurd rfl hb)
    (by show 0 + e.val = col.val; omega)

/-- Four pieces of 32 columns laid side by side, read at column `32 + e`: the second piece at column `e`, the row kept. -/
theorem concat4_at1 {α : Type} (x0 x1 x2 x3 : S2000000x32.Idx → α)
    (h : Shape.Concatenates (([⟨S2000000x32, x0⟩, ⟨S2000000x32, x1⟩, ⟨S2000000x32, x2⟩, ⟨S2000000x32, x3⟩] : List ((s : Shape) × (s.Idx → α))).map (·.1)) S2000000x128 1)
    (r : Fin 2000000) (col : Fin 128) (e : Fin 32) (hc : col.val = 32 + e.val) :
    concatenate S2000000x128 1 [⟨S2000000x32, x0⟩, ⟨S2000000x32, x1⟩, ⟨S2000000x32, x2⟩, ⟨S2000000x32, x3⟩] h (ix2 r col) = x1 (ix2 r e) :=
  concatenate_apply_piece 1 _ h (ix2 r col) 1 (by simp) S2000000x32 x1 rfl rfl 32 rfl (ix2 r e)
    (fun b hb => match b, hb with
      | ⟨0, _⟩, _ => rfl
      | ⟨1, _⟩, hb => absurd rfl hb)
    (by show 32 + e.val = col.val; omega)

/-- Four pieces of 32 columns laid side by side, read at column `64 + e`: the third piece at column `e`, the row kept. -/
theorem concat4_at2 {α : Type} (x0 x1 x2 x3 : S2000000x32.Idx → α)
    (h : Shape.Concatenates (([⟨S2000000x32, x0⟩, ⟨S2000000x32, x1⟩, ⟨S2000000x32, x2⟩, ⟨S2000000x32, x3⟩] : List ((s : Shape) × (s.Idx → α))).map (·.1)) S2000000x128 1)
    (r : Fin 2000000) (col : Fin 128) (e : Fin 32) (hc : col.val = 64 + e.val) :
    concatenate S2000000x128 1 [⟨S2000000x32, x0⟩, ⟨S2000000x32, x1⟩, ⟨S2000000x32, x2⟩, ⟨S2000000x32, x3⟩] h (ix2 r col) = x2 (ix2 r e) :=
  concatenate_apply_piece 1 _ h (ix2 r col) 2 (by simp) S2000000x32 x2 rfl rfl 64 rfl (ix2 r e)
    (fun b hb => match b, hb with
      | ⟨0, _⟩, _ => rfl
      | ⟨1, _⟩, hb => absurd rfl hb)
    (by show 64 + e.val = col.val; omega)

/-- Four pieces of 32 columns laid side by side, read at column `96 + e`: the fourth piece at column `e`, the row kept. -/
theorem concat4_at3 {α : Type} (x0 x1 x2 x3 : S2000000x32.Idx → α)
    (h : Shape.Concatenates (([⟨S2000000x32, x0⟩, ⟨S2000000x32, x1⟩, ⟨S2000000x32, x2⟩, ⟨S2000000x32, x3⟩] : List ((s : Shape) × (s.Idx → α))).map (·.1)) S2000000x128 1)
    (r : Fin 2000000) (col : Fin 128) (e : Fin 32) (hc : col.val = 96 + e.val) :
    concatenate S2000000x128 1 [⟨S2000000x32, x0⟩, ⟨S2000000x32, x1⟩, ⟨S2000000x32, x2⟩, ⟨S2000000x32, x3⟩] h (ix2 r col) = x3 (ix2 r e) :=
  concatenate_apply_piece 1 _ h (ix2 r col) 3 (by simp) S2000000x32 x3 rfl rfl 96 rfl (ix2 r e)
    (fun b hb => match b, hb with
      | ⟨0, _⟩, _ => rfl
      | ⟨1, _⟩, hb => absurd rfl hb)
    (by show 96 + e.val = col.val; omega)

/-! ## The reference's result -/

/-- With every token in its table's range the reference's result is the look-up: at `(r, col)` the concatenation reads
    piece `col / 32` at feature `col % 32`, that piece is table `col / 32` at the row of token `T[r, col / 32]`, and a
    word in range names the row it counts. -/
theorem refOut_eq_lookup (T : IVec S2000000x4 32) (W0 : FVec Ideal S366x32 .f32) (W1 : FVec Ideal S24x32 .f32)
    (W2 : FVec Ideal S7x32 .f32) (W3 : FVec Ideal S60x32 .f32) (h : Cert.Lookup.InRange T) :
    Cert.ReferenceIdeal.Take.refOut (F := Ideal) T W0 W1 W2 W3 = Cert.Lookup.lookup T W0 W1 W2 W3 := by
  funext j
  obtain ⟨r, col, rfl⟩ : ∃ (r : Fin 2000000) (col : Fin 128), j = ix2 r col := ⟨j 0, j 1, eq_ix2 j⟩
  rw [Cert.Lookup.lookup_ix2]
  unfold Cert.Lookup.lookupAt Cert.Lookup.rowValue
  obtain ⟨h0, h1, h2, h3⟩ := h r
  unfold refOut
  by_cases c0 : col.val < 32
  · rw [dif_pos c0]
    -- columns 0 … 31: table 0 at the row's word 0, feature col − 0
    have hv : (tokenColumn T ![0, 0] slices_S2000000x4_S2000000x1_0_0 (ix1 r)).toNat < 366 := by
      rw [tokenColumn_apply T _ _ (0 : Fin 4) rfl rfl r]; exact h0
    refine (concat4_at0 _ _ _ _ _ r col ⟨col.val, c0⟩ (by show col.val = 0 + col.val; omega)).trans ?_
    refine (take0_apply W0 _ r _ hv).trans ?_
    refine congrArg (fun k : Fin 366 => W0 (ix2 k _)) (Fin.ext ?_)
    show (tokenColumn T ![0, 0] slices_S2000000x4_S2000000x1_0_0 (ix1 r)).toNat
      = (Cert.Lookup.rowOf 366 _ (T (ix2 r (0 : Fin 4)))).val
    rw [tokenColumn_apply T _ _ (0 : Fin 4) rfl rfl r, Cert.Lookup.rowOf_val_of_lt _ _ _ h0]
  · rw [dif_neg c0]
    by_cases c1 : col.val < 64
    · rw [dif_pos c1]
      -- columns 32 … 63: table 1 at the row's word 1, feature col − 32
      have hv : (tokenColumn T ![0, 1] slices_S2000000x4_S2000000x1_0_1 (ix1 r)).toNat < 24 := by
        rw [tokenColumn_apply T _ _ (1 : Fin 4) rfl rfl r]; exact h1
      refine (concat4_at1 _ _ _ _ _ r col ⟨col.val - 32, by omega⟩ (by show col.val = 32 + (col.val - 32); omega)).trans ?_
      refine (take1_apply W1 _ r _ hv).trans ?_
      refine congrArg (fun k : Fin 24 => W1 (ix2 k _)) (Fin.ext ?_)
      show (tokenColumn T ![0, 1] slices_S2000000x4_S2000000x1_0_1 (ix1 r)).toNat
        = (Cert.Lookup.rowOf 24 _ (T (ix2 r (1 : Fin 4)))).val
      rw [tokenColumn_apply T _ _ (1 : Fin 4) rfl rfl r, Cert.Lookup.rowOf_val_of_lt _ _ _ h1]
    · rw [dif_neg c1]
      by_cases c2 : col.val < 96
      · rw [dif_pos c2]
        -- columns 64 … 95: table 2 at the row's word 2, feature col − 64
        have hv : (tokenColumn T ![0, 2] slices_S2000000x4_S2000000x1_0_2 (ix1 r)).toNat < 7 := by
          rw [tokenColumn_apply T _ _ (2 : Fin 4) rfl rfl r]; exact h2
        refine (concat4_at2 _ _ _ _ _ r col ⟨col.val - 64, by omega⟩ (by show col.val = 64 + (col.val - 64); omega)).trans ?_
        refine (take2_apply W2 _ r _ hv).trans ?_
        refine congrArg (fun k : Fin 7 => W2 (ix2 k _)) (Fin.ext ?_)
        show (tokenColumn T ![0, 2] slices_S2000000x4_S2000000x1_0_2 (ix1 r)).toNat
          = (Cert.Lookup.rowOf 7 _ (T (ix2 r (2 : Fin 4)))).val
        rw [tokenColumn_apply T _ _ (2 : Fin 4) rfl rfl r, Cert.Lookup.rowOf_val_of_lt _ _ _ h2]
      · rw [dif_neg c2]
        have c3 := col.isLt
        -- columns 96 … 127: table 3 at the row's word 3, feature col − 96
        have hv : (tokenColumn T ![0, 3] slices_S2000000x4_S2000000x1_0_3 (ix1 r)).toNat < 60 := by
          rw [tokenColumn_apply T _ _ (3 : Fin 4) rfl rfl r]; exact h3
        refine (concat4_at3 _ _ _ _ _ r col ⟨col.val - 96, by omega⟩ (by show col.val = 96 + (col.val - 96); omega)).trans ?_
        refine (take3_apply W3 _ r _ hv).trans ?_
        refine congrArg (fun k : Fin 60 => W3 (ix2 k _)) (Fin.ext ?_)
        show (tokenColumn T ![0, 3] slices_S2000000x4_S2000000x1_0_3 (ix1 r)).toNat
          = (Cert.Lookup.rowOf 60 _ (T (ix2 r (3 : Fin 4)))).val
        rw [tokenColumn_apply T _ _ (3 : Fin 4) rfl rfl r, Cert.Lookup.rowOf_val_of_lt _ _ _ h3]

end Cert.ReferenceIdeal.RefValue

end
-- ==== Proof.RangeOfPre.lean ====
/-
  The index-range facts read off the precondition.

  The precondition is a conjunction of nine "for all entries" tests. Five of them speak of the token array T:
  every word is at least 0 (read signed), and for d = 0 … 3 every word of column d is below n_d (read signed),
  with n = 366, 24, 7, 60. A conjunction of bits is one exactly when each bit is one; a "for all" reduction by
  "and" is one exactly when every entry's bit is one; column d of T, kept as a one-column array, reads at row r
  the word T[r, d]. So for every row r and every d the word w = T[r, d] has 0 ≤ w < n_d read signed. A word that
  is not negative read signed has its top bit clear and is the same number read unsigned; hence w < n_d read
  unsigned, which is what the range statement asks.
-/
import proofs.«406140_j31731218383102_3_alg».proof.Proof.Gen.Pre_finite_inputs
import proofs.«406140_j31731218383102_3_alg».proof.Proof.Lookup
import Idealize.ShloMosaic.Lib.ReduceAll
import Idealize.ShloMosaic.Lib.StableHlo.Predicate

noncomputable section

namespace Cert.Pre_finite_inputs.Range

open Idealize.ShloMosaic Idealize.ShloMosaic.ValueIdx
open Cert.Pre_finite_inputs Cert.Pre_finite_inputs.Facts

/-- The shape with no axes has one index. -/
instance subsingleton_scalar_idx : Subsingleton S_.Idx := ⟨fun _ _ => funext fun d => d.elim0⟩

/-- A word that is at least 0 and below `n` read signed (`n` below 2³¹) is below `n` read unsigned: not negative
    means the top bit is clear, and then both readings are the same number. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hw : 2 * w.toNat < 2 ^ 32 := BitVec.toInt_pos_iff.1 h0
  rw [BitVec.toInt_eq_toNat_of_lt hw] at h1
  exact_mod_cast h1

/-- Column `c` of the tokens kept as a one-column array reads, at row `r`, the word `T[r, c]`: the slice starts at
    row 0 and column `c`, so its entry `(r, 0)` is the array's entry `(0 + r, c + 0)`. -/
theorem slice_col (T : IVec S2000000x4 32) (c : Nat) (hc : c < 4) (hs : S2000000x4.Slices ![0, c] S2000000x1)
    (r : Fin 2000000) :
    extractStridedSlice S2000000x1 ![0, c] T hs (ix2 r (0 : Fin 1)) = T (ix2 r (⟨c, hc⟩ : Fin 4)) := by
  unfold extractStridedSlice
  refine congrArg T (funext fun a => Fin.ext ?_)
  match a with
  | ⟨0, _⟩ => show 0 + r.val = r.val; omega
  | ⟨1, _⟩ => show c + 0 = c; omega

/-- "Every word of column `c` is below `n`", the test being one, gives the comparison at each row. -/
theorem col_lt (T : IVec S2000000x4 32) (c : Nat) (hc : c < 4) (n : BitVec 32)
    (hs : S2000000x4.Slices ![0, c] S2000000x1) (hb : S_.BroadcastsInDim S2000000x1 (![] : Fin 0 → Fin S2000000x1.rank))
    (hr : S2000000x1.ReducesTo [0, 1] S_) (hu : 0 < S_.numel) (init : IVec S_ 1)
    (e : Host.reduce IntOp.andi (cmpi .slt (extractStridedSlice S2000000x1 ![0, c] T hs)
          (broadcastInDim S2000000x1 ![] hb (constantI S_ 32 n))) init hr hu ix0 = 1#1)
    (r : Fin 2000000) : IntOp.cmpi .slt (T (ix2 r (⟨c, hc⟩ : Fin 4))) n = 1#1 := by
  have key := Host.reduce_andi_all _ init hr hu ix0 e (ix2 r (0 : Fin 1))
  rw [← slice_col T c hc hs r]
  exact key

/-- "Every word is at least 0", the test being one, gives the comparison at each entry. -/
theorem all_nonneg (T : IVec S2000000x4 32) (hb : S_.BroadcastsInDim S2000000x4 (![] : Fin 0 → Fin S2000000x4.rank))
    (hr : S2000000x4.ReducesTo [0, 1] S_) (hu : 0 < S_.numel) (init : IVec S_ 1)
    (e : Host.reduce IntOp.andi (cmpi .sge T (broadcastInDim S2000000x4 ![] hb (constantI S_ 32 0#32))) init hr hu ix0 = 1#1)
    (i : S2000000x4.Idx) : IntOp.cmpi .sge (T i) 0#32 = 1#1 :=
  Host.reduce_andi_all _ init hr hu ix0 e i

/-- The precondition gives the range facts: every word of column `d` of the tokens names a row of table `d`. -/
theorem inRange_of_pre (T : IVec S2000000x4 32) (W0 : FVec Ideal S366x32 .f32) (W1 : FVec Ideal S24x32 .f32)
    (W2 : FVec Ideal S7x32 .f32) (W3 : FVec Ideal S60x32 .f32)
    (h : Cert.Pre_finite_inputs.fn (F := Ideal) T W0 W1 W2 W3 = fun _ => 1#1) : Cert.Lookup.InRange T := by
  have h0 := congrFun h ix0
  dsimp only [fn, fn_part1, fn_part2] at h0
  -- the conjunction, last conjunct first: columns 3, 2, 1, 0 below their bounds, then every word at least 0
  obtain ⟨h37, h41⟩ := IntOp.andi_eq_one.1 h0
  obtain ⟨h32, h36⟩ := IntOp.andi_eq_one.1 h37
  obtain ⟨h27, h31⟩ := IntOp.andi_eq_one.1 h32
  obtain ⟨h22, h26⟩ := IntOp.andi_eq_one.1 h27
  obtain ⟨-, h21⟩ := IntOp.andi_eq_one.1 h22
  clear h0 h37 h32 h27 h22
  have g := all_nonneg T _ _ _ _ h21
  intro r
  exact ⟨toNat_lt_of_signed _ 366 (by norm_num) (g _) (col_lt T 0 (by decide) _ _ _ _ _ _ h26 r),
    toNat_lt_of_signed _ 24 (by norm_num) (g _) (col_lt T 1 (by decide) _ _ _ _ _ _ h31 r),
    toNat_lt_of_signed _ 7 (by norm_num) (g _) (col_lt T 2 (by decide) _ _ _ _ _ _ h36 r),
    toNat_lt_of_signed _ 60 (by norm_num) (g _) (col_lt T 3 (by decide) _ _ _ _ _ _ h41 r)⟩

end Cert.Pre_finite_inputs.Range

end
-- ==== Proof.lean ====
/-
  Four embedding lookups laid side by side, as one multi-hot matrix product against a row gather.

  The reference gathers, for each of four token columns, the rows of that column's table (366, 24, 7 or 60 rows of 32
  features) and concatenates the four results: row `r` of the result is `W₀[t₀] ‖ W₁[t₁] ‖ W₂[t₂] ‖ W₃[t₃]`. The kernel
  clips the tokens into their tables' row ranges, writes the four tables onto the diagonal of a 768 × 128 matrix of
  zeros, and multiplies, tile by tile, a matrix with four ones per row — at columns `t₀`, `384 + t₁`, `512 + t₂`,
  `640 + t₃` — with that block matrix. Feature `col` of a result row is a sum of 768 products of which at most one is
  not zero: the one at the hot column of `col`'s own table, where the block matrix holds that table's entry. So both
  programs compute `Cert.Lookup.lookup` of the arguments, provided every token names a row of its table: outside that
  range the reference wraps or fills where the kernel clips, and the claim is stated under the range precondition.
  The law that joins the two sides is `0 · x = 0`, `1 · x = x` and a sum with one term that is not zero; it holds for
  every extended real, so the finiteness of the tables is not used.

  The three frames: each kernel program runs its host operations, then the one pipelined region whose body stores one
  covering tile per grid point, and writes no argument; the reference is host operations only. The idealization
  rewrote nothing, so there is nothing to preserve beyond the text itself.
-/
import proofs.«406140_j31731218383102_3_alg».proof.Defs
import proofs.«406140_j31731218383102_3_alg».proof.Proof.Gen.Kernel
import proofs.«406140_j31731218383102_3_alg».proof.Proof.Gen.KernelIdeal
import proofs.«406140_j31731218383102_3_alg».proof.Proof.Gen.ReferenceIdeal
import proofs.«406140_j31731218383102_3_alg».proof.Proof.Gen.Pre_finite_inputs
import proofs.«406140_j31731218383102_3_alg».proof.Proof.BitsFrame
import proofs.«406140_j31731218383102_3_alg».proof.Proof.IdealFrame
import proofs.«406140_j31731218383102_3_alg».proof.Proof.IdealValue
import proofs.«406140_j31731218383102_3_alg».proof.Proof.RefRun
import proofs.«406140_j31731218383102_3_alg».proof.Proof.RefValue
import proofs.«406140_j31731218383102_3_alg».proof.Proof.RangeOfPre
import proofs.«406140_j31731218383102_3_alg».proof.Proof.Lookup
import Idealize.ShloMosaic.Adequacy
import Idealize.ShloMosaic.Init

noncomputable section

namespace Cert.Proof

open Idealize.ShloMosaic Idealize.SL.Sem

/-- The word-level kernel runs to its end and leaves its arguments alone. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Run.run (F := Ideal) m ρ)

/-- From memories that agree on the arguments, with every token in its table's range, both idealized programs end with
    the result array at the lookup of the arguments. -/
theorem algebraic : Cert.algebraic_KernelIdeal_ReferenceIdeal := by
  intro m ρ m' ρ' hpre hagree
  have hr : ∀ c : Dev Cert.KernelIdeal.nD,
      Cert.Lookup.InRange (m ((c.tc : Thread Cert.KernelIdeal.nD Cert.KernelIdeal.τ).loc Cert.KernelIdeal.main_arg0)) :=
    fun c => Cert.Pre_finite_inputs.Range.inRange_of_pre _ _ _ _ _ (hpre c)
  refine ⟨_, Cert.KernelIdeal.Result.run m ρ hr, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2.1, (hagree c).2.2.2.1, (hagree c).2.2.2.2]
  exact Cert.ReferenceIdeal.RefValue.refOut_eq_lookup _ _ _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
